-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x199x512 : Shape := ⟨3, ![512, 199, 512]⟩
abbrev S512x199x2048 : Shape := ⟨3, ![512, 199, 2048]⟩
abbrev S512x200x3 : Shape := ⟨3, ![512, 200, 3]⟩
abbrev S_ : Shape := ⟨0, ![]⟩
abbrev S512x199x1 : Shape := ⟨3, ![512, 199, 1]⟩
abbrev S512x199 : Shape := ⟨2, ![512, 199]⟩

class Facts : Prop where
  bcast_S_S512x199x512 : S_.BroadcastsInDim S512x199x512 (![] : Fin 0 → Fin S512x199x512.rank)
  reducesTo_S512x199x512_S_d0_1_2 : S512x199x512.ReducesTo [0, 1, 2] S_
  h_S_ : 0 < S_.numel
  bcast_S_S512x199x2048 : S_.BroadcastsInDim S512x199x2048 (![] : Fin 0 → Fin S512x199x2048.rank)
  reducesTo_S512x199x2048_S_d0_1_2 : S512x199x2048.ReducesTo [0, 1, 2] S_
  slices_S512x200x3_S512x199x1_0_1_0 : S512x200x3.Slices ![0, 1, 0] S512x199x1
  shapeCasts_S512x199x1_S512x199 : S512x199x1.ShapeCasts S512x199
  bcast_S_S512x199 : S_.BroadcastsInDim S512x199 (![] : Fin 0 → Fin S512x199.rank)
  reducesTo_S512x199_S_d0_1 : S512x199.ReducesTo [0, 1] S_
  slices_S512x200x3_S512x199x1_0_1_1 : S512x200x3.Slices ![0, 1, 1] S512x199x1

variable [Facts]

def fn_part1 {F : FTy → Type} [FloatOps F] (main_arg2 : IVec S512x200x3 32) (main_v14 : IVec S_ 1) (main_v16 : IVec S512x199 32) (main_c_4 : IVec S_ 32) : IVec S_ 1 :=
  let main_v17 : IVec S512x199 32 := broadcastInDim S512x199 ![] bcast_S_S512x199 main_c_4
  let main_v18 : IVec S512x199 1 := cmpi .sle main_v16 main_v17
  let main_c_5 : IVec S_ 1 := constantI S_ 1 1#1
  let main_v19 : IVec S_ 1 := (fun x v => Host.reduce IntOp.andi x v reducesTo_S512x199_S_d0_1 h_S_) main_v18 main_c_5
  let main_v20 : IVec S_ 1 := andi main_v14 main_v19
  let main_v21 : IVec S512x199x1 32 := (extractStridedSlice S512x199x1 ![0, 1, 1] · slices_S512x200x3_S512x199x1_0_1_1) main_arg2
  let main_v22 : IVec S512x199 32 := shapeCast S512x199 main_v21 shapeCasts_S512x199x1_S512x199
  let main_c_6 : IVec S_ 32 := constantI S_ 32 1#32
  let main_v23 : IVec S512x199 32 := broadcastInDim S512x199 ![] bcast_S_S512x199 main_c_6
  let main_v24 : IVec S512x199 1 := cmpi .sge main_v22 main_v23
  let main_c_7 : IVec S_ 1 := constantI S_ 1 1#1
  let main_v25 : IVec S_ 1 := (fun x v => Host.reduce IntOp.andi x v reducesTo_S512x199_S_d0_1 h_S_) main_v24 main_c_7
  let main_v26 : IVec S_ 1 := andi main_v20 main_v25
  let main_v27 : IVec S512x199x1 32 := (extractStridedSlice S512x199x1 ![0, 1, 1] · slices_S512x200x3_S512x199x1_0_1_1) main_arg2
  let main_v28 : IVec S512x199 32 := shapeCast S512x199 main_v27 shapeCasts_S512x199x1_S512x199
  let main_c_8 : IVec S_ 32 := constantI S_ 32 512#32
  let main_v29 : IVec S512x199 32 := broadcastInDim S512x199 ![] bcast_S_S512x199 main_c_8
  let main_v30 : IVec S512x199 1 := cmpi .sle main_v28 main_v29
  let main_c_9 : IVec S_ 1 := constantI S_ 1 1#1
  let main_v31 : IVec S_ 1 := (fun x v => Host.reduce IntOp.andi x v reducesTo_S512x199_S_d0_1 h_S_) main_v30 main_c_9
  let main_v32 : IVec S_ 1 := andi main_v26 main_v31
  main_v32

def fn {F : FTy → Type} [FloatOps F] (main_arg0 : FVec F S512x199x512 .f32) (main_arg1 : FVec F S512x199x2048 .f32) (main_arg2 : IVec S512x200x3 32) : IVec S_ 1 :=
  let main_v0 : FVec F S512x199x512 .f32 := Host.absf main_arg0
  let main_cst : FVec F S_ .f32 := constant S_ .f32 0x7F800000#32
  let main_v1 : FVec F S512x199x512 .f32 := broadcastInDim S512x199x512 ![] bcast_S_S512x199x512 main_cst
  let main_v2 : IVec S512x199x512 1 := cmpf .olt main_v0 main_v1
  let main_c : IVec S_ 1 := constantI S_ 1 1#1
  let main_v3 : IVec S_ 1 := (fun x v => Host.reduce IntOp.andi x v reducesTo_S512x199x512_S_d0_1_2 h_S_) main_v2 main_c
  let main_v4 : FVec F S512x199x2048 .f32 := Host.absf main_arg1
  let main_cst_0 : FVec F S_ .f32 := constant S_ .f32 0x7F800000#32
  let main_v5 : FVec F S512x199x2048 .f32 := broadcastInDim S512x199x2048 ![] bcast_S_S512x199x2048 main_cst_0
  let main_v6 : IVec S512x199x2048 1 := cmpf .olt main_v4 main_v5
  let main_c_1 : IVec S_ 1 := constantI S_ 1 1#1
  let main_v7 : IVec S_ 1 := (fun x v => Host.reduce IntOp.andi x v reducesTo_S512x199x2048_S_d0_1_2 h_S_) main_v6 main_c_1
  let main_v8 : IVec S_ 1 := andi main_v3 main_v7
  let main_v9 : IVec S512x199x1 32 := (extractStridedSlice S512x199x1 ![0, 1, 0] · slices_S512x200x3_S512x199x1_0_1_0) main_arg2
  let main_v10 : IVec S512x199 32 := shapeCast S512x199 main_v9 shapeCasts_S512x199x1_S512x199
  let main_c_2 : IVec S_ 32 := constantI S_ 32 1#32
  let main_v11 : IVec S512x199 32 := broadcastInDim S512x199 ![] bcast_S_S512x199 main_c_2
  let main_v12 : IVec S512x199 1 := cmpi .sge main_v10 main_v11
  let main_c_3 : IVec S_ 1 := constantI S_ 1 1#1
  let main_v13 : IVec S_ 1 := (fun x v => Host.reduce IntOp.andi x v reducesTo_S512x199_S_d0_1 h_S_) main_v12 main_c_3
  let main_v14 : IVec S_ 1 := andi main_v8 main_v13
  let main_v15 : IVec S512x199x1 32 := (extractStridedSlice S512x199x1 ![0, 1, 0] · slices_S512x200x3_S512x199x1_0_1_0) main_arg2
  let main_v16 : IVec S512x199 32 := shapeCast S512x199 main_v15 shapeCasts_S512x199x1_S512x199
  let main_c_4 : IVec S_ 32 := constantI S_ 32 2048#32
  fn_part1 (F := F) main_arg2 main_v14 main_v16 main_c_4
-- ==== Kernel.lean ====
abbrev S512x199x512 : Shape := ⟨3, ![512, 199, 512]⟩
abbrev S512x199x2048 : Shape := ⟨3, ![512, 199, 2048]⟩
abbrev S512x200x3 : Shape := ⟨3, ![512, 200, 3]⟩
abbrev S512x199x3 : Shape := ⟨3, ![512, 199, 3]⟩
abbrev S512x199x1 : Shape := ⟨3, ![512, 199, 1]⟩
abbrev S512x199 : Shape := ⟨2, ![512, 199]⟩
abbrev S_ : Shape := ⟨0, ![]⟩
abbrev S16x199 : Shape := ⟨2, ![16, 199]⟩
abbrev S16x199x512 : Shape := ⟨3, ![16, 199, 512]⟩
abbrev S16x199x1 : Shape := ⟨3, ![16, 199, 1]⟩
abbrev S8x199 : Shape := ⟨2, ![8, 199]⟩
abbrev S8x199x2048 : Shape := ⟨3, ![8, 199, 2048]⟩
abbrev S8x199x1 : Shape := ⟨3, ![8, 199, 1]⟩
abbrev S8x199x512 : Shape := ⟨3, ![8, 199, 512]⟩
abbrev S199 : Shape := ⟨1, ![199]⟩
abbrev S1x199 : Shape := ⟨2, ![1, 199]⟩
abbrev S512 : Shape := ⟨1, ![512]⟩
abbrev S512x1 : Shape := ⟨2, ![512, 1]⟩
abbrev S101888 : Shape := ⟨1, ![101888]⟩

abbrev nBuf : Space → Nat
  | .hbm => 79
  | .vmem => 20
  | .smem => 0
  | _ => 0

abbrev bufTy : (tb : Table) → Fin (tcTables nBuf tb) → BufTy
  | .hbm, ⟨0, _⟩ => ⟨S512x199x512, .f32⟩
  | .hbm, ⟨1, _⟩ => ⟨S512x199x2048, .f32⟩
  | .hbm, ⟨2, _⟩ => ⟨S512x200x3, .i32⟩
  | .hbm, ⟨3, _⟩ => ⟨S512x199x3, .i32⟩
  | .hbm, ⟨4, _⟩ => ⟨S512x199x1, .i32⟩
  | .hbm, ⟨5, _⟩ => ⟨S512x199, .i32⟩
  | .hbm, ⟨6, _⟩ => ⟨S_, .i32⟩
  | .hbm, ⟨7, _⟩ => ⟨S512x199, .i32⟩
  | .hbm, ⟨8, _⟩ => ⟨S512x199, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S512x199, .i32⟩
  | .hbm, ⟨13, _⟩ => ⟨S512x199, .i32⟩
  | .hbm, ⟨14, _⟩ => ⟨S_, .i32⟩
  | .hbm, ⟨15, _⟩ => ⟨S512x199, .i32⟩
  | .hbm, ⟨16, _⟩ => ⟨S512x199, .i32⟩
  | .hbm, ⟨17, _⟩ => ⟨S512x199x1, .i32⟩
  | .hbm, ⟨18, _⟩ => ⟨S512x199, .i32⟩
  | .hbm, ⟨19, _⟩ => ⟨S_, .i32⟩
  | .hbm, ⟨20, _⟩ => ⟨S512x199, .i32⟩
  | .hbm, ⟨21, _⟩ => ⟨S512x199, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S512x199, .i32⟩
  | .hbm, ⟨26, _⟩ => ⟨S512x199, .i32⟩
  | .hbm, ⟨27, _⟩ => ⟨S_, .i32⟩
  | .hbm, ⟨28, _⟩ => ⟨S512x199, .i32⟩
  | .hbm, ⟨29, _⟩ => ⟨S512x199, .i32⟩
  | .hbm, ⟨30, _⟩ => ⟨S512x199x1, .i32⟩
  | .hbm, ⟨31, _⟩ => ⟨S512x199, .i32⟩
  | .hbm, ⟨32, _⟩ => ⟨S512x199x1, .i32⟩
  | .hbm, ⟨33, _⟩ => ⟨S512x199, .i32⟩
  | .hbm, ⟨34, _⟩ => ⟨S512x199, .f32⟩
  | .hbm, ⟨35, _⟩ => ⟨S512x199, .f32⟩
  | .hbm, ⟨36, _⟩ => ⟨S512x199, .f32⟩
  | .hbm, ⟨37, _⟩ => ⟨S512x199, .f32⟩
  | .hbm, ⟨38, _⟩ => ⟨S512x199, .f32⟩
  | .hbm, ⟨39, _⟩ => ⟨S512x199, .f32⟩
  | .hbm, ⟨40, _⟩ => ⟨S_, .f32⟩
  | .hbm, ⟨41, _⟩ => ⟨S512x199, .f32⟩
  | .hbm, ⟨42, _⟩ => ⟨S512x199, .f32⟩
  | .hbm, ⟨43, _⟩ => ⟨S199, .i32⟩
  | .hbm, ⟨44, _⟩ => ⟨S1x199, .i32⟩
  | .hbm, ⟨45, _⟩ => ⟨S_, .i32⟩
  | .hbm, ⟨46, _⟩ => ⟨S512x199, .i32⟩
  | .hbm, ⟨47, _⟩ => ⟨S512x199, .i1⟩
  | .hbm, ⟨48, _⟩ => ⟨S_, .i32⟩
  | .hbm, ⟨49, _⟩ => ⟨S_, .i32⟩
  | .hbm, ⟨50, _⟩ => ⟨S512x199, .i32⟩
  | .hbm, ⟨51, _⟩ => ⟨S512x199, .i32⟩
  | .hbm, ⟨52, _⟩ => ⟨S512x199, .i32⟩
  | .hbm, ⟨53, _⟩ => ⟨S_, .i32⟩
  | .hbm, ⟨54, _⟩ => ⟨S512, .i32⟩
  | .hbm, ⟨55, _⟩ => ⟨S512x1, .i32⟩
  | .hbm, ⟨56, _⟩ => ⟨S512x199, .i32⟩
  | .hbm, ⟨57, _⟩ => ⟨S512x199, .i32⟩
  | .hbm, ⟨58, _⟩ => ⟨S512x199, .i1⟩
  | .hbm, ⟨59, _⟩ => ⟨S512x199, .f32⟩
  | .hbm, ⟨60, _⟩ => ⟨S_, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S512x199, .f32⟩
  | .hbm, ⟨66, _⟩ => ⟨S_, .f32⟩
  | .hbm, ⟨67, _⟩ => ⟨S512, .f32⟩
  | .hbm, ⟨68, _⟩ => ⟨S512x199, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S512, .f32⟩
  | .hbm, ⟨73, _⟩ => ⟨S_, .f32⟩
  | .hbm, ⟨74, _⟩ => ⟨S_, .f32⟩
  | .hbm, ⟨75, _⟩ => ⟨S512x199, .f32⟩
  | .hbm, ⟨76, _⟩ => ⟨S101888, .f32⟩
  | .hbm, ⟨77, _⟩ => ⟨S512x199, .f32⟩
  | .hbm, ⟨78, _⟩ => ⟨S101888, .f32⟩
  | .local _ .vmem, ⟨0, _⟩ => ⟨S16x199, .i32⟩
  | .local _ .vmem, ⟨1, _⟩ => ⟨S16x199, .i32⟩
  | .local _ .vmem, ⟨2, _⟩ => ⟨S16x199x512, .f32⟩
  | .local _ .vmem, ⟨3, _⟩ => ⟨S16x199x512, .f32⟩
  | .local _ .vmem, ⟨4, _⟩ => ⟨S16x199, .f32⟩
  | .local _ .vmem, ⟨5, _⟩ => ⟨S16x199, .f32⟩
  | .local _ .vmem, ⟨6, _⟩ => ⟨S16x199, .f32⟩
  | .local _ .vmem, ⟨7, _⟩ => ⟨S16x199, .f32⟩
  | .local _ .vmem, ⟨8, _⟩ => ⟨S16x199, .f32⟩
  | .local _ .vmem, ⟨9, _⟩ => ⟨S16x199, .f32⟩
  | .local _ .vmem, ⟨10, _⟩ => ⟨S8x199, .i32⟩
  | .local _ .vmem, ⟨11, _⟩ => ⟨S8x199, .i32⟩
  | .local _ .vmem, ⟨12, _⟩ => ⟨S8x199x2048, .f32⟩
  | .local _ .vmem, ⟨13, _⟩ => ⟨S8x199x2048, .f32⟩
  | .local _ .vmem, ⟨14, _⟩ => ⟨S8x199, .f32⟩
  | .local _ .vmem, ⟨15, _⟩ => ⟨S8x199, .f32⟩
  | .local _ .vmem, ⟨16, _⟩ => ⟨S8x199, .f32⟩
  | .local _ .vmem, ⟨17, _⟩ => ⟨S8x199, .f32⟩
  | .local _ .vmem, ⟨18, _⟩ => ⟨S8x199, .f32⟩
  | .local _ .vmem, ⟨19, _⟩ => ⟨S8x199, .f32⟩
  | _, _ => ⟨S512x199x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_c_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v17_0 : Ref sig .tc := ⟨.hbm, 37, rfl⟩
abbrev main_v17_1 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v25 : Ref sig .tc := ⟨.hbm, 52, rfl⟩
abbrev main_c_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_cst_9 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_10 : Ref sig .tc := ⟨.hbm, 66, rfl⟩
abbrev main_v36 : Ref sig .tc := ⟨.hbm, 67, rfl⟩
abbrev main_v37 : Ref sig .tc := ⟨.hbm, 68, rfl⟩
abbrev main_cst_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c512_i32 : BitVec 32 := 512#32
  let v4 : BitVec 32 := Scalar.muli c0_i32 c512_i32
  v4
def k0_off1 : Fin 3 → Nat :=
  let c0_1 : Index := 0#32
  let c0_2 : Index := 0#32
  let c0_i32 : BitVec 32 := 0#32
  let c512_i32 : BitVec 32 := 512#32
  let v4 : BitVec 32 := Scalar.muli c0_i32 c512_i32
  let v5 : BitVec 32 := v4
  let v6 : Index := Scalar.indexCast v5
  ![0, 0, v6.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x199 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x199x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x199 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x199 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x199 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def k1_mult1 : BitVec 32 :=
  let c0_i32 : BitVec 32 := 0#32
  let c512_i32 : BitVec 32 := 512#32
  let v4 : BitVec 32 := Scalar.muli c0_i32 c512_i32
  v4
def k1_off1 (c0_i32 : BitVec 32) : Fin 3 → Nat :=
  let c0_1 : Index := 0#32
  let c0_2 : Index := 0#32
  let c512_i32 : BitVec 32 := 512#32
  let v4 : BitVec 32 := Scalar.muli c0_i32 c512_i32
  let v5 : BitVec 32 := v4
  let v6 : Index := Scalar.indexCast v5
  ![0, 0, v6.toNat]
def k1_mult2 : BitVec 32 :=
  let c1_i32 : BitVec 32 := 1#32
  let c512_i32_5 : BitVec 32 := 512#32
  let v17 : BitVec 32 := Scalar.muli c1_i32 c512_i32_5
  v17
def k1_mult3 : BitVec 32 :=
  let c2_i32 : BitVec 32 := 2#32
  let c512_i32_10 : BitVec 32 := 512#32
  let v30 : BitVec 32 := Scalar.muli c2_i32 c512_i32_10
  v30
def k1_mult4 : BitVec 32 :=
  let c3_i32 : BitVec 32 := 3#32
  let c512_i32_15 : BitVec 32 := 512#32
  let v43 : BitVec 32 := Scalar.muli c3_i32 c512_i32_15
  v43
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x199 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x199x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x199 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x199 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x199 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S512x200x3_S512x199x3_0_1_0 : S512x200x3.Slices ![0, 1, 0] S512x199x3
  slices_S512x199x3_S512x199x1_0_0_0 : S512x199x3.Slices ![0, 0, 0] S512x199x1
  shapeCasts_S512x199x1_S512x199 : S512x199x1.ShapeCasts S512x199
  bcast_S_S512x199 : S_.BroadcastsInDim S512x199 (![] : Fin 0 → Fin S512x199.rank)
  slices_S512x199x3_S512x199x1_0_0_1 : S512x199x3.Slices ![0, 0, 1] S512x199x1
  slices_S512x199x3_S512x199x1_0_0_2 : S512x199x3.Slices ![0, 0, 2] S512x199x1
  inb_S16x199_S16x199_0_0 : ∀ a, (![0, 0] : Fin 2 → Nat) a + S16x199.size a ≤ S16x199.size a
  h_S16x199 : 0 < S16x199.numel
  shapeCasts_S16x199_S16x199 : S16x199.ShapeCasts S16x199
  shapeCasts_S16x199_S16x199x1 : S16x199.ShapeCasts S16x199x1
  h_S16x199x512 : 0 < S16x199x512.numel
  iota_S16x199x512_d2_w32 : S16x199x512.Iotas .tc 32 [2]
  broadcasts_S16x199x1_S16x199x512 : S16x199x1.Broadcasts S16x199x512
  reduces_S16x199x512_S16x199 : S16x199x512.Reduces [2] S16x199
  inb_S8x199_S8x199_0_0 : ∀ a, (![0, 0] : Fin 2 → Nat) a + S8x199.size a ≤ S8x199.size a
  h_S8x199 : 0 < S8x199.numel
  shapeCasts_S8x199_S8x199 : S8x199.ShapeCasts S8x199
  shapeCasts_S8x199_S8x199x1 : S8x199.ShapeCasts S8x199x1
  h_S8x199x512 : 0 < S8x199x512.numel
  iota_S8x199x512_d2_w32 : S8x199x512.Iotas .tc 32 [2]
  broadcasts_S8x199x1_S8x199x512 : S8x199x1.Broadcasts S8x199x512
  reduces_S8x199x512_S8x199 : S8x199x512.Reduces [2] S8x199
  bcast_S199_S1x199_1 : S199.BroadcastsInDim S1x199 (![1] : Fin 1 → Fin S1x199.rank)
  bcast_S1x199_S512x199_0_1 : S1x199.BroadcastsInDim S512x199 (![0, 1] : Fin 2 → Fin S512x199.rank)
  reducesTo_S512x199_S512_d1 : S512x199.ReducesTo [1] S512
  h_S_ : 0 < S_.numel
  bcast_S512_S512x1_0 : S512.BroadcastsInDim S512x1 (![0] : Fin 1 → Fin S512x1.rank)
  bcast_S512x1_S512x199_0_1 : S512x1.BroadcastsInDim S512x199 (![0, 1] : Fin 2 → Fin S512x199.rank)
  bcast_S_S512 : S_.BroadcastsInDim S512 (![] : Fin 0 → Fin S512.rank)
  reducesTo_S512_S_d0 : S512.ReducesTo [0] S_
  shapeCasts_S512x199_S101888 : S512x199.ShapeCasts S101888
  hrank0 : 0 < grid0.rank
  k0_mult1_dvd : 512 ∣ k0_mult1.toNat
  k0_off1_inb : ∀ a, k0_off1 a + S16x199x512.size a ≤ S16x199x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x199.size a ≤ S512x199.size a
  hwx0_0 : ∀ i : grid0.Coords, EltTy.bits .i32 = 32 ∨ (Rect.block (s := S512x199) S16x199.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x199x512.size a ≤ S512x199x512.size a
  hwx0_1 : ∀ i : grid0.Coords, EltTy.bits .f32 = 32 ∨ (Rect.block (s := S512x199x512) S16x199x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x199.size a ≤ S512x199.size a
  hwx0_2 : ∀ i : grid0.Coords, EltTy.bits .f32 = 32 ∨ (Rect.block (s := S512x199) S16x199.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x199.size a ≤ S512x199.size a
  hwx0_3 : ∀ i : grid0.Coords, EltTy.bits .f32 = 32 ∨ (Rect.block (s := S512x199) S16x199.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x199.size a ≤ S512x199.size a
  hwx0_4 : ∀ i : grid0.Coords, EltTy.bits .f32 = 32 ∨ (Rect.block (s := S512x199) S16x199.size (cc0_transform_4 i) (hinb0_4 i)).WholeWords (EltTy.packing .f32)
  hrank1 : 0 < grid1.rank
  k1_mult1_dvd : 512 ∣ k1_mult1.toNat
  k1_off1_inb : ∀ (r : Fin 4), ∀ a, (k1_off1 (BitVec.ofNat 32 r.val)) a + S8x199x512.size a ≤ S8x199x2048.size a
  k1_mult2_dvd : 512 ∣ k1_mult2.toNat
  k1_mult3_dvd : 512 ∣ k1_mult3.toNat
  k1_mult4_dvd : 512 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x199.size a ≤ S512x199.size a
  hwx1_0 : ∀ i : grid1.Coords, EltTy.bits .i32 = 32 ∨ (Rect.block (s := S512x199) S8x199.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x199x2048.size a ≤ S512x199x2048.size a
  hwx1_1 : ∀ i : grid1.Coords, EltTy.bits .f32 = 32 ∨ (Rect.block (s := S512x199x2048) S8x199x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x199.size a ≤ S512x199.size a
  hwx1_2 : ∀ i : grid1.Coords, EltTy.bits .f32 = 32 ∨ (Rect.block (s := S512x199) S8x199.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x199.size a ≤ S512x199.size a
  hwx1_3 : ∀ i : grid1.Coords, EltTy.bits .f32 = 32 ∨ (Rect.block (s := S512x199) S8x199.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x199.size a ≤ S512x199.size a
  hwx1_4 : ∀ i : grid1.Coords, EltTy.bits .f32 = 32 ∨ (Rect.block (s := S512x199) S8x199.size (cc1_transform_4 i) (hinb1_4 i)).WholeWords (EltTy.packing .f32)

variable [Facts₀]

abbrev win0_0 : Pipeline.Window sig grid0 :=
  Pipeline.Window.ofSpec (Memref.whole main_v10) S16x199.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x199x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16x199.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S16x199.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S16x199.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S8x199.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x199x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8x199.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17_0) S8x199.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17_1) S8x199.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x199x512 : Shape := ⟨3, ![512, 199, 512]⟩
abbrev S512x199x2048 : Shape := ⟨3, ![512, 199, 2048]⟩
abbrev S512x200x3 : Shape := ⟨3, ![512, 200, 3]⟩
abbrev S512x199x3 : Shape := ⟨3, ![512, 199, 3]⟩
abbrev S512x199x1 : Shape := ⟨3, ![512, 199, 1]⟩
abbrev S512x199 : Shape := ⟨2, ![512, 199]⟩
abbrev S_ : Shape := ⟨0, ![]⟩
abbrev S512x199x1x1 : Shape := ⟨4, ![512, 199, 1, 1]⟩
abbrev S1 : Shape := ⟨1, ![1]⟩
abbrev S1x1x1x1 : Shape := ⟨4, ![1, 1, 1, 1]⟩
abbrev S199 : Shape := ⟨1, ![199]⟩
abbrev S1x199 : Shape := ⟨2, ![1, 199]⟩
abbrev S512 : Shape := ⟨1, ![512]⟩
abbrev S512x1 : Shape := ⟨2, ![512, 1]⟩
abbrev S101888 : Shape := ⟨1, ![101888]⟩

abbrev nBuf : Space → Nat
  | .hbm => 201
  | .vmem => 0
  | .smem => 0
  | _ => 0

abbrev hbmTy0_0 (i : Nat) : BufTy := match i % 128 with
  | 0 => ⟨S512x199x512, .f32⟩
  | 1 => ⟨S512x199x2048, .f32⟩
  | 2 => ⟨S512x200x3, .i32⟩
  | 3 => ⟨S512x199x3, .i32⟩
  | 4 => ⟨S512x199x1, .i32⟩
  | 5 => ⟨S512x199, .i32⟩
  | 6 => ⟨S_, .i32⟩
  | 7 => ⟨S512x199, .i32⟩
  | 8 => ⟨S512x199, .i32⟩
  | 9 => ⟨S512x199x1, .i32⟩
  | 10 => ⟨S512x199, .i32⟩
  | 11 => ⟨S_, .i32⟩
  | 12 => ⟨S512x199, .i32⟩
  | 13 => ⟨S512x199, .i32⟩
  | 14 => ⟨S512x199x1, .i32⟩
  | 15 => ⟨S512x199, .i32⟩
  | 16 => ⟨S512x199x1, .i32⟩
  | 17 => ⟨S512x199, .i32⟩
  | 18 => ⟨S512x199, .f32⟩
  | 19 => ⟨S512x199x1, .i32⟩
  | 20 => ⟨S_, .i32⟩
  | 21 => ⟨S512x199x1, .i32⟩
  | 22 => ⟨S512x199x1, .i1⟩
  | 23 => ⟨S_, .i32⟩
  | 24 => ⟨S512x199x1, .i32⟩
  | 25 => ⟨S512x199x1, .i32⟩
  | 26 => ⟨S512x199x1, .i32⟩
  | 27 => ⟨S512x199x1x1, .i32⟩
  | 28 => ⟨S1, .i32⟩
  | 29 => ⟨S_, .i32⟩
  | 30 => ⟨S512x199x1x1, .i32⟩
  | 31 => ⟨S512x199x1x1, .i1⟩
  | 32 => ⟨S1x1x1x1, .i32⟩
  | 33 => ⟨S512x199x1x1, .i32⟩
  | 34 => ⟨S512x199x1x1, .i1⟩
  | 35 => ⟨S512x199x1x1, .i1⟩
  | 36 => ⟨S_, .i1⟩
  | 37 => ⟨S512x199x1, .i1⟩
  | 38 => ⟨S512x199x1, .f32⟩
  | 39 => ⟨S_, .f32⟩
  | 40 => ⟨S512x199x1, .f32⟩
  | 41 => ⟨S512x199x1, .f32⟩
  | 42 => ⟨S512x199, .f32⟩
  | 43 => ⟨S512x199x1, .i32⟩
  | 44 => ⟨S_, .i32⟩
  | 45 => ⟨S512x199x1, .i32⟩
  | 46 => ⟨S512x199x1, .i1⟩
  | 47 => ⟨S_, .i32⟩
  | 48 => ⟨S512x199x1, .i32⟩
  | 49 => ⟨S512x199x1, .i32⟩
  | 50 => ⟨S512x199x1, .i32⟩
  | 51 => ⟨S512x199x1x1, .i32⟩
  | 52 => ⟨S1, .i32⟩
  | 53 => ⟨S_, .i32⟩
  | 54 => ⟨S512x199x1x1, .i32⟩
  | 55 => ⟨S512x199x1x1, .i1⟩
  | 56 => ⟨S1x1x1x1, .i32⟩
  | 57 => ⟨S512x199x1x1, .i32⟩
  | 58 => ⟨S512x199x1x1, .i1⟩
  | 59 => ⟨S512x199x1x1, .i1⟩
  | 60 => ⟨S_, .i1⟩
  | 61 => ⟨S512x199x1, .i1⟩
  | 62 => ⟨S512x199x1, .f32⟩
  | 63 => ⟨S_, .f32⟩
  | 64 => ⟨S512x199x1, .f32⟩
  | 65 => ⟨S512x199x1, .f32⟩
  | 66 => ⟨S512x199, .f32⟩
  | 67 => ⟨S512x199, .f32⟩
  | 68 => ⟨S512x199, .f32⟩
  | 69 => ⟨S_, .f32⟩
  | 70 => ⟨S512x199, .f32⟩
  | 71 => ⟨S512x199, .f32⟩
  | 72 => ⟨S_, .f32⟩
  | 73 => ⟨S512x199, .f32⟩
  | 74 => ⟨S512x199, .f32⟩
  | 75 => ⟨S512x199, .f32⟩
  | 76 => ⟨S512x199, .f32⟩
  | 77 => ⟨S_, .f32⟩
  | 78 => ⟨S512x199, .f32⟩
  | 79 => ⟨S512x199, .f32⟩
  | 80 => ⟨S_, .f32⟩
  | 81 => ⟨S512x199, .f32⟩
  | 82 => ⟨S512x199, .f32⟩
  | 83 => ⟨S512x199, .f32⟩
  | 84 => ⟨S_, .f32⟩
  | 85 => ⟨S512x199, .f32⟩
  | 86 => ⟨S512x199, .f32⟩
  | 87 => ⟨S199, .i32⟩
  | 88 => ⟨S_, .i32⟩
  | 89 => ⟨S512x199, .i32⟩
  | 90 => ⟨S512x199, .i1⟩
  | 91 => ⟨S1x199, .i32⟩
  | 92 => ⟨S_, .i32⟩
  | 93 => ⟨S_, .i32⟩
  | 94 => ⟨S512x199, .i32⟩
  | 95 => ⟨S512x199, .i32⟩
  | 96 => ⟨S512x199, .i32⟩
  | 97 => ⟨S_, .i32⟩
  | 98 => ⟨S512, .i32⟩
  | 99 => ⟨S1x199, .i32⟩
  | 100 => ⟨S512x1, .i32⟩
  | 101 => ⟨S512x199, .i32⟩
  | 102 => ⟨S512x199, .i32⟩
  | 103 => ⟨S512x199, .i1⟩
  | 104 => ⟨S512x199, .f32⟩
  | 105 => ⟨S_, .f32⟩
  | 106 => ⟨S512, .f32⟩
  | 107 => ⟨S512x199, .f32⟩
  | 108 => ⟨S_, .f32⟩
  | 109 => ⟨S512x199, .f32⟩
  | 110 => ⟨S512x199, .f32⟩
  | 111 => ⟨S512x199, .f32⟩
  | 112 => ⟨S512x199, .f32⟩
  | 113 => ⟨S512x199, .i1⟩
  | 114 => ⟨S512x199, .f32⟩
  | 115 => ⟨S512x199, .f32⟩
  | 116 => ⟨S512x199, .f32⟩
  | 117 => ⟨S512x199, .f32⟩
  | 118 => ⟨S512x199, .f32⟩
  | 119 => ⟨S512x199, .f32⟩
  | 120 => ⟨S512x199, .f32⟩
  | 121 => ⟨S512x199, .f32⟩
  | 122 => ⟨S512x199, .f32⟩
  | 123 => ⟨S512x199, .f32⟩
  | 124 => ⟨S_, .f32⟩
  | 125 => ⟨S512x199, .f32⟩
  | 126 => ⟨S512x199, .f32⟩
  | 127 => ⟨S512x199, .f32⟩
  | _ => ⟨S512x199x512, .f32⟩

abbrev hbmTy0_1 (i : Nat) : BufTy := match i % 128 with
  | 0 => ⟨S512x199, .f32⟩
  | 1 => ⟨S_, .f32⟩
  | 2 => ⟨S512x199, .f32⟩
  | 3 => ⟨S512x199, .f32⟩
  | 4 => ⟨S512x199, .f32⟩
  | 5 => ⟨S512x199, .f32⟩
  | 6 => ⟨S512x199, .i1⟩
  | 7 => ⟨S512x199, .f32⟩
  | 8 => ⟨S512x199, .f32⟩
  | 9 => ⟨S512x199, .f32⟩
  | 10 => ⟨S512x199, .f32⟩
  | 11 => ⟨S512x199, .f32⟩
  | 12 => ⟨S512x199, .f32⟩
  | 13 => ⟨S512x199, .f32⟩
  | 14 => ⟨S512x199, .f32⟩
  | 15 => ⟨S512x199, .f32⟩
  | 16 => ⟨S512x199, .f32⟩
  | 17 => ⟨S512x199, .f32⟩
  | 18 => ⟨S512x199, .f32⟩
  | 19 => ⟨S512x199, .f32⟩
  | 20 => ⟨S_, .f32⟩
  | 21 => ⟨S512x199, .f32⟩
  | 22 => ⟨S512x199, .f32⟩
  | 23 => ⟨S512x199, .f32⟩
  | 24 => ⟨S512x199, .f32⟩
  | 25 => ⟨S512x199, .i1⟩
  | 26 => ⟨S512x199, .f32⟩
  | 27 => ⟨S512x199, .f32⟩
  | 28 => ⟨S512x199, .f32⟩
  | 29 => ⟨S512x199, .f32⟩
  | 30 => ⟨S512x199, .f32⟩
  | 31 => ⟨S512x199, .f32⟩
  | 32 => ⟨S512x199, .f32⟩
  | 33 => ⟨S512x199, .f32⟩
  | 34 => ⟨S512x199, .f32⟩
  | 35 => ⟨S512x199, .f32⟩
  | 36 => ⟨S_, .f32⟩
  | 37 => ⟨S512x199, .f32⟩
  | 38 => ⟨S512x199, .f32⟩
  | 39 => ⟨S512x199, .f32⟩
  | 40 => ⟨S512x199, .f32⟩
  | 41 => ⟨S_, .f32⟩
  | 42 => ⟨S512x199, .f32⟩
  | 43 => ⟨S512x199, .f32⟩
  | 44 => ⟨S512x199, .f32⟩
  | 45 => ⟨S512x199, .f32⟩
  | 46 => ⟨S512x199, .i1⟩
  | 47 => ⟨S512x199, .f32⟩
  | 48 => ⟨S512x199, .f32⟩
  | 49 => ⟨S512x199, .f32⟩
  | 50 => ⟨S512x199, .f32⟩
  | 51 => ⟨S512x199, .f32⟩
  | 52 => ⟨S512x199, .f32⟩
  | 53 => ⟨S512x199, .f32⟩
  | 54 => ⟨S512x199, .f32⟩
  | 55 => ⟨S512x199, .f32⟩
  | 56 => ⟨S512x199, .f32⟩
  | 57 => ⟨S512x199, .f32⟩
  | 58 => ⟨S512x199, .f32⟩
  | 59 => ⟨S512x199, .f32⟩
  | 60 => ⟨S_, .f32⟩
  | 61 => ⟨S512, .f32⟩
  | 62 => ⟨S512x199, .f32⟩
  | 63 => ⟨S_, .f32⟩
  | 64 => ⟨S512, .f32⟩
  | 65 => ⟨S512, .f32⟩
  | 66 => ⟨S512, .f32⟩
  | 67 => ⟨S_, .f32⟩
  | 68 => ⟨S_, .f32⟩
  | 69 => ⟨S512x199, .f32⟩
  | 70 => ⟨S101888, .f32⟩
  | 71 => ⟨S512x199, .f32⟩
  | 72 => ⟨S101888, .f32⟩
  | _ => ⟨S512x199x512, .f32⟩

abbrev hbmTy (i : Nat) : BufTy := match i / 128 with
  | 0 => hbmTy0_0 i
  | 1 => hbmTy0_1 i
  | _ => ⟨S512x199x512, .f32⟩

abbrev bufTy : (tb : Table) → Fin (tcTables nBuf tb) → BufTy
  | .hbm, ⟨i, _⟩ => hbmTy i
  | _, _ => ⟨S512x199x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_cst : Ref sig .tc := ⟨.hbm, 69, rfl⟩
abbrev main_v22 : Ref sig .tc := ⟨.hbm, 70, rfl⟩
abbrev main_v23 : Ref sig .tc := ⟨.hbm, 71, rfl⟩
abbrev main_cst_1 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_2 : Ref sig .tc := ⟨.hbm, 77, rfl⟩
abbrev main_v28 : Ref sig .tc := ⟨.hbm, 78, rfl⟩
abbrev main_v29 : Ref sig .tc := ⟨.hbm, 79, rfl⟩
abbrev main_cst_3 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_4 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_c_5 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_c_6 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v39 : Ref sig .tc := ⟨.hbm, 96, rfl⟩
abbrev main_c_7 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_cst_8 : Ref sig .tc := ⟨.hbm, 105, rfl⟩
abbrev main_v47 : Ref sig .tc := ⟨.hbm, 106, rfl⟩
abbrev main_call3_v0 : Ref sig .tc := ⟨.hbm, 107, rfl⟩
abbrev main_call3_call0_cst : Ref sig .tc := ⟨.hbm, 108, rfl⟩
abbrev main_call3_call0_v0 : Ref sig .tc := ⟨.hbm, 109, rfl⟩
abbrev main_call3_call0_v1 : Ref sig .tc := ⟨.hbm, 110, rfl⟩
abbrev main_call3_call0_v2 : Ref sig .tc := ⟨.hbm, 111, rfl⟩
abbrev main_call3_call0_v3 : Ref sig .tc := ⟨.hbm, 112, rfl⟩
abbrev main_call3_call0_v4 : Ref sig .tc := ⟨.hbm, 113, rfl⟩
abbrev main_call3_call0_v5 : Ref sig .tc := ⟨.hbm, 114, rfl⟩
abbrev main_call3_call0_v6 : Ref sig .tc := ⟨.hbm, 115, rfl⟩
abbrev main_call3_call0_v7 : Ref sig .tc := ⟨.hbm, 116, rfl⟩
abbrev main_call3_call0_v8 : Ref sig .tc := ⟨.hbm, 117, rfl⟩
abbrev main_call3_call0_v9 : Ref sig .tc := ⟨.hbm, 118, rfl⟩
abbrev main_call3_call0_v10 : Ref sig .tc := ⟨.hbm, 119, rfl⟩
abbrev main_call3_call0_v11 : Ref sig .tc := ⟨.hbm, 120, rfl⟩
abbrev main_call3_v1 : Ref sig .tc := ⟨.hbm, 121, rfl⟩
abbrev main_v48 : Ref sig .tc := ⟨.hbm, 122, rfl⟩
abbrev main_v49 : Ref sig .tc := ⟨.hbm, 123, rfl⟩
abbrev main_cst_9 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_call4_v0 : Ref sig .tc := ⟨.hbm, 128, rfl⟩
abbrev main_call4_call0_cst : Ref sig .tc := ⟨.hbm, 129, rfl⟩
abbrev main_call4_call0_v0 : Ref sig .tc := ⟨.hbm, 130, rfl⟩
abbrev main_call4_call0_v1 : Ref sig .tc := ⟨.hbm, 131, rfl⟩
abbrev main_call4_call0_v2 : Ref sig .tc := ⟨.hbm, 132, rfl⟩
abbrev main_call4_call0_v3 : Ref sig .tc := ⟨.hbm, 133, rfl⟩
abbrev main_call4_call0_v4 : Ref sig .tc := ⟨.hbm, 134, rfl⟩
abbrev main_call4_call0_v5 : Ref sig .tc := ⟨.hbm, 135, rfl⟩
abbrev main_call4_call0_v6 : Ref sig .tc := ⟨.hbm, 136, rfl⟩
abbrev main_call4_call0_v7 : Ref sig .tc := ⟨.hbm, 137, rfl⟩
abbrev main_call4_call0_v8 : Ref sig .tc := ⟨.hbm, 138, rfl⟩
abbrev main_call4_call0_v9 : Ref sig .tc := ⟨.hbm, 139, rfl⟩
abbrev main_call4_call0_v10 : Ref sig .tc := ⟨.hbm, 140, rfl⟩
abbrev main_call4_call0_v11 : Ref sig .tc := ⟨.hbm, 141, rfl⟩
abbrev main_call4_v1 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_call5_v0 : Ref sig .tc := ⟨.hbm, 147, rfl⟩
abbrev main_call5_call0_cst : Ref sig .tc := ⟨.hbm, 148, rfl⟩
abbrev main_call5_call0_v0 : Ref sig .tc := ⟨.hbm, 149, rfl⟩
abbrev main_call5_call0_v1 : Ref sig .tc := ⟨.hbm, 150, rfl⟩
abbrev main_call5_call0_v2 : Ref sig .tc := ⟨.hbm, 151, rfl⟩
abbrev main_call5_call0_v3 : Ref sig .tc := ⟨.hbm, 152, rfl⟩
abbrev main_call5_call0_v4 : Ref sig .tc := ⟨.hbm, 153, rfl⟩
abbrev main_call5_call0_v5 : Ref sig .tc := ⟨.hbm, 154, rfl⟩
abbrev main_call5_call0_v6 : Ref sig .tc := ⟨.hbm, 155, rfl⟩
abbrev main_call5_call0_v7 : Ref sig .tc := ⟨.hbm, 156, rfl⟩
abbrev main_call5_call0_v8 : Ref sig .tc := ⟨.hbm, 157, rfl⟩
abbrev main_call5_call0_v9 : Ref sig .tc := ⟨.hbm, 158, rfl⟩
abbrev main_call5_call0_v10 : Ref sig .tc := ⟨.hbm, 159, rfl⟩
abbrev main_call5_call0_v11 : Ref sig .tc := ⟨.hbm, 160, rfl⟩
abbrev main_call5_v1 : Ref sig .tc := ⟨.hbm, 161, rfl⟩
abbrev main_v57 : Ref sig .tc := ⟨.hbm, 162, rfl⟩
abbrev main_v58 : Ref sig .tc := ⟨.hbm, 163, rfl⟩
abbrev main_cst_10 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_call6_v0 : Ref sig .tc := ⟨.hbm, 168, rfl⟩
abbrev main_call6_call0_cst : Ref sig .tc := ⟨.hbm, 169, rfl⟩
abbrev main_call6_call0_v0 : Ref sig .tc := ⟨.hbm, 170, rfl⟩
abbrev main_call6_call0_v1 : Ref sig .tc := ⟨.hbm, 171, rfl⟩
abbrev main_call6_call0_v2 : Ref sig .tc := ⟨.hbm, 172, rfl⟩
abbrev main_call6_call0_v3 : Ref sig .tc := ⟨.hbm, 173, rfl⟩
abbrev main_call6_call0_v4 : Ref sig .tc := ⟨.hbm, 174, rfl⟩
abbrev main_call6_call0_v5 : Ref sig .tc := ⟨.hbm, 175, rfl⟩
abbrev main_call6_call0_v6 : Ref sig .tc := ⟨.hbm, 176, rfl⟩
abbrev main_call6_call0_v7 : Ref sig .tc := ⟨.hbm, 177, rfl⟩
abbrev main_call6_call0_v8 : Ref sig .tc := ⟨.hbm, 178, rfl⟩
abbrev main_call6_call0_v9 : Ref sig .tc := ⟨.hbm, 179, rfl⟩
abbrev main_call6_call0_v10 : Ref sig .tc := ⟨.hbm, 180, rfl⟩
abbrev main_call6_call0_v11 : Ref sig .tc := ⟨.hbm, 181, rfl⟩
abbrev main_call6_v1 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_cst_11 : Ref sig .tc := ⟨.hbm, 188, rfl⟩
abbrev main_v67 : Ref sig .tc := ⟨.hbm, 189, rfl⟩
abbrev main_v68 : Ref sig .tc := ⟨.hbm, 190, rfl⟩
abbrev main_cst_12 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_cst_13 : Ref sig .tc := ⟨.hbm, 195, rfl⟩
abbrev main_v72 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩

abbrev nD : Nat := 1
abbrev τ : Topo := Topo.v7x

variable {F : FTy → Type} [FloatOps F]

class Facts₀ : Prop where
  slices_S512x200x3_S512x199x3_0_1_0 : S512x200x3.Slices ![0, 1, 0] S512x199x3
  slices_S512x199x3_S512x199x1_0_0_0 : S512x199x3.Slices ![0, 0, 0] S512x199x1
  shapeCasts_S512x199x1_S512x199 : S512x199x1.ShapeCasts S512x199
  bcast_S_S512x199 : S_.BroadcastsInDim S512x199 (![] : Fin 0 → Fin S512x199.rank)
  slices_S512x199x3_S512x199x1_0_0_1 : S512x199x3.Slices ![0, 0, 1] S512x199x1
  slices_S512x199x3_S512x199x1_0_0_2 : S512x199x3.Slices ![0, 0, 2] S512x199x1
  bcast_S512x199_S512x199x1_0_1 : S512x199.BroadcastsInDim S512x199x1 (![0, 1] : Fin 2 → Fin S512x199x1.rank)
  bcast_S_S512x199x1 : S_.BroadcastsInDim S512x199x1 (![] : Fin 0 → Fin S512x199x1.rank)
  shapeCasts_S512x199x1_S512x199x1x1 : S512x199x1.ShapeCasts S512x199x1x1
  bcast_S_S512x199x1x1 : S_.BroadcastsInDim S512x199x1x1 (![] : Fin 0 → Fin S512x199x1x1.rank)
  bcast_S1_S1x1x1x1_3 : S1.BroadcastsInDim S1x1x1x1 (![3] : Fin 1 → Fin S1x1x1x1.rank)
  bcast_S1x1x1x1_S512x199x1x1_0_1_2_3 : S1x1x1x1.BroadcastsInDim S512x199x1x1 (![0, 1, 2, 3] : Fin 4 → Fin S512x199x1x1.rank)
  reducesTo_S512x199x1x1_S512x199x1_d3 : S512x199x1x1.ReducesTo [3] S512x199x1
  h_S_ : 0 < S_.numel
  bcast_S199_S1x199_1 : S199.BroadcastsInDim S1x199 (![1] : Fin 1 → Fin S1x199.rank)
  bcast_S1x199_S512x199_0_1 : S1x199.BroadcastsInDim S512x199 (![0, 1] : Fin 2 → Fin S512x199.rank)
  reducesTo_S512x199_S512_d1 : S512x199.ReducesTo [1] S512
  bcast_S512_S512x1_0 : S512.BroadcastsInDim S512x1 (![0] : Fin 1 → Fin S512x1.rank)
  bcast_S512x1_S512x199_0_1 : S512x1.BroadcastsInDim S512x199 (![0, 1] : Fin 2 → Fin S512x199.rank)
  reducesTo_S512_S_d0 : S512.ReducesTo [0] S_
  shapeCasts_S512x199_S101888 : S512x199.ShapeCasts S101888
  gather_S512x199x512_S512x199x1x1_S512x199x1_n_2_01_01_2_3_111_wf : GatherDims.WF S512x199x512 S512x199x1x1 S512x199x1 [] [2] [0, 1] [2] [0, 1] 3 ![1, 1, 1]
  gather_S512x199x2048_S512x199x1x1_S512x199x1_n_2_01_01_2_3_111_wf : GatherDims.WF S512x199x2048 S512x199x1x1 S512x199x1 [] [2] [0, 1] [2] [0, 1] 3 ![1, 1, 1]

variable [Facts₀]

def gather_S512x199x512_S512x199x1x1_S512x199x1_n_2_01_01_2_3_111 : GatherDims S512x199x512 S512x199x1x1 S512x199x1 where
  offsetDims := []
  collapsedSliceDims := [2]
  operandBatchingDims := [0, 1]
  startIndicesBatchingDims := [0, 1]
  startIndexMap := [2]
  indexVectorDim := 3
  sliceSizes := ![1, 1, 1]
  wf := gather_S512x199x512_S512x199x1x1_S512x199x1_n_2_01_01_2_3_111_wf
def gather_S512x199x2048_S512x199x1x1_S512x199x1_n_2_01_01_2_3_111 : GatherDims S512x199x2048 S512x199x1x1 S512x199x1 where
  offsetDims := []
  collapsedSliceDims := [2]
  operandBatchingDims := [0, 1]
  startIndicesBatchingDims := [0, 1]
  startIndexMap := [2]
  indexVectorDim := 3
  sliceSizes := ![1, 1, 1]
  wf := gather_S512x199x2048_S512x199x1x1_S512x199x1_n_2_01_01_2_3_111_wf

class Facts : Prop extends Facts₀ where

variable [Facts]
-- ==== Proof.Spec.lean ====
/-
  The specification both programs are read against: the loss of a ragged sequence model as functions of whole arrays.
  From the integer table `batch` of shape [512, 200, 3] only the steps 1 … 199 are used: column 0 holds a question id,
  column 1 a skill id, column 2 the answer. An id minus one indexes the last axis of the logits `p_q` [512, 199, 2048]
  and `p_s` [512, 199, 512]. From the two selected logits come two probabilities (their mean is the prediction) and two
  binary cross entropies in logit form; a step counts when it is not after the row's last positive skill id.
  Everything here is a composition of the host operations, generic in the float instance, so that the term either
  program's run computes is one of these functions by unfolding; no program is imported.
-/
import Idealize.ShloMosaic.PureOps
import Idealize.ShloMosaic.PureOps.Ideal
import Idealize.ShloMosaic.Lib.ValueIdx

noncomputable section

namespace Cert.Spec

open Idealize.ShloMosaic

abbrev S_ : Shape := ⟨0, ![]⟩
abbrev S1 : Shape := ⟨1, ![1]⟩
abbrev S199 : Shape := ⟨1, ![199]⟩
abbrev S512 : Shape := ⟨1, ![512]⟩
abbrev S101888 : Shape := ⟨1, ![101888]⟩
abbrev S1x199 : Shape := ⟨2, ![1, 199]⟩
abbrev S512x1 : Shape := ⟨2, ![512, 1]⟩
abbrev S512x199 : Shape := ⟨2, ![512, 199]⟩
abbrev S512x199x1 : Shape := ⟨3, ![512, 199, 1]⟩
abbrev S512x199x3 : Shape := ⟨3, ![512, 199, 3]⟩
abbrev S512x200x3 : Shape := ⟨3, ![512, 200, 3]⟩
abbrev S512x199x512 : Shape := ⟨3, ![512, 199, 512]⟩
abbrev S512x199x2048 : Shape := ⟨3, ![512, 199, 2048]⟩
abbrev S512x199x1x1 : Shape := ⟨4, ![512, 199, 1, 1]⟩
abbrev S1x1x1x1 : Shape := ⟨4, ![1, 1, 1, 1]⟩

/-! ## The shape relations the operations take -/

theorem slices_S512x200x3_S512x199x3_0_1_0 : S512x200x3.Slices ![0, 1, 0] S512x199x3 := by decide
theorem slices_S512x199x3_S512x199x1_0_0_0 : S512x199x3.Slices ![0, 0, 0] S512x199x1 := by decide
theorem slices_S512x199x3_S512x199x1_0_0_1 : S512x199x3.Slices ![0, 0, 1] S512x199x1 := by decide
theorem slices_S512x199x3_S512x199x1_0_0_2 : S512x199x3.Slices ![0, 0, 2] S512x199x1 := by decide
theorem shapeCasts_S512x199x1_S512x199 : S512x199x1.ShapeCasts S512x199 := by decide
theorem shapeCasts_S512x199x1_S512x199x1x1 : S512x199x1.ShapeCasts S512x199x1x1 := by decide
theorem shapeCasts_S512x199_S101888 : S512x199.ShapeCasts S101888 := by decide
theorem bcast_S_S512 : S_.BroadcastsInDim S512 (![] : Fin 0 → Fin S512.rank) := by decide
theorem bcast_S_S512x199 : S_.BroadcastsInDim S512x199 (![] : Fin 0 → Fin S512x199.rank) := by decide
theorem bcast_S_S512x199x1 : S_.BroadcastsInDim S512x199x1 (![] : Fin 0 → Fin S512x199x1.rank) := by decide
theorem bcast_S_S512x199x1x1 : S_.BroadcastsInDim S512x199x1x1 (![] : Fin 0 → Fin S512x199x1x1.rank) := by decide
theorem bcast_S512x199_S512x199x1_0_1 : S512x199.BroadcastsInDim S512x199x1 (![0, 1] : Fin 2 → Fin S512x199x1.rank) := by decide
theorem bcast_S1_S1x1x1x1_3 : S1.BroadcastsInDim S1x1x1x1 (![3] : Fin 1 → Fin S1x1x1x1.rank) := by decide
theorem bcast_S1x1x1x1_S512x199x1x1_0_1_2_3 : S1x1x1x1.BroadcastsInDim S512x199x1x1 (![0, 1, 2, 3] : Fin 4 → Fin S512x199x1x1.rank) := by decide
theorem bcast_S199_S1x199_1 : S199.BroadcastsInDim S1x199 (![1] : Fin 1 → Fin S1x199.rank) := by decide
theorem bcast_S1x199_S512x199_0_1 : S1x199.BroadcastsInDim S512x199 (![0, 1] : Fin 2 → Fin S512x199.rank) := by decide
theorem bcast_S512_S512x1_0 : S512.BroadcastsInDim S512x1 (![0] : Fin 1 → Fin S512x1.rank) := by decide
theorem bcast_S512x1_S512x199_0_1 : S512x1.BroadcastsInDim S512x199 (![0, 1] : Fin 2 → Fin S512x199.rank) := by decide
theorem reducesTo_S512x199x1x1_S512x199x1_d3 : S512x199x1x1.ReducesTo [3] S512x199x1 := by decide
theorem reducesTo_S512x199_S512_d1 : S512x199.ReducesTo [1] S512 := by decide
theorem reducesTo_S512_S_d0 : S512.ReducesTo [0] S_ := by decide
theorem h_S_ : 0 < S_.numel := by decide
theorem gather512_wf : GatherDims.WF S512x199x512 S512x199x1x1 S512x199x1 [] [2] [0, 1] [2] [0, 1] 3 ![1, 1, 1] := by decide
theorem gather2048_wf : GatherDims.WF S512x199x2048 S512x199x1x1 S512x199x1 [] [2] [0, 1] [2] [0, 1] 3 ![1, 1, 1] := by decide

/-- One element per (row, step) out of the last axis of a [512, 199, 512] array. -/
def gather512 : GatherDims S512x199x512 S512x199x1x1 S512x199x1 where
  offsetDims := []
  collapsedSliceDims := [2]
  operandBatchingDims := [0, 1]
  startIndicesBatchingDims := [0, 1]
  startIndexMap := [2]
  indexVectorDim := 3
  sliceSizes := ![1, 1, 1]
  wf := gather512_wf
/-- One element per (row, step) out of the last axis of a [512, 199, 2048] array. -/
def gather2048 : GatherDims S512x199x2048 S512x199x1x1 S512x199x1 where
  offsetDims := []
  collapsedSliceDims := [2]
  operandBatchingDims := [0, 1]
  startIndicesBatchingDims := [0, 1]
  startIndexMap := [2]
  indexVectorDim := 3
  sliceSizes := ![1, 1, 1]
  wf := gather2048_wf

variable {F : FTy → Type} [FloatOps F]

/-! ## The integer table's columns -/

/-- Steps 1 … 199 of the table. -/
def steps (B : IVec S512x200x3 32) : IVec S512x199x3 32 :=
  extractStridedSlice S512x199x3 ![0, 1, 0] B slices_S512x200x3_S512x199x3_0_1_0
/-- The question ids of steps 1 … 199. -/
def col0 (B : IVec S512x200x3 32) : IVec S512x199 32 :=
  shapeCast S512x199 (extractStridedSlice S512x199x1 ![0, 0, 0] (steps B) slices_S512x199x3_S512x199x1_0_0_0) shapeCasts_S512x199x1_S512x199
/-- The skill ids of steps 1 … 199. -/
def col1 (B : IVec S512x200x3 32) : IVec S512x199 32 :=
  shapeCast S512x199 (extractStridedSlice S512x199x1 ![0, 0, 1] (steps B) slices_S512x199x3_S512x199x1_0_0_1) shapeCasts_S512x199x1_S512x199
/-- The answers of steps 1 … 199. -/
def col2 (B : IVec S512x200x3 32) : IVec S512x199 32 :=
  shapeCast S512x199 (extractStridedSlice S512x199x1 ![0, 0, 2] (steps B) slices_S512x199x3_S512x199x1_0_0_2) shapeCasts_S512x199x1_S512x199
/-- The answers as floats. -/
def ansOf (B : IVec S512x200x3 32) : FVec F S512x199 .f32 := sitofp .f32 (col2 B)
/-- An id minus one: the position it names. -/
def idxOf (x : IVec S512x199 32) : IVec S512x199 32 :=
  subi x (broadcastInDim S512x199 ![] bcast_S_S512x199 (constantI S_ 32 1#32))
/-- A position clamped into `[lo, hi]` (signed). -/
def clipOf (lo hi : BitVec 32) (x : IVec S512x199 32) : IVec S512x199 32 :=
  minsi (broadcastInDim S512x199 ![] bcast_S_S512x199 (id (constantI S_ 32 hi)))
    (maxsi (broadcastInDim S512x199 ![] bcast_S_S512x199 (id (constantI S_ 32 lo))) x)

/-! ## Selecting one logit per (row, step): the host's `take_along_axis` -/

/-- A position below zero counted from the end of an axis of length `n`, as a [512, 199, 1, 1] index array. -/
def wrapOf (n : BitVec 32) (i : IVec S512x199 32) : IVec S512x199x1x1 32 :=
  shapeCast S512x199x1x1
    (select (cmpi .slt (broadcastInDim S512x199x1 ![0, 1] bcast_S512x199_S512x199x1_0_1 i)
        (broadcastInDim S512x199x1 ![] bcast_S_S512x199x1 (constantI S_ 32 0#32)))
      (addi (broadcastInDim S512x199x1 ![0, 1] bcast_S512x199_S512x199x1_0_1 i)
        (broadcastInDim S512x199x1 ![] bcast_S_S512x199x1 (constantI S_ 32 n)))
      (broadcastInDim S512x199x1 ![0, 1] bcast_S512x199_S512x199x1_0_1 i))
    shapeCasts_S512x199x1_S512x199x1x1
/-- Whether the wrapped position lies in `[0, last]`. -/
def inRangeOf (last : BitVec 32) (j : IVec S512x199x1x1 32) : IVec S512x199x1 1 :=
  Host.reduce IntOp.andi
    (andi (cmpi .sge j (broadcastInDim S512x199x1x1 ![] bcast_S_S512x199x1x1 (constantI S_ 32 0#32)))
      (cmpi .sle j (broadcastInDim S512x199x1x1 ![0, 1, 2, 3] bcast_S1x1x1x1_S512x199x1x1_0_1_2_3
        (broadcastInDim S1x1x1x1 ![3] bcast_S1_S1x1x1x1_3 (constantI S1 32 last)))))
    (constantI S_ 1 1#1) reducesTo_S512x199x1x1_S512x199x1_d3 h_S_
/-- The logit of `p` [512, 199, 512] at position `i` of the last axis, per (row, step); the fill word outside the axis. -/
def take512 (p : FVec F S512x199x512 .f32) (i : IVec S512x199 32) : FVec F S512x199 .f32 :=
  shapeCast S512x199
    (select (inRangeOf 511#32 (wrapOf 512#32 i)) (Host.gather gather512 p (wrapOf 512#32 i))
      (broadcastInDim S512x199x1 ![] bcast_S_S512x199x1 (constant S_ .f32 0x7FC00000#32)))
    shapeCasts_S512x199x1_S512x199
/-- The logit of `p` [512, 199, 2048] at position `i` of the last axis, per (row, step); the fill word outside the axis. -/
def take2048 (p : FVec F S512x199x2048 .f32) (i : IVec S512x199 32) : FVec F S512x199 .f32 :=
  shapeCast S512x199
    (select (inRangeOf 2047#32 (wrapOf 2048#32 i)) (Host.gather gather2048 p (wrapOf 2048#32 i))
      (broadcastInDim S512x199x1 ![] bcast_S_S512x199x1 (constant S_ .f32 0x7FC00000#32)))
    shapeCasts_S512x199x1_S512x199

/-- The element of `p` [512, 199, 512] at position `j` of the last axis (the word read unsigned, modulo the axis length), per (row, step). -/
def pick512 {α : Type} (p : S512x199x512.Idx → α) (j : IVec S512x199 32) : S512x199.Idx → α :=
  fun i => p (ValueIdx.ix3 (n0 := 512) (n1 := 199) (n2 := 512) (i 0) (i 1) ⟨(j i).toNat % 512, Nat.mod_lt _ (by decide)⟩)
/-- The element of `p` [512, 199, 2048] at position `j` of the last axis (the word read unsigned, modulo the axis length), per (row, step). -/
def pick2048 {α : Type} (p : S512x199x2048.Idx → α) (j : IVec S512x199 32) : S512x199.Idx → α :=
  fun i => p (ValueIdx.ix3 (n0 := 512) (n1 := 199) (n2 := 2048) (i 0) (i 1) ⟨(j i).toNat % 2048, Nat.mod_lt _ (by decide)⟩)

/-! ## The pointwise functions of a logit, in the host's operations -/

/-- The [512, 199] array of zeros. -/
def zeros : FVec F S512x199 .f32 := broadcastInDim S512x199 ![] bcast_S_S512x199 (constant S_ .f32 0x00000000#32)
/-- The [512, 199] array of ones. -/
def ones : FVec F S512x199 .f32 := broadcastInDim S512x199 ![] bcast_S_S512x199 (constant S_ .f32 0x3F800000#32)
/-- The probability `1 / (1 + e^(-x))`. -/
def sigOf (x : FVec F S512x199 .f32) : FVec F S512x199 .f32 :=
  Host.divf ones (addf ones (Host.exp (Host.negf x)))
/-- `log (1 + e^y)` as `max y 0 + log1p (e^(-|y|))`, with the branch a not-a-number would take. -/
def softplusOf (y : FVec F S512x199 .f32) : FVec F S512x199 .f32 :=
  select (cmpf .une (subf y zeros) (subf y zeros)) (addf y zeros)
    (addf (maximumf y zeros) (Host.log1p (Host.exp (Host.negf (Host.absf (subf y zeros))))))
/-- `log (1 / (1 + e^(-x)))`. -/
def logsigOf (x : FVec F S512x199 .f32) : FVec F S512x199 .f32 := Host.negf (softplusOf (Host.negf x))
/-- The binary cross entropy of the logit `x` against the answer `a`. -/
def bceOf (a x : FVec F S512x199 .f32) : FVec F S512x199 .f32 :=
  Host.negf (addf (mulf a (logsigOf x)) (mulf (subf ones a) (logsigOf (Host.negf x))))

/-! ## The same entropy as the kernel body spells it, one element at a time -/

/-- The word of zero at a float instance. -/
def zeroW : F .f32 := Scalar.ofBits .f32 0x00000000#32
/-- The word of one at a float instance. -/
def oneW : F .f32 := Scalar.ofBits .f32 0x3F800000#32
/-- `log (1 + e^y)` in the kernel's operations. -/
def softplusK (y : F .f32) : F .f32 :=
  Scalar.select (FloatOps.cmpf .one (FloatOps.subf y zeroW) (FloatOps.subf y zeroW)) (FloatOps.addf y zeroW)
    (FloatOps.addf (FloatOps.maximumf y zeroW)
      (FloatOps.log1p (FloatOps.exp (FloatOps.subf zeroW (FloatOps.absf (FloatOps.subf y zeroW))))))
/-- `log (1 / (1 + e^(-x)))` in the kernel's operations: negation is subtraction from zero. -/
def logsigK (x : F .f32) : F .f32 := FloatOps.subf zeroW (softplusK (FloatOps.subf zeroW x))
/-- The binary cross entropy in the kernel's operations. -/
def bceK (a x : F .f32) : F .f32 :=
  FloatOps.subf zeroW (FloatOps.addf (FloatOps.mulf a (logsigK x))
    (FloatOps.mulf (FloatOps.subf oneW a) (logsigK (FloatOps.subf zeroW x))))

/-! ## Which steps count, and the three results -/

/-- The step numbers 0 … 198 along every row. -/
def stepNo : IVec S512x199 32 :=
  broadcastInDim S512x199 ![0, 1] bcast_S1x199_S512x199_0_1 (broadcastInDim S1x199 ![1] bcast_S199_S1x199_1 (iotaInDim S199 32 0))
/-- Per row, the last step whose skill id is positive (−1 if none). -/
def lastOf (s : IVec S512x199 32) : IVec S512 32 :=
  Host.reduce IntOp.maxsi
    (select (cmpi .sgt s (broadcastInDim S512x199 ![] bcast_S_S512x199 (constantI S_ 32 0#32))) stepNo
      (broadcastInDim S512x199 ![] bcast_S_S512x199 (id (constantI S_ 32 4294967295#32))))
    (constantI S_ 32 2147483648#32) reducesTo_S512x199_S512_d1 h_S_
/-- One where the step is not after the row's last positive skill id, zero elsewhere. -/
def maskOf (s : IVec S512x199 32) : FVec F S512x199 .f32 :=
  uitofp .f32 (cmpi .sle stepNo
    (broadcastInDim S512x199 ![0, 1] bcast_S512x1_S512x199_0_1 (broadcastInDim S512x1 ![0] bcast_S512_S512x1_0 (lastOf s))))
/-- The sum along each row. -/
def rowSum (x : FVec F S512x199 .f32) : FVec F S512 .f32 :=
  Host.reduceAdd x (constant S_ .f32 0x00000000#32) reducesTo_S512x199_S512_d1 h_S_
/-- The kernel's guard on a row's count: at least one. -/
def guardOf (n : FVec F S512 .f32) : FVec F S512 .f32 :=
  maximumf n (broadcastInDim S512 ![] bcast_S_S512 (constant S_ .f32 0x3F800000#32))
/-- The loss: per row the counted entropies summed and divided by the count `n`, then summed over the rows. -/
def lossOf (mk bs bq : FVec F S512x199 .f32) (n : FVec F S512 .f32) : FVec F S_ .f32 :=
  Host.reduceAdd (Host.divf (addf (rowSum (mulf mk bs)) (rowSum (mulf mk bq))) n) (constant S_ .f32 0x00000000#32)
    reducesTo_S512_S_d0 h_S_
/-- The prediction: the mean of the two probabilities where the step counts, flattened. -/
def predOf (ps pq mk : FVec F S512x199 .f32) : FVec F S101888 .f32 :=
  shapeCast S101888
    (mulf (mulf (addf ps pq) (broadcastInDim S512x199 ![] bcast_S_S512x199 (constant S_ .f32 0x3F000000#32))) mk)
    shapeCasts_S512x199_S101888
/-- The ground truth: the answer where the step counts, flattened. -/
def truthOf (a mk : FVec F S512x199 .f32) : FVec F S101888 .f32 :=
  shapeCast S101888 (mulf a mk) shapeCasts_S512x199_S101888

end Cert.Spec

end
-- ==== Proof.KHost.lean ====
/-
  The kernel program's host side, read as values. Its @main computes, before the two kernel launches, the clamped
  positions of the skill and question ids, the skill ids themselves and the answers as floats; after them, from the
  four arrays the launches leave, the loss, the prediction and the ground truth. Here each of those buffers is read off
  the chain of boundary contents (the launch memory, then what each stretch of host operations and each launch
  leaves) as a specification function of the buffers before it.
-/
import proofs.«403331_j53609781789270_3_alg».proof.Proof.Gen.KernelIdeal.Frame
import proofs.«403331_j53609781789270_3_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the launches -/

/-- The skill positions handed to the first launch: the skill id minus one, clamped into the axis of length 512. -/
theorem W5_v10 (c : Dev nD) :
    W5 m ρ c (Proc.devRef .tc main_v10)
      = Cert.Spec.clipOf 0#32 511#32 (Cert.Spec.idxOf (Cert.Spec.col1 (m ((c : Thread nD τ).loc main_arg2)))) := by
  show StableHlo.after hostOps0_4 (StableHlo.after hostOps0_3 (StableHlo.after hostOps0_2 (StableHlo.after hostOps0_1
    (StableHlo.after hostOps0 (W0 m ρ c))))) (Proc.devRef .tc main_v10) = _
  after_results
  rfl

/-- The question positions handed to the second launch: the question id minus one, clamped into the axis of length 2048. -/
theorem W5_v5 (c : Dev nD) :
    W5 m ρ c (Proc.devRef .tc main_v5)
      = Cert.Spec.clipOf 0#32 2047#32 (Cert.Spec.idxOf (Cert.Spec.col0 (m ((c : Thread nD τ).loc main_arg2)))) := by
  show StableHlo.after hostOps0_4 (StableHlo.after hostOps0_3 (StableHlo.after hostOps0_2 (StableHlo.after hostOps0_1
    (StableHlo.after hostOps0 (W0 m ρ c))))) (Proc.devRef .tc main_v5) = _
  after_results
  rfl

/-- The skill ids the mask is made of. -/
theorem W5_v12 (c : Dev nD) : W5 m ρ c (Proc.devRef .tc main_v12) = Cert.Spec.col1 (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v12) = _
  after_results
  rfl

/-- The answers as floats. -/
theorem W5_v15 (c : Dev nD) : W5 m ρ c (Proc.devRef .tc main_v15) = Cert.Spec.ansOf (F := F) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v15) = _
  after_results
  rfl

/-- The two logit arrays are as launched. -/
theorem W5_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  after_results

theorem W5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  after_results

/-! ## Across the launches: a launch leaves every buffer that is not one of its arrays, and its input arrays, as it found them -/

theorem W6_v5 (c : Dev nD) : W6 m ρ c (Proc.devRef .tc main_v5) = W5 m ρ c (Proc.devRef .tc main_v5) :=
  W6_of_ne m ρ c main_v5 (by decide)

theorem W6_arg1 (c : Dev nD) : W6 m ρ c (Proc.devRef .tc main_arg1) = W5 m ρ c (Proc.devRef .tc main_arg1) :=
  W6_of_ne m ρ c main_arg1 (by decide)

theorem W6_v12 (c : Dev nD) : W6 m ρ c (Proc.devRef .tc main_v12) = W5 m ρ c (Proc.devRef .tc main_v12) :=
  W6_of_ne m ρ c main_v12 (by decide)

theorem W6_v15 (c : Dev nD) : W6 m ρ c (Proc.devRef .tc main_v15) = W5 m ρ c (Proc.devRef .tc main_v15) :=
  (W6_arr m ρ c 2).trans (((dat0 (V5 m ρ) c).arrAt_in 2 rfl _).trans (A_eq0 (V5 m ρ) c 2))

theorem W7_v12 (c : Dev nD) : W7 m ρ c (Proc.devRef .tc main_v12) = W5 m ρ c (Proc.devRef .tc main_v12) :=
  (W7_of_ne m ρ c main_v12 (by decide)).trans (W6_v12 m ρ c)

theorem W7_v15 (c : Dev nD) : W7 m ρ c (Proc.devRef .tc main_v15) = W5 m ρ c (Proc.devRef .tc main_v15) :=
  ((W7_arr m ρ c 2).trans (((dat1 (V6 m ρ) c).arrAt_in 2 rfl _).trans (A_eq1 (V6 m ρ) c 2))).trans (W6_v15 m ρ c)

/-- The first launch's outputs, still there after the second. -/
theorem W7_v16_0 (c : Dev nD) : W7 m ρ c (Proc.devRef .tc main_v16_0) = (dat0 (V5 m ρ) c).arrAt 3 cfg0.N :=
  (W7_of_ne m ρ c main_v16_0 (by decide)).trans (W6_arr m ρ c 3)

theorem W7_v16_1 (c : Dev nD) : W7 m ρ c (Proc.devRef .tc main_v16_1) = (dat0 (V5 m ρ) c).arrAt 4 cfg0.N :=
  (W7_of_ne m ρ c main_v16_1 (by decide)).trans (W6_arr m ρ c 4)

/-- The second launch's outputs. -/
theorem W7_v17_0 (c : Dev nD) : W7 m ρ c (Proc.devRef .tc main_v17_0) = (dat1 (V6 m ρ) c).arrAt 3 cfg1.N :=
  W7_arr m ρ c 3

theorem W7_v17_1 (c : Dev nD) : W7 m ρ c (Proc.devRef .tc main_v17_1) = (dat1 (V6 m ρ) c).arrAt 4 cfg1.N :=
  W7_arr m ρ c 4

/-! ## After the launches -/

section Tail

variable (X : Valuation τ sig (Elt F))

attribute [local irreducible] Host.reduce Host.reduceAdd in
set_option maxHeartbeats 1600000 in
/-- The loss as the last forty host operations compute it from ANY contents `X` at the second launch's exit: the row
    count is guarded to be at least one. -/
theorem tail_v41 :
    StableHlo.after hostOps2_2 (StableHlo.after hostOps2_1 (StableHlo.after hostOps2 X)) (Proc.devRef .tc main_v41)
      = Cert.Spec.lossOf (Cert.Spec.maskOf (X (Proc.devRef .tc main_v12)))
          (X (Proc.devRef .tc main_v16_1)) (X (Proc.devRef .tc main_v17_1))
          (Cert.Spec.guardOf (Cert.Spec.rowSum (Cert.Spec.maskOf (X (Proc.devRef .tc main_v12))))) := by
  after_results_simp
  rfl

attribute [local irreducible] Host.reduce Host.reduceAdd in
set_option maxHeartbeats 1600000 in
/-- The prediction, likewise. -/
theorem tail_v43 :
    StableHlo.after hostOps2_2 (StableHlo.after hostOps2_1 (StableHlo.after hostOps2 X)) (Proc.devRef .tc main_v43)
      = Cert.Spec.predOf (X (Proc.devRef .tc main_v16_0)) (X (Proc.devRef .tc main_v17_0))
          (Cert.Spec.maskOf (X (Proc.devRef .tc main_v12))) := by
  after_results_simp
  rfl

attribute [local irreducible] Host.reduce Host.reduceAdd in
set_option maxHeartbeats 1600000 in
/-- The ground truth, likewise. -/
theorem tail_v45 :
    StableHlo.after hostOps2_2 (StableHlo.after hostOps2_1 (StableHlo.after hostOps2 X)) (Proc.devRef .tc main_v45)
      = Cert.Spec.truthOf (X (Proc.devRef .tc main_v15)) (Cert.Spec.maskOf (X (Proc.devRef .tc main_v12))) := by
  after_results_simp
  rfl

end Tail

/-- The loss, over the arrays the launches left. -/
theorem W10_v41 (c : Dev nD) :
    W10 m ρ c (Proc.devRef .tc main_v41)
      = Cert.Spec.lossOf (Cert.Spec.maskOf (W7 m ρ c (Proc.devRef .tc main_v12)))
          (W7 m ρ c (Proc.devRef .tc main_v16_1)) (W7 m ρ c (Proc.devRef .tc main_v17_1))
          (Cert.Spec.guardOf (Cert.Spec.rowSum (Cert.Spec.maskOf (W7 m ρ c (Proc.devRef .tc main_v12))))) :=
  tail_v41 (W7 m ρ c)

/-- The prediction. -/
theorem W10_v43 (c : Dev nD) :
    W10 m ρ c (Proc.devRef .tc main_v43)
      = Cert.Spec.predOf (W7 m ρ c (Proc.devRef .tc main_v16_0)) (W7 m ρ c (Proc.devRef .tc main_v17_0))
          (Cert.Spec.maskOf (W7 m ρ c (Proc.devRef .tc main_v12))) :=
  tail_v43 (W7 m ρ c)

/-- The ground truth. -/
theorem W10_v45 (c : Dev nD) :
    W10 m ρ c (Proc.devRef .tc main_v45)
      = Cert.Spec.truthOf (W7 m ρ c (Proc.devRef .tc main_v15)) (Cert.Spec.maskOf (W7 m ρ c (Proc.devRef .tc main_v12))) :=
  tail_v45 (W7 m ρ c)

end Cert.KernelIdeal.Host

end
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.KReg0.lean ====
/-
  What region 0 of the kernel program leaves in its two output arrays, as whole-array functions of its three input
  arrays as the region finds them, at the ideal instance (a float is an extended real). The region runs one body
  over 32 grid points, each on a block of 16 rows: per (row, step) the body adds up, over the 512 lanes, the logit on
  a lane where the lane number equals the index word and zero elsewhere — under the hypothesis that the index word,
  read unsigned, is below 512 exactly one lane is selected, so the sum is the logit at that lane —, then stores the
  logistic of that logit in the first output and its binary cross entropy against the answer in the second. The
  input arrays are never written back. Each grid point writes back the block of rows it was given, and the 32
  blocks of 16 rows tile the 512 rows.
-/
import proofs.«403331_j53609781789270_3_alg».proof.Proof.Gen.KernelIdeal.Frame
import proofs.«403331_j53609781789270_3_alg».proof.Proof.Spec
import proofs.«403331_j53609781789270_3_alg».proof.Proof.LibSums
import Idealize.ShloMosaic.Lib.Pipeline.Value
import Idealize.ShloMosaic.Lib.ValueIdx
import Idealize.ShloMosaic.PureOps.Ideal.Laws

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx Idealize.ShloMosaic.LibSums
open Idealize.ShloMosaic.Pipeline (Dat)

/-! ## The body's gathered logit at an index of a block -/

/-- The f32 word of zero is the extended real zero. -/
theorem zero_word : (FloatOps.ofBits (F := Ideal) .f32 0x00000000#32 : EReal) = 0 := by
  show Ideal.ofBits .f32 0x00000000#32 = 0
  simp [Ideal.ofBits, Ideal.ieee]

/-- The word comparison for equality answers the bit one exactly when the two words are equal. -/
theorem cmpi_eq_one_iff {a b : BitVec 32} : IntOp.cmpi .eq a b = 1#1 ↔ a = b := by
  show BitVec.ofBool (a == b) = 1#1 ↔ a = b
  by_cases h : a = b
  · subst h; simp
  · rw [show (a == b) = false from beq_eq_false_iff_ne.mpr h]
    exact iff_of_false (by decide) h

/-- A lane number below 512, as a 32-bit word shifted by the chunk's start (zero), equals an index word exactly
    when it is that word's unsigned value. -/
theorem lane_word_eq (k : Fin 512) (v : BitVec 32) :
    IntOp.addi (BitVec.ofNat 32 k.val) (Scalar.muli 0#32 512#32) = v ↔ k.val = v.toNat := by
  have h0 : Scalar.muli 0#32 512#32 = 0#32 := by decide
  have hk : k.val < 512 := k.isLt
  have hv : v.toNat < 2 ^ 32 := v.isLt
  rw [h0]
  show BitVec.ofNat 32 k.val + 0#32 = v ↔ _
  rw [BitVec.add_zero]
  constructor
  · intro h; rw [← h, BitVec.toNat_ofNat]; omega
  · intro h; apply BitVec.eq_of_toNat_eq; rw [BitVec.toNat_ofNat, h]; omega

/-- The index block, given a trailing unit axis and broadcast along the 512 lanes, reads the block's word at
    (row, step) on every lane. -/
theorem idx_lanes (x0 : Vec Ideal S16x199 .i32) (j : S16x199.Idx) (k : Fin 512) :
    broadcastTo S16x199x512 (shapeCast S16x199x1 (shapeCast S16x199 x0 shapeCasts_S16x199_S16x199) shapeCasts_S16x199_S16x199x1)
      broadcasts_S16x199x1_S16x199x512 (ix3 (j 0) (j 1) k) = x0 j := by
  refine (broadcastTo_apply _ _ (ix3 (j 0) (j 1) k) (ix3 (j 0) (j 1) (0 : Fin 1)) ?_).trans ?_
  · intro a
    match a with
    | ⟨0, _⟩ => rfl
    | ⟨1, _⟩ => rfl
    | ⟨2, _⟩ => rfl
  refine (shapeCast_apply _ _ (ix3 (j 0) (j 1) (0 : Fin 1)) j ?_).trans ?_
  · rw [Shape.rowMajor_val_two, Shape.rowMajor_val_three]
    show ((j 0).val * 199 + (j 1).val) = ((j 0).val * 199 + (j 1).val) * 1 + 0
    omega
  rw [shapeCast_self]

/-- Lane `k` of the one-hot selection at (row, step): the logit on that lane when the lane number is the index
    word's unsigned value, zero otherwise. -/
theorem lane_select (x0 : Vec Ideal S16x199 .i32) (x1 : Vec Ideal S16x199x512 .f32) (j : S16x199.Idx) (k : Fin 512) :
    (select
        (cmpi .eq
          (addi (iota .tc S16x199x512 32 [2] iota_S16x199x512_d2_w32) (broadcast S16x199x512 (Scalar.muli 0#32 512#32)))
          (broadcastTo S16x199x512 (shapeCast S16x199x1 (shapeCast S16x199 x0 shapeCasts_S16x199_S16x199) shapeCasts_S16x199_S16x199x1)
            broadcasts_S16x199x1_S16x199x512))
        x1 (broadcast S16x199x512 (FloatOps.ofBits (F := Ideal) .f32 0x00000000#32)) : Vec Ideal S16x199x512 .f32) (ix3 (j 0) (j 1) k)
      = if k.val = (x0 j).toNat then x1 (ix3 (j 0) (j 1) k) else (0 : EReal) := by
  show Scalar.select
      (IntOp.cmpi .eq
        (IntOp.addi (iota .tc S16x199x512 32 [2] iota_S16x199x512_d2_w32 (ix3 (j 0) (j 1) k)) (Scalar.muli 0#32 512#32))
        (broadcastTo S16x199x512 (shapeCast S16x199x1 (shapeCast S16x199 x0 shapeCasts_S16x199_S16x199) shapeCasts_S16x199_S16x199x1)
          broadcasts_S16x199x1_S16x199x512 (ix3 (j 0) (j 1) k)))
      (x1 (ix3 (j 0) (j 1) k)) (FloatOps.ofBits (F := Ideal) .f32 0x00000000#32) = _
  rw [idx_lanes, iota_single_apply, zero_word]
  show Scalar.select (IntOp.cmpi .eq (IntOp.addi (BitVec.ofNat 32 k.val) (Scalar.muli 0#32 512#32)) (x0 j)) (x1 (ix3 (j 0) (j 1) k)) (0 : EReal) = _
  by_cases h : k.val = (x0 j).toNat
  · rw [if_pos h, cmpi_eq_one_iff.mpr ((lane_word_eq k _).mpr h), select_one]
  · rw [if_neg h, eq_zero_of_ne_one (fun e => h ((lane_word_eq k _).mp (cmpi_eq_one_iff.mp e))), select_zero]

/-- THE GATHERED LOGIT: the body's sum over the 512 lanes of the one-hot selection, added to the zero it starts
    from, is the logit at the lane the index word names, when that word read unsigned is below 512. -/
theorem gathered_apply (x0 : Vec Ideal S16x199 .i32) (x1 : Vec Ideal S16x199x512 .f32) (j : S16x199.Idx)
    (h : (x0 j).toNat < 512) :
    k0_pay2 (F := Ideal) x0 x1 j = x1 (ix3 (j 0) (j 1) ⟨(x0 j).toNat, h⟩) := by
  unfold k0_pay2
  dsimp only
  refine (addf_apply _ _ _).trans ?_
  refine (congrArg₂ (· + ·) zero_word (vecSum_axis2_of3 _ _ _ _ j)).trans ?_
  rw [zero_add]
  refine (Finset.sum_congr rfl fun k _ => lane_select x0 x1 j k).trans ?_
  rw [Finset.sum_eq_single (⟨(x0 j).toNat, h⟩ : Fin 512)]
  · rw [if_pos rfl]
  · intro k _ hk
    rw [if_neg (fun e => hk (Fin.ext e))]
  · intro hn; exact absurd (Finset.mem_univ _) hn

/-- THE FIRST OUTPUT'S PAYLOAD at an index: the logistic of the gathered logit. -/
theorem prob_apply (x0 : Vec Ideal S16x199 .i32) (x1 : Vec Ideal S16x199x512 .f32) (j : S16x199.Idx)
    (h : (x0 j).toNat < 512) :
    k0_pay4 (F := Ideal) x0 x1 j = FloatOps.logistic (x1 (ix3 (j 0) (j 1) ⟨(x0 j).toNat, h⟩)) := by
  show FloatOps.logistic (k0_pay2 (F := Ideal) x0 x1 j) = _
  exact congrArg FloatOps.logistic (gathered_apply x0 x1 j h)

/-- THE SECOND OUTPUT'S PAYLOAD at an index, at any float instance: the binary cross entropy, in the body's own
    operations, of the gathered logit against the answer. -/
theorem entropy_apply_gen {F : FTy → Type} [FloatOps F] (x0 : Vec F S16x199 .i32) (x1 : Vec F S16x199x512 .f32)
    (x2 : Vec F S16x199 .f32) (j : S16x199.Idx) :
    k0_pay1 (k0_pay2 x0 x1) (k0_pay3 x2) (k0_pay5 x0 x1 x2) j = Cert.Spec.bceK (x2 j) (k0_pay2 x0 x1 j) := by
  have e : k0_pay3 x2 = x2 := shapeCast_self x2 _
  unfold k0_pay5
  rw [e]
  rfl

/-- The same at the ideal instance with the gathered logit read. -/
theorem entropy_apply (x0 : Vec Ideal S16x199 .i32) (x1 : Vec Ideal S16x199x512 .f32) (x2 : Vec Ideal S16x199 .f32)
    (j : S16x199.Idx) (h : (x0 j).toNat < 512) :
    k0_pay1 (F := Ideal) (k0_pay2 x0 x1) (k0_pay3 x2) (k0_pay5 x0 x1 x2) j
      = Cert.Spec.bceK (F := Ideal) (x2 j) (x1 (ix3 (j 0) (j 1) ⟨(x0 j).toNat, h⟩)) := by
  rw [entropy_apply_gen, gathered_apply x0 x1 j h]

/-! ## The input arrays: never written back -/

variable (V : (c : Dev nD) → (b : Ref sig .tc) → Buf (Elt Ideal) ((c : Thread nD τ).loc b))

/-- The index array after the region is the index array at its entry. -/
theorem in0 (c : Dev nD) : (dat0 (F := Ideal) V c).arrAt 0 cfg0.N = V c main_v10 :=
  ((dat0 (F := Ideal) V c).arrAt_in 0 rfl _).trans (A_eq0 V c 0)
/-- The logits after the region are the logits at its entry. -/
theorem in1 (c : Dev nD) : (dat0 (F := Ideal) V c).arrAt 1 cfg0.N = V c main_arg0 :=
  ((dat0 (F := Ideal) V c).arrAt_in 1 rfl _).trans (A_eq0 V c 1)
/-- The answers after the region are the answers at its entry. -/
theorem in2 (c : Dev nD) : (dat0 (F := Ideal) V c).arrAt 2 cfg0.N = V c main_v15 :=
  ((dat0 (F := Ideal) V c).arrAt_in 2 rfl _).trans (A_eq0 V c 2)

/-! ## Where the blocks lie -/

theorem hz2 : (![0, 0] : Fin 2 → Nat) = fun _ => 0 := funext fun a => by fin_cases a <;> rfl
theorem hz3 : k0_off1 = fun _ => 0 := funext fun a => by fin_cases a <;> rfl

/-- The index maps over the grid: at point `t` every window's block is block `t` along the rows and block 0 along
    every other axis. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Point `t`'s 16 rows lie inside the 512. -/
theorem row_lt (t : Fin cfg0.N) (r : Nat) (hr : r < 16) : t.val * 16 + r < 512 := by
  have h : t.val < 32 := lt_of_lt_of_eq t.isLt N_0
  omega

/-- Point `t`'s block of the index array, read at (row, step), is the array under the same place of the first
    output's block. -/
theorem read_idx (c : Dev nD) (t : Fin cfg0.N) (y : S16x199.Idx) :
    (iblk0 V c 0 t : Vec Ideal S16x199 .i32) y
      = (V c main_v10 : S512x199.Idx → BitVec 32) (((cfg0.win 3).blk t).view.emb y) := by
  obtain ⟨a0, a1, b0, b1, b2, c0, c1, d0, d1, e0, e1⟩ := idx_facts t
  show V c main_v10 (((cfg0.win 0).blk t).view.emb y) = V c main_v10 (((cfg0.win 3).blk t).view.emb y)
  refine congrArg (V c main_v10) (funext fun a => Fin.ext ?_)
  match a with
  | ⟨0, _⟩ => show win0_0.index t (0 : Fin 2) * 16 + 1 * (y 0).val = win0_3.index t (0 : Fin 2) * 16 + 1 * (y 0).val; omega
  | ⟨1, _⟩ => show win0_0.index t (1 : Fin 2) * 199 + 1 * (y 1).val = win0_3.index t (1 : Fin 2) * 199 + 1 * (y 1).val; omega

/-- Point `t`'s block of the answers likewise. -/
theorem read_ans (c : Dev nD) (t : Fin cfg0.N) (y : S16x199.Idx) :
    (iblk0 V c 2 t : Vec Ideal S16x199 .f32) y
      = (V c main_v15 : S512x199.Idx → EReal) (((cfg0.win 3).blk t).view.emb y) := by
  obtain ⟨a0, a1, b0, b1, b2, c0, c1, d0, d1, e0, e1⟩ := idx_facts t
  show V c main_v15 (((cfg0.win 2).blk t).view.emb y) = V c main_v15 (((cfg0.win 3).blk t).view.emb y)
  refine congrArg (V c main_v15) (funext fun a => Fin.ext ?_)
  match a with
  | ⟨0, _⟩ => show win0_2.index t (0 : Fin 2) * 16 + 1 * (y 0).val = win0_3.index t (0 : Fin 2) * 16 + 1 * (y 0).val; omega
  | ⟨1, _⟩ => show win0_2.index t (1 : Fin 2) * 199 + 1 * (y 1).val = win0_3.index t (1 : Fin 2) * 199 + 1 * (y 1).val; omega

/-- Point `t`'s block of the logits, read at (row, step, lane), is the array at the row and step under the same
    place of the first output's block, and the same lane. -/
theorem read_logit (c : Dev nD) (t : Fin cfg0.N) (y : S16x199.Idx) (k : Fin 512) :
    (iblk0 V c 1 t : Vec Ideal S16x199x512 .f32) (ix3 (y 0) (y 1) k)
      = (V c main_arg0 : S512x199x512.Idx → EReal)
          (ix3 ((((cfg0.win 3).blk t).view.emb y : S512x199.Idx) 0) ((((cfg0.win 3).blk t).view.emb y : S512x199.Idx) 1) k) := by
  obtain ⟨a0, a1, b0, b1, b2, c0, c1, d0, d1, e0, e1⟩ := idx_facts t
  show V c main_arg0 (((cfg0.win 1).blk t).view.emb (ix3 (y 0) (y 1) k)) = _
  refine congrArg (V c main_arg0) (funext fun a => Fin.ext ?_)
  match a with
  | ⟨0, _⟩ => show win0_1.index t (0 : Fin 3) * 16 + 1 * (y 0).val = win0_3.index t (0 : Fin 2) * 16 + 1 * (y 0).val; omega
  | ⟨1, _⟩ => show win0_1.index t (1 : Fin 3) * 199 + 1 * (y 1).val = win0_3.index t (1 : Fin 2) * 199 + 1 * (y 1).val; omega
  | ⟨2, _⟩ => show win0_1.index t (2 : Fin 3) * 512 + 1 * k.val = k.val; omega

/-- The same three reads against the places of the second output's block (the two outputs' blocks lie alike). -/
theorem read_idx4 (c : Dev nD) (t : Fin cfg0.N) (y : S16x199.Idx) :
    (iblk0 V c 0 t : Vec Ideal S16x199 .i32) y
      = (V c main_v10 : S512x199.Idx → BitVec 32) (((cfg0.win 4).blk t).view.emb y) := by
  obtain ⟨a0, a1, b0, b1, b2, c0, c1, d0, d1, e0, e1⟩ := idx_facts t
  show V c main_v10 (((cfg0.win 0).blk t).view.emb y) = V c main_v10 (((cfg0.win 4).blk t).view.emb y)
  refine congrArg (V c main_v10) (funext fun a => Fin.ext ?_)
  match a with
  | ⟨0, _⟩ => show win0_0.index t (0 : Fin 2) * 16 + 1 * (y 0).val = win0_4.index t (0 : Fin 2) * 16 + 1 * (y 0).val; omega
  | ⟨1, _⟩ => show win0_0.index t (1 : Fin 2) * 199 + 1 * (y 1).val = win0_4.index t (1 : Fin 2) * 199 + 1 * (y 1).val; omega

theorem read_ans4 (c : Dev nD) (t : Fin cfg0.N) (y : S16x199.Idx) :
    (iblk0 V c 2 t : Vec Ideal S16x199 .f32) y
      = (V c main_v15 : S512x199.Idx → EReal) (((cfg0.win 4).blk t).view.emb y) := by
  obtain ⟨a0, a1, b0, b1, b2, c0, c1, d0, d1, e0, e1⟩ := idx_facts t
  show V c main_v15 (((cfg0.win 2).blk t).view.emb y) = V c main_v15 (((cfg0.win 4).blk t).view.emb y)
  refine congrArg (V c main_v15) (funext fun a => Fin.ext ?_)
  match a with
  | ⟨0, _⟩ => show win0_2.index t (0 : Fin 2) * 16 + 1 * (y 0).val = win0_4.index t (0 : Fin 2) * 16 + 1 * (y 0).val; omega
  | ⟨1, _⟩ => show win0_2.index t (1 : Fin 2) * 199 + 1 * (y 1).val = win0_4.index t (1 : Fin 2) * 199 + 1 * (y 1).val; omega

theorem read_logit4 (c : Dev nD) (t : Fin cfg0.N) (y : S16x199.Idx) (k : Fin 512) :
    (iblk0 V c 1 t : Vec Ideal S16x199x512 .f32) (ix3 (y 0) (y 1) k)
      = (V c main_arg0 : S512x199x512.Idx → EReal)
          (ix3 ((((cfg0.win 4).blk t).view.emb y : S512x199.Idx) 0) ((((cfg0.win 4).blk t).view.emb y : S512x199.Idx) 1) k) := by
  obtain ⟨a0, a1, b0, b1, b2, c0, c1, d0, d1, e0, e1⟩ := idx_facts t
  show V c main_arg0 (((cfg0.win 1).blk t).view.emb (ix3 (y 0) (y 1) k)) = _
  refine congrArg (V c main_arg0) (funext fun a => Fin.ext ?_)
  match a with
  | ⟨0, _⟩ => show win0_1.index t (0 : Fin 3) * 16 + 1 * (y 0).val = win0_4.index t (0 : Fin 2) * 16 + 1 * (y 0).val; omega
  | ⟨1, _⟩ => show win0_1.index t (1 : Fin 3) * 199 + 1 * (y 1).val = win0_4.index t (1 : Fin 2) * 199 + 1 * (y 1).val; omega
  | ⟨2, _⟩ => show win0_1.index t (2 : Fin 3) * 512 + 1 * k.val = k.val; omega

/-! ## What each point writes back -/

/-- Under the hypothesis the modulo in the specification's selection is the identity. -/
theorem pick_of_lt (p : S512x199x512.Idx → EReal) (jv : IVec S512x199 32) (i : S512x199.Idx) (h : (jv i).toNat < 512) :
    Cert.Spec.pick512 (α := Ideal .f32) p jv i = p (ix3 (i 0) (i 1) ⟨(jv i).toNat, h⟩) := by
  unfold Cert.Spec.pick512
  exact congrArg p (congrArg (ix3 (i 0) (i 1)) (Fin.ext (Nat.mod_eq_of_lt h)))

/-- The selected logit of a block whose entries are the arrays' under the places `e` names. -/
theorem point_logit (A0 : S512x199.Idx → BitVec 32) (A1 : S512x199x512.Idx → EReal)
    (x0 : Vec Ideal S16x199 .i32) (x1 : Vec Ideal S16x199x512 .f32) (e : S16x199.Idx → S512x199.Idx)
    (hx0 : ∀ y, x0 y = A0 (e y))
    (hx1 : ∀ (y : S16x199.Idx) (k : Fin 512), x1 (ix3 (y 0) (y 1) k) = A1 (ix3 (e y 0) (e y 1) k))
    (hj : ∀ i, (A0 i).toNat < 512) (j : S16x199.Idx) (hlt : (x0 j).toNat < 512) :
    x1 (ix3 (j 0) (j 1) ⟨(x0 j).toNat, hlt⟩) = Cert.Spec.pick512 (α := Ideal .f32) A1 A0 (e j) := by
  rw [hx1, pick_of_lt A1 A0 (e j) (hj _)]
  exact congrArg A1 (congrArg (ix3 (e j 0) (e j 1)) (Fin.ext (congrArg BitVec.toNat (hx0 j))))

/-- The first output's payload at an index of such a block. -/
theorem point_prob (A0 : S512x199.Idx → BitVec 32) (A1 : S512x199x512.Idx → EReal)
    (x0 : Vec Ideal S16x199 .i32) (x1 : Vec Ideal S16x199x512 .f32) (e : S16x199.Idx → S512x199.Idx)
    (hx0 : ∀ y, x0 y = A0 (e y))
    (hx1 : ∀ (y : S16x199.Idx) (k : Fin 512), x1 (ix3 (y 0) (y 1) k) = A1 (ix3 (e y 0) (e y 1) k))
    (hj : ∀ i, (A0 i).toNat < 512) (j : S16x199.Idx) :
    k0_pay4 (F := Ideal) x0 x1 j
      = FloatOps.logistic (F := Ideal) (φ := .f32) (Cert.Spec.pick512 (α := Ideal .f32) A1 A0 (e j)) := by
  have hlt : (x0 j).toNat < 512 := by rw [hx0]; exact hj _
  exact (prob_apply x0 x1 j hlt).trans (congrArg FloatOps.logistic (point_logit A0 A1 x0 x1 e hx0 hx1 hj j hlt))

/-- The second output's payload at an index of such a block. -/
theorem point_entropy (A0 : S512x199.Idx → BitVec 32) (A1 : S512x199x512.Idx → EReal) (A2 : S512x199.Idx → EReal)
    (x0 : Vec Ideal S16x199 .i32) (x1 : Vec Ideal S16x199x512 .f32) (x2 : Vec Ideal S16x199 .f32)
    (e : S16x199.Idx → S512x199.Idx)
    (hx0 : ∀ y, x0 y = A0 (e y))
    (hx1 : ∀ (y : S16x199.Idx) (k : Fin 512), x1 (ix3 (y 0) (y 1) k) = A1 (ix3 (e y 0) (e y 1) k))
    (hx2 : ∀ y, x2 y = A2 (e y))
    (hj : ∀ i, (A0 i).toNat < 512) (j : S16x199.Idx) :
    k0_pay1 (F := Ideal) (k0_pay2 x0 x1) (k0_pay3 x2) (k0_pay5 x0 x1 x2) j
      = Cert.Spec.bceK (F := Ideal) (A2 (e j)) (Cert.Spec.pick512 (α := Ideal .f32) A1 A0 (e j)) := by
  have hlt : (x0 j).toNat < 512 := by rw [hx0]; exact hj _
  rw [entropy_apply x0 x1 x2 j hlt, hx2, point_logit A0 A1 x0 x1 e hx0 hx1 hj j hlt]

/-- WHAT POINT `t` WRITES BACK to the first output is block `t` of the logistic of the selected logits. -/
theorem flushed3_eq (c : Dev nD)
    (hj : ∀ i : Cert.Spec.S512x199.Idx, ((V c main_v10 : IVec Cert.Spec.S512x199 32) i).toNat < 512) (t : Fin cfg0.N) :
    (dat0 (F := Ideal) V c).flushed 3 t = ((cfg0.win 3).blk t).view.read (Elt Ideal)
      (fun i => FloatOps.logistic (F := Ideal) (φ := .f32) (Cert.Spec.pick512 (α := Ideal .f32) (V c main_arg0) (V c main_v10) i)) := by
  show (cfg0.win 3).cut (grid0.coords t) ((dat0 (F := Ideal) V c).after 3 t) = _
  rw [after0_3]
  unfold out0_3
  rw [View.canon_unit_zero hz2]
  simp only [View.ld_unit_zero (S := S16x199) hz2, View.ld_unit_zero (S := S16x199x512) hz3]
  funext j
  exact point_prob (V c main_v10) (V c main_arg0) (iblk0 V c 0 t) (iblk0 V c 1 t) (((cfg0.win 3).blk t).view.emb)
    (read_idx V c t) (read_logit V c t) hj j

/-- WHAT POINT `t` WRITES BACK to the second output is block `t` of the binary cross entropy of the selected
    logits against the answers. -/
theorem flushed4_eq (c : Dev nD)
    (hj : ∀ i : Cert.Spec.S512x199.Idx, ((V c main_v10 : IVec Cert.Spec.S512x199 32) i).toNat < 512) (t : Fin cfg0.N) :
    (dat0 (F := Ideal) V c).flushed 4 t = ((cfg0.win 4).blk t).view.read (Elt Ideal)
      (fun i => Cert.Spec.bceK (F := Ideal) (V c main_v15 i) (Cert.Spec.pick512 (V c main_arg0) (V c main_v10) i)) := by
  show (cfg0.win 4).cut (grid0.coords t) ((dat0 (F := Ideal) V c).after 4 t) = _
  rw [after0_4]
  unfold out0_4
  rw [View.canon_unit_zero hz2]
  simp only [View.ld_unit_zero (S := S16x199) hz2, View.ld_unit_zero (S := S16x199x512) hz3]
  funext j
  exact point_entropy (V c main_v10) (V c main_arg0) (V c main_v15) (iblk0 V c 0 t) (iblk0 V c 1 t) (iblk0 V c 2 t)
    (((cfg0.win 4).blk t).view.emb) (read_idx4 V c t) (read_logit4 V c t) (read_ans4 V c t) hj j

/-! ## The blocks tile the rows -/

/-- An index of the first output is in point `t`'s block iff each coordinate is in the block's range on its axis. -/
theorem mem_blk3 (t : Fin cfg0.N) (i : S512x199.Idx) :
    i ∈ ((cfg0.win 3).blk t).view.set ↔ ∀ a : Fin 2, win0_3.index t a * S16x199.size a ≤ (i a).val ∧ (i a).val < win0_3.index t a * S16x199.size a + S16x199.size a := by
  show i ∈ ((View.whole main_v16_0).slice (win0_3.rect t)).set ↔ _
  rw [View.set_slice_whole, Rect.mem_set_unit]
  exact Iff.rfl

/-- The same for the second output. -/
theorem mem_blk4 (t : Fin cfg0.N) (i : S512x199.Idx) :
    i ∈ ((cfg0.win 4).blk t).view.set ↔ ∀ a : Fin 2, win0_4.index t a * S16x199.size a ≤ (i a).val ∧ (i a).val < win0_4.index t a * S16x199.size a + S16x199.size a := by
  show i ∈ ((View.whole main_v16_1).slice (win0_4.rect t)).set ↔ _
  rw [View.set_slice_whole, Rect.mem_set_unit]
  exact Iff.rfl

/-- The point whose block holds row `r`: `r / 16`. -/
theorem point_of_row (r : Nat) (hr : r < 512) : ∃ t : Fin cfg0.N, t.val = r / 16 :=
  ⟨⟨r / 16, lt_of_lt_of_eq (by omega) N_0.symm⟩, rfl⟩

/-- Every index of the first output is in some point's block. -/
theorem cover3 (i : S512x199.Idx) : ∃ t : Fin cfg0.N, (cfg0.win 3).flush t = true ∧ i ∈ ((cfg0.win 3).blk t).view.set := by
  have hi0 : (i 0).val < 512 := (i 0).isLt
  have hi1 : (i 1).val < 199 := (i 1).isLt
  obtain ⟨t, ht⟩ := point_of_row (i 0).val hi0
  obtain ⟨a0, a1, b0, b1, b2, c0, c1, d0, d1, e0, e1⟩ := idx_facts t
  refine ⟨t, flush0_3 t, ?_⟩
  rw [mem_blk3]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 199 ≤ (i 1).val ∧ (i 1).val < win0_3.index t (1 : Fin 2) * 199 + 199; omega

/-- Every index of the second output is in some point's block. -/
theorem cover4 (i : S512x199.Idx) : ∃ t : Fin cfg0.N, (cfg0.win 4).flush t = true ∧ i ∈ ((cfg0.win 4).blk t).view.set := by
  have hi0 : (i 0).val < 512 := (i 0).isLt
  have hi1 : (i 1).val < 199 := (i 1).isLt
  obtain ⟨t, ht⟩ := point_of_row (i 0).val hi0
  obtain ⟨a0, a1, b0, b1, b2, c0, c1, d0, d1, e0, e1⟩ := idx_facts t
  refine ⟨t, flush0_4 t, ?_⟩
  rw [mem_blk4]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 199 ≤ (i 1).val ∧ (i 1).val < win0_4.index t (1 : Fin 2) * 199 + 199; omega

/-! ## The two output arrays after the region -/

/-- THE FIRST OUTPUT after the region: the logistic of the selected logit, at every (row, step). -/
theorem out3 (c : Dev nD) (hj : ∀ i : Cert.Spec.S512x199.Idx, ((V c main_v10 : IVec Cert.Spec.S512x199 32) i).toNat < 512) :
    (dat0 (F := Ideal) V c).arrAt 3 cfg0.N = fun i => FloatOps.logistic (F := Ideal) (φ := .f32) (Cert.Spec.pick512 (α := Ideal .f32) (V c main_arg0) (V c main_v10) i) :=
  (dat0 (F := Ideal) V c).arrAt_eq_of_cover 3 _ (fun t _ => flushed3_eq V c hj t) cover3

/-- THE SECOND OUTPUT after the region: the binary cross entropy of the selected logit against the answer, at every
    (row, step). -/
theorem out4 (c : Dev nD) (hj : ∀ i : Cert.Spec.S512x199.Idx, ((V c main_v10 : IVec Cert.Spec.S512x199 32) i).toNat < 512) :
    (dat0 (F := Ideal) V c).arrAt 4 cfg0.N = fun i => Cert.Spec.bceK (F := Ideal) (V c main_v15 i) (Cert.Spec.pick512 (V c main_arg0) (V c main_v10) i) :=
  (dat0 (F := Ideal) V c).arrAt_eq_of_cover 4 _ (fun t _ => flushed4_eq V c hj t) cover4

end Cert.KernelIdeal.Reg0

end
-- ==== Proof.KReg1.lean ====
/-
  What REGION 1 of the idealized kernel program leaves in its two output arrays, as whole-array functions of its three
  input arrays as the region finds them, at the ideal instance (a float is an extended real).

  The region's body, per block of 8 rows: for each (row, step) it sums, over the 2048 lanes of the logits in four chunks
  of 512, the lane whose number equals the index word and zero elsewhere; the first output is the logistic of that
  sum, the second the binary cross entropy of that sum against the answer. Under the hypothesis that every index
  word, read unsigned, is below 2048, exactly one lane is selected, and the sum is the logit at that lane:
  `Cert.Spec.pick2048`. The three input arrays are never written back.
-/
import proofs.«403331_j53609781789270_3_alg».proof.Proof.Gen.KernelIdeal.Frame
import proofs.«403331_j53609781789270_3_alg».proof.Proof.Spec
import proofs.«403331_j53609781789270_3_alg».proof.Proof.LibSums
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import Idealize.ShloMosaic.Lib.Tactic
import Mathlib.Algebra.BigOperators.Fin

set_option maxRecDepth 16384

noncomputable section

namespace Cert.KernelIdeal.Reg1

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

/-! ## The one-hot lane selection -/

/-- Lane `k` of a chunk starting at lane `o`, as a 32-bit word, is the index word `j` exactly when `k + o` is `j` read
    unsigned: no sum of two lane numbers wraps. -/
theorem lane_eq_iff (k o : Nat) (j : BitVec 32) (hko : k + o < 4294967296) :
    BitVec.ofNat 32 k + BitVec.ofNat 32 o = j ↔ k + o = j.toNat := by
  constructor
  · intro h
    rw [← h, BitVec.toNat_add, BitVec.toNat_ofNat, BitVec.toNat_ofNat]
    omega
  · intro h
    apply BitVec.eq_of_toNat_eq
    rw [BitVec.toNat_add, BitVec.toNat_ofNat, BitVec.toNat_ofNat]
    omega

/-- The selected sum over one chunk of 512 lanes starting at lane `o`: the entry at `j` when `j` lies in the chunk, zero
    otherwise. -/
theorem onehot_chunk (f : Fin 2048 → EReal) (j : BitVec 32) (o : Nat) (ho : o + 512 ≤ 2048) :
    (∑ k : Fin 512, if BitVec.ofNat 32 k.val + BitVec.ofNat 32 o = j then f ⟨o + k.val, by have := k.isLt; omega⟩ else 0)
      = if h : o ≤ j.toNat ∧ j.toNat < o + 512 then f ⟨j.toNat, by omega⟩ else 0 := by
  split
  · rename_i h
    rw [Finset.sum_eq_single (⟨j.toNat - o, by omega⟩ : Fin 512)]
    · rw [if_pos ((lane_eq_iff _ _ _ (by dsimp only; omega)).mpr (by dsimp only; omega))]
      congr 1; apply Fin.ext; dsimp only; omega
    · intro k _ hk
      rw [if_neg]
      intro e
      have e' := (lane_eq_iff _ _ _ (by have := k.isLt; omega)).mp e
      apply hk; apply Fin.ext; dsimp only; omega
    · intro h'; exact absurd (Finset.mem_univ _) h'
  · rename_i h
    apply Finset.sum_eq_zero
    intro k _
    rw [if_neg]
    intro e
    have e' := (lane_eq_iff _ _ _ (by have := k.isLt; omega)).mp e
    have := k.isLt
    omega

/-- The four chunks' selected sums, accumulated from zero in chunk order, are the entry at `j`. -/
theorem onehot_four (f : Fin 2048 → EReal) (j : BitVec 32) (hj : j.toNat < 2048) :
    (((0 + (∑ k : Fin 512, if BitVec.ofNat 32 k.val + BitVec.ofNat 32 0 = j then f ⟨0 + k.val, by have := k.isLt; omega⟩ else 0))
        + (∑ k : Fin 512, if BitVec.ofNat 32 k.val + BitVec.ofNat 32 512 = j then f ⟨512 + k.val, by have := k.isLt; omega⟩ else 0))
        + (∑ k : Fin 512, if BitVec.ofNat 32 k.val + BitVec.ofNat 32 1024 = j then f ⟨1024 + k.val, by have := k.isLt; omega⟩ else 0))
        + (∑ k : Fin 512, if BitVec.ofNat 32 k.val + BitVec.ofNat 32 1536 = j then f ⟨1536 + k.val, by have := k.isLt; omega⟩ else 0)
      = f ⟨j.toNat, hj⟩ := by
  rw [onehot_chunk f j 0 (by omega), onehot_chunk f j 512 (by omega), onehot_chunk f j 1024 (by omega),
    onehot_chunk f j 1536 (by omega)]
  by_cases h0 : j.toNat < 512
  · rw [dif_pos ⟨by omega, by omega⟩, dif_neg (by omega), dif_neg (by omega), dif_neg (by omega)]; simp
  by_cases h1 : j.toNat < 1024
  · rw [dif_neg (by omega), dif_pos ⟨by omega, by omega⟩, dif_neg (by omega), dif_neg (by omega)]; simp
  by_cases h2 : j.toNat < 1536
  · rw [dif_neg (by omega), dif_neg (by omega), dif_pos ⟨by omega, by omega⟩, dif_neg (by omega)]; simp
  · rw [dif_neg (by omega), dif_neg (by omega), dif_neg (by omega), dif_pos ⟨by omega, by omega⟩]; simp

/-! ## The body's operations read at an index -/

/-- The index block with a unit lane axis appended, spread over the 512 lanes, reads the index word of its (row, step). -/
theorem idx_lanes_apply (x0 : Vec Ideal S8x199 .i32) (r : Fin 8) (t : Fin 199) (k : Fin 512) :
    broadcastTo S8x199x512 (k1_pay2 (F := Ideal) x0) broadcasts_S8x199x1_S8x199x512 (ix3 r t k) = x0 (ix2 r t) := by
  refine (broadcastTo_apply _ _ (ix3 r t k) (ix3 r t (0 : Fin 1)) (fun a => ?_)).trans ?_
  · match a with
    | ⟨0, _⟩ => rfl
    | ⟨1, _⟩ => rfl
    | ⟨2, _⟩ => rfl
  · unfold k1_pay2
    rw [shapeCast_self]
    refine shapeCast_apply _ _ (ix3 r t (0 : Fin 1)) (ix2 r t) ?_
    rw [Shape.rowMajor_val_two, Shape.rowMajor_val_three]
    show r.val * 199 + t.val = (r.val * 199 + t.val) * 1 + 0
    omega

/-- The selected sum of one loaded chunk `v` whose lanes start at the word `s`, at (row, step). -/
theorem chunk_read (x0 : Vec Ideal S8x199 .i32) (v : Vec Ideal S8x199x512 .f32) (s : BitVec 32) (r : Fin 8) (t : Fin 199) :
    multiReduction (F := Ideal) .add [2] S8x199
      (select (cmpi .eq (addi (iota .tc S8x199x512 32 [2] iota_S8x199x512_d2_w32) (broadcast S8x199x512 s))
          (broadcastTo S8x199x512 (k1_pay2 (F := Ideal) x0) broadcasts_S8x199x1_S8x199x512)) v
        (broadcast S8x199x512 (Scalar.ofBits (F := Ideal) .f32 0x00000000#32)))
      0x00000000#32 reduces_S8x199x512_S8x199 (.inl rfl) rfl (ix2 r t)
    = ∑ k : Fin 512, if BitVec.ofNat 32 k.val + s = x0 (ix2 r t) then v (ix3 r t k) else 0 := by
  refine (LibSums.vecSum_axis2_of3_ix _ _ _ _ r t).trans (Finset.sum_congr rfl fun k _ => ?_)
  show Scalar.select (IntOp.cmpi .eq (IntOp.addi (iota .tc S8x199x512 32 [2] iota_S8x199x512_d2_w32 (ix3 r t k)) s)
      (broadcastTo S8x199x512 (k1_pay2 (F := Ideal) x0) broadcasts_S8x199x1_S8x199x512 (ix3 r t k))) (v (ix3 r t k))
      (Ideal.ofBits .f32 0x00000000#32) = _
  rw [iota_single_apply, idx_lanes_apply, Ideal.ofBits_zero_f32]
  unfold Scalar.select
  show (if IntOp.cmpi .eq (BitVec.ofNat 32 k.val + s) (x0 (ix2 r t)) = 1#1 then v (ix3 r t k) else 0) = _
  by_cases e : BitVec.ofNat 32 k.val + s = x0 (ix2 r t)
  · rw [if_pos e, if_pos (IntOp.cmpi_eq.mpr e)]
  · rw [if_neg e, if_neg (fun h => e (IntOp.cmpi_eq.mp h))]

/-- The chunk of the logits block whose lanes start at `o`: what a load through the rectangle at lane offset `o` reads. -/
abbrev chunk {F : FTy → Type} (x1 : Vec F S8x199x2048 .f32) (o : Nat) (ho : ∀ a, (![0, 0, o] : Fin 3 → Nat) a + S8x199x512.size a ≤ S8x199x2048.size a) :
    Vec F S8x199x512 .f32 :=
  View.ld x1 (Rect.unit (s := S8x199x2048) ![0, 0, o] S8x199x512.size ho)

/-- A chunk at (row, step, lane `k`) is the block at lane `o + k`. -/
theorem chunk_apply {F : FTy → Type} (x1 : Vec F S8x199x2048 .f32) (o : Nat) (ho) (r : Fin 8) (t : Fin 199) (k : Fin 512) (hk : o + k.val < 2048) :
    chunk x1 o ho (ix3 r t k) = x1 (ix3 r t ⟨o + k.val, hk⟩) := by
  show x1 _ = x1 _
  refine congrArg x1 (funext fun a => Fin.ext ?_)
  match a with
  | ⟨0, _⟩ => show 0 + 1 * r.val = r.val; omega
  | ⟨1, _⟩ => show 0 + 1 * t.val = t.val; omega
  | ⟨2, _⟩ => show o + 1 * k.val = o + k.val; omega

theorem inb0 : ∀ a, (![0, 0, 0] : Fin 3 → Nat) a + S8x199x512.size a ≤ S8x199x2048.size a := by decide
theorem inb1 : ∀ a, (![0, 0, 512] : Fin 3 → Nat) a + S8x199x512.size a ≤ S8x199x2048.size a := by decide
theorem inb2 : ∀ a, (![0, 0, 1024] : Fin 3 → Nat) a + S8x199x512.size a ≤ S8x199x2048.size a := by decide
theorem inb3 : ∀ a, (![0, 0, 1536] : Fin 3 → Nat) a + S8x199x512.size a ≤ S8x199x2048.size a := by decide

/-- The accumulated selection `x` of the body, as a term of the index block `x0` and the logits block `x1`. -/
abbrev selOf {F : FTy → Type} [FloatOps F] (x0 : Vec F S8x199 .i32) (x1 : Vec F S8x199x2048 .f32) : FVec F S8x199 .f32 :=
  k1_pay5 (k1_pay2 x0) (k1_pay3 x0 (chunk x1 0 inb0) (chunk x1 512 inb1)) (chunk x1 1024 inb2) (k1_pay4 x0)
    (Scalar.ofBits .f32 0x00000000#32) (chunk x1 1536 inb3)

/-- The selected sum of the chunk whose lanes start at `o` (the word `s`), at (row, step), over the block's own lanes. -/
theorem chunk_sum (x0 : Vec Ideal S8x199 .i32) (x1 : Vec Ideal S8x199x2048 .f32) (o : Nat) (ho) (s : BitVec 32)
    (hs : s = BitVec.ofNat 32 o) (ho' : o + 512 ≤ 2048) (r : Fin 8) (t : Fin 199) :
    multiReduction (F := Ideal) .add [2] S8x199
      (select (cmpi .eq (addi (iota .tc S8x199x512 32 [2] iota_S8x199x512_d2_w32) (broadcast S8x199x512 s))
          (broadcastTo S8x199x512 (k1_pay2 (F := Ideal) x0) broadcasts_S8x199x1_S8x199x512)) (chunk x1 o ho)
        (broadcast S8x199x512 (Scalar.ofBits (F := Ideal) .f32 0x00000000#32)))
      0x00000000#32 reduces_S8x199x512_S8x199 (.inl rfl) rfl (ix2 r t)
    = ∑ k : Fin 512, if BitVec.ofNat 32 k.val + BitVec.ofNat 32 o = x0 (ix2 r t)
        then (fun l : Fin 2048 => x1 (ix3 r t l)) ⟨o + k.val, by have := k.isLt; omega⟩ else 0 := by
  subst hs
  refine (chunk_read x0 (chunk x1 o ho) _ r t).trans (Finset.sum_congr rfl fun k _ => ?_)
  rw [chunk_apply x1 o ho r t k (by have := k.isLt; omega)]

/-- THE SELECTION at (row, step): the logit at the lane the index word names, when that word read unsigned is below 2048. -/
theorem selOf_apply (x0 : Vec Ideal S8x199 .i32) (x1 : Vec Ideal S8x199x2048 .f32) (r : Fin 8) (t : Fin 199)
    (hj : (x0 (ix2 r t)).toNat < 2048) :
    selOf (F := Ideal) x0 x1 (ix2 r t) = x1 (ix3 r t ⟨(x0 (ix2 r t)).toNat, hj⟩) := by
  unfold selOf k1_pay5 k1_pay3 k1_pay4
  dsimp only
  refine (congrArg₂ (· + ·) (congrArg₂ (· + ·) (congrArg₂ (· + ·) (congrArg₂ (· + ·) Ideal.ofBits_zero_f32
      (chunk_sum x0 x1 0 inb0 (Scalar.muli 0#32 512#32) (by decide) (by omega) r t))
      (chunk_sum x0 x1 512 inb1 (Scalar.muli 1#32 512#32) (by decide) (by omega) r t))
      (chunk_sum x0 x1 1024 inb2 (Scalar.muli 2#32 512#32) (by decide) (by omega) r t))
      (chunk_sum x0 x1 1536 inb3 (Scalar.muli 3#32 512#32) (by decide) (by omega) r t)).trans ?_
  exact onehot_four (fun l : Fin 2048 => x1 (ix3 r t l)) (x0 (ix2 r t)) hj

/-! ## The two stored payloads at an index -/

/-- Output 3's payload is the logistic of the selection, entry by entry. -/
theorem pay7_apply {F : FTy → Type} [FloatOps F] (v2 : IVec S8x199x1 32) (v29 : FVec F S8x199 .f32) (v33 : Vec F S8x199x512 .f32)
    (v38 : IVec S8x199x512 1) (cst : F .f32) (v46 : Vec F S8x199x512 .f32) (i : S8x199.Idx) :
    k1_pay7 v2 v29 v33 v38 cst v46 i = FloatOps.logistic (k1_pay5 v2 v29 v33 v38 cst v46 i) := rfl

/-- Output 4's payload is the binary cross entropy of the selection against the answer, entry by entry, in the very
    operations the specification spells: every negation a subtraction from zero. -/
theorem pay1_apply {F : FTy → Type} [FloatOps F] (v2 : IVec S8x199x1 32) (v29 : FVec F S8x199 .f32) (v33 : Vec F S8x199x512 .f32)
    (v38 : IVec S8x199x512 1) (cst : F .f32) (v46 : Vec F S8x199x512 .f32) (a : Vec F S8x199 .f32) (i : S8x199.Idx) :
    k1_pay1 (k1_pay5 v2 v29 v33 v38 cst v46) (k1_pay8 v2 v29 v33 v38 cst v46 a) (k1_pay9 a) i
      = Cert.Spec.bceK (a i) (k1_pay5 v2 v29 v33 v38 cst v46 i) := by
  unfold k1_pay1 k1_pay8 k1_pay9 k1_pay6
  rw [shapeCast_self]
  generalize k1_pay5 v2 v29 v33 v38 cst v46 = xs
  rfl

/-! ## What the body's stores leave in the two output blocks -/

section Pieces
variable {F : FTy → Type} [FloatOps F]

theorem hz : (![0, 0] : Fin 2 → Nat) = fun _ => 0 := funext fun a => by fin_cases a <;> rfl

/-- Output 3's block after the body: its one covering store's payload, the loads read where their rectangles say. -/
theorem out3_piece (c : Dev nD) (i : grid1.Coords) (a1 : Memref sig .tc .vmem S8x199 .i32) (h1 : a1.IsWhole)
    (a2 : Memref sig .tc .vmem S8x199x2048 .f32) (h2 : a2.IsWhole) (a3 : Memref sig .tc .vmem S8x199 .f32) (h3 : a3.IsWhole)
    (a4 : Memref sig .tc .vmem S8x199 .f32) (h4 : a4.IsWhole) (a5 : Memref sig .tc .vmem S8x199 .f32) (h5 : a5.IsWhole)
    (x0 : Vec F S8x199 .i32) (x1 : Vec F S8x199x2048 .f32) (x2 : Vec F S8x199 .f32) :
    out1_A_3 c i a1 h1 a2 h2 a3 h3 a4 h4 a5 h5 x0 x1 x2
      = k1_pay7 (k1_pay2 x0) (k1_pay3 x0 (chunk x1 0 inb0) (chunk x1 512 inb1)) (chunk x1 1024 inb2) (k1_pay4 x0)
          (Scalar.ofBits .f32 0x00000000#32) (chunk x1 1536 inb3) := by
  unfold out1_A_3
  rw [View.read_writes_eq_canon _ _ _ (cover1_A_3 c i a1 h1 a2 h2 a3 h3 a4 h4 a5 h5 x0 x1 x2)]
  unfold kernelRun1_A
  dsimp only
  sl_unfold_words
  rw [View.canon_unit_zero hz]
  simp only [View.readAt_eq_ld, h1.read_unread, h2.read_unread, h3.read_unread, View.ld_unit_zero (S := S8x199) hz]

/-- Output 4's block after the body, likewise. -/
theorem out4_piece (c : Dev nD) (i : grid1.Coords) (a1 : Memref sig .tc .vmem S8x199 .i32) (h1 : a1.IsWhole)
    (a2 : Memref sig .tc .vmem S8x199x2048 .f32) (h2 : a2.IsWhole) (a3 : Memref sig .tc .vmem S8x199 .f32) (h3 : a3.IsWhole)
    (a4 : Memref sig .tc .vmem S8x199 .f32) (h4 : a4.IsWhole) (a5 : Memref sig .tc .vmem S8x199 .f32) (h5 : a5.IsWhole)
    (x0 : Vec F S8x199 .i32) (x1 : Vec F S8x199x2048 .f32) (x2 : Vec F S8x199 .f32) :
    out1_A_4 c i a1 h1 a2 h2 a3 h3 a4 h4 a5 h5 x0 x1 x2
      = k1_pay1 (selOf x0 x1)
          (k1_pay8 (k1_pay2 x0) (k1_pay3 x0 (chunk x1 0 inb0) (chunk x1 512 inb1)) (chunk x1 1024 inb2) (k1_pay4 x0)
            (Scalar.ofBits .f32 0x00000000#32) (chunk x1 1536 inb3) x2)
          (k1_pay9 x2) := by
  unfold out1_A_4
  rw [View.read_writes_eq_canon _ _ _ (cover1_A_4 c i a1 h1 a2 h2 a3 h3 a4 h4 a5 h5 x0 x1 x2)]
  unfold kernelRun1_A
  dsimp only
  sl_unfold_words
  rw [View.canon_unit_zero hz]
  simp only [View.readAt_eq_ld, h1.read_unread, h2.read_unread, h3.read_unread, View.ld_unit_zero (S := S8x199) hz]

end Pieces

/-- The first output's block at an entry: the logistic of the selected logit. -/
theorem blk3_apply (x0 : Vec Ideal S8x199 .i32) (x1 : Vec Ideal S8x199x2048 .f32) (y : S8x199.Idx) (hy : (x0 y).toNat < 2048) :
    k1_pay7 (F := Ideal) (k1_pay2 x0) (k1_pay3 x0 (chunk x1 0 inb0) (chunk x1 512 inb1)) (chunk x1 1024 inb2) (k1_pay4 x0)
        (Scalar.ofBits .f32 0x00000000#32) (chunk x1 1536 inb3) y
      = FloatOps.logistic (x1 (ix3 (y 0) (y 1) ⟨(x0 y).toNat, hy⟩)) := by
  obtain ⟨r, t, rfl⟩ : ∃ r t, y = ix2 r t := ⟨y 0, y 1, eq_ix2 y⟩
  exact congrArg FloatOps.logistic (selOf_apply x0 x1 r t hy)

/-- The second output's block at an entry: the cross entropy of the selected logit against the answer. -/
theorem blk4_apply (x0 : Vec Ideal S8x199 .i32) (x1 : Vec Ideal S8x199x2048 .f32) (x2 : Vec Ideal S8x199 .f32) (y : S8x199.Idx)
    (hy : (x0 y).toNat < 2048) :
    k1_pay1 (F := Ideal) (selOf x0 x1)
        (k1_pay8 (k1_pay2 x0) (k1_pay3 x0 (chunk x1 0 inb0) (chunk x1 512 inb1)) (chunk x1 1024 inb2) (k1_pay4 x0)
          (Scalar.ofBits .f32 0x00000000#32) (chunk x1 1536 inb3) x2)
        (k1_pay9 x2) y
      = Cert.Spec.bceK (F := Ideal) (x2 y) (x1 (ix3 (y 0) (y 1) ⟨(x0 y).toNat, hy⟩)) := by
  obtain ⟨r, t, rfl⟩ : ∃ r t, y = ix2 r t := ⟨y 0, y 1, eq_ix2 y⟩
  refine (pay1_apply (F := Ideal) (k1_pay2 x0) (k1_pay3 x0 (chunk x1 0 inb0) (chunk x1 512 inb1)) (chunk x1 1024 inb2) (k1_pay4 x0)
    (Scalar.ofBits .f32 0x00000000#32) (chunk x1 1536 inb3) x2 (ix2 r t)).trans ?_
  exact congrArg (Cert.Spec.bceK (F := Ideal) (x2 (ix2 r t))) (selOf_apply x0 x1 r t hy)

/-! ## The windows' blocks inside their arrays -/

/-- The printed index maps, decided over the 64 points: every window's block index is the point on the row axis and
    zero on the others. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The array index under entry `y` of the block of point `t`: row `8 t + y₀`, step `y₁`. -/
abbrev under (t : Fin cfg1.N) (y : S8x199.Idx) : S512x199.Idx :=
  ix2 (n0 := 512) (n1 := 199) ⟨t.val * 8 + (y 0).val, by have := t.isLt; have hN : cfg1.N = 64 := N_1; have h8 : (y 0).val < 8 := (y 0).isLt; show _ < 512; omega⟩ (y 1)

theorem emb0 (t : Fin cfg1.N) (y : S8x199.Idx) : ((cfg1.win 0).blk t).view.emb y = under t y := by
  obtain ⟨e0, e1, e2, e3, e4, e5, e6, e7, e8, e9, e10⟩ := idx_facts t
  funext a; apply Fin.ext
  match a with
  | ⟨0, _⟩ => show win1_0.index t (0 : Fin 2) * 8 + 1 * (y 0).val = t.val * 8 + (y 0).val; omega
  | ⟨1, _⟩ => show win1_0.index t (1 : Fin 2) * 199 + 1 * (y 1).val = (y 1).val; omega
theorem emb2 (t : Fin cfg1.N) (y : S8x199.Idx) : ((cfg1.win 2).blk t).view.emb y = under t y := by
  obtain ⟨e0, e1, e2, e3, e4, e5, e6, e7, e8, e9, e10⟩ := idx_facts t
  funext a; apply Fin.ext
  match a with
  | ⟨0, _⟩ => show win1_2.index t (0 : Fin 2) * 8 + 1 * (y 0).val = t.val * 8 + (y 0).val; omega
  | ⟨1, _⟩ => show win1_2.index t (1 : Fin 2) * 199 + 1 * (y 1).val = (y 1).val; omega
theorem emb3 (t : Fin cfg1.N) (y : S8x199.Idx) : ((cfg1.win 3).blk t).view.emb y = under t y := by
  obtain ⟨e0, e1, e2, e3, e4, e5, e6, e7, e8, e9, e10⟩ := idx_facts t
  funext a; apply Fin.ext
  match a with
  | ⟨0, _⟩ => show win1_3.index t (0 : Fin 2) * 8 + 1 * (y 0).val = t.val * 8 + (y 0).val; omega
  | ⟨1, _⟩ => show win1_3.index t (1 : Fin 2) * 199 + 1 * (y 1).val = (y 1).val; omega
theorem emb4 (t : Fin cfg1.N) (y : S8x199.Idx) : ((cfg1.win 4).blk t).view.emb y = under t y := by
  obtain ⟨e0, e1, e2, e3, e4, e5, e6, e7, e8, e9, e10⟩ := idx_facts t
  funext a; apply Fin.ext
  match a with
  | ⟨0, _⟩ => show win1_4.index t (0 : Fin 2) * 8 + 1 * (y 0).val = t.val * 8 + (y 0).val; omega
  | ⟨1, _⟩ => show win1_4.index t (1 : Fin 2) * 199 + 1 * (y 1).val = (y 1).val; omega
theorem emb1 (t : Fin cfg1.N) (y : S8x199.Idx) (k : Fin 2048) :
    ((cfg1.win 1).blk t).view.emb (ix3 (y 0) (y 1) k) = ix3 (n0 := 512) (n1 := 199) (n2 := 2048) (under t y 0) (under t y 1) k := by
  obtain ⟨e0, e1, e2, e3, e4, e5, e6, e7, e8, e9, e10⟩ := idx_facts t
  funext a; apply Fin.ext
  match a with
  | ⟨0, _⟩ => show win1_1.index t (0 : Fin 3) * 8 + 1 * (y 0).val = t.val * 8 + (y 0).val; omega
  | ⟨1, _⟩ => show win1_1.index t (1 : Fin 3) * 199 + 1 * (y 1).val = (y 1).val; omega
  | ⟨2, _⟩ => show win1_1.index t (2 : Fin 3) * 2048 + 1 * k.val = k.val; omega

/-- The index block of point `t` reads the index array under it. -/
theorem blk0_read (c : Dev nD) (t : Fin cfg1.N) (y : S8x199.Idx) :
    (iblk1 V c 0 t : Vec Ideal S8x199 .i32) y = (V c main_v5 : IVec S512x199 32) (under t y) := by
  show V c main_v5 (((cfg1.win 0).blk t).view.emb y) = V c main_v5 (under t y)
  rw [emb0]
/-- The answers' block of point `t` reads the answers under it. -/
theorem blk2_read (c : Dev nD) (t : Fin cfg1.N) (y : S8x199.Idx) :
    (iblk1 V c 2 t : Vec Ideal S8x199 .f32) y = (V c main_v15 : S512x199.Idx → EReal) (under t y) := by
  show V c main_v15 (((cfg1.win 2).blk t).view.emb y) = V c main_v15 (under t y)
  rw [emb2]
/-- The logits' block of point `t` reads the logits under it, lane for lane. -/
theorem blk1_read (c : Dev nD) (t : Fin cfg1.N) (y : S8x199.Idx) (k : Fin 2048) :
    (iblk1 V c 1 t : Vec Ideal S8x199x2048 .f32) (ix3 (y 0) (y 1) k)
      = (V c main_arg1 : S512x199x2048.Idx → EReal) (ix3 (n0 := 512) (n1 := 199) (n2 := 2048) (under t y 0) (under t y 1) k) := by
  show V c main_arg1 (((cfg1.win 1).blk t).view.emb (ix3 (y 0) (y 1) k)) = V c main_arg1 _
  rw [emb1]

/-! ## What each point writes back, and the arrays after the region -/

/-- WHAT POINT `t` WRITES BACK to the first output is block `t` of the logistic of the picked logit. -/
theorem flushed3_eq (c : Dev nD) (hj : ∀ i : Cert.Spec.S512x199.Idx, ((V c main_v5 : IVec Cert.Spec.S512x199 32) i).toNat < 2048)
    (t : Fin cfg1.N) :
    (dat1 (F := Ideal) V c).flushed 3 t
      = ((cfg1.win 3).blk t).view.read (Elt Ideal)
          (fun i => FloatOps.logistic (F := Ideal) (φ := .f32) (Cert.Spec.pick2048 (α := Ideal .f32) (V c main_arg1) (V c main_v5) i)) := by
  show (cfg1.win 3).cut (grid1.coords t) ((dat1 (F := Ideal) V c).after 3 t) = _
  rw [after1_3]
  unfold outsAt1
  dsimp only
  rw [out3_piece]
  funext y
  have hy : ((iblk1 V c 0 t : Vec Ideal S8x199 .i32) y).toNat < 2048 := by rw [blk0_read]; exact hj _
  refine (blk3_apply (iblk1 V c 0 t) (iblk1 V c 1 t) y hy).trans ?_
  show _ = FloatOps.logistic (F := Ideal) (φ := .f32) (Cert.Spec.pick2048 (α := Ideal .f32) (V c main_arg1) (V c main_v5) (((cfg1.win 3).blk t).view.emb y))
  rw [emb3]
  refine congrArg FloatOps.logistic ((blk1_read V c t y _).trans ?_)
  unfold Cert.Spec.pick2048
  refine congrArg (V c main_arg1) (congrArg (ix3 (n0 := 512) (n1 := 199) (n2 := 2048) (under t y 0) (under t y 1)) (Fin.ext ?_))
  show ((iblk1 V c 0 t : Vec Ideal S8x199 .i32) y).toNat = ((V c main_v5 : IVec S512x199 32) (under t y)).toNat % 2048
  rw [blk0_read, Nat.mod_eq_of_lt (hj _)]

/-- WHAT POINT `t` WRITES BACK to the second output is block `t` of the cross entropy of the picked logit against the answer. -/
theorem flushed4_eq (c : Dev nD) (hj : ∀ i : Cert.Spec.S512x199.Idx, ((V c main_v5 : IVec Cert.Spec.S512x199 32) i).toNat < 2048)
    (t : Fin cfg1.N) :
    (dat1 (F := Ideal) V c).flushed 4 t
      = ((cfg1.win 4).blk t).view.read (Elt Ideal)
          (fun i => Cert.Spec.bceK (F := Ideal) (V c main_v15 i) (Cert.Spec.pick2048 (V c main_arg1) (V c main_v5) i)) := by
  show (cfg1.win 4).cut (grid1.coords t) ((dat1 (F := Ideal) V c).after 4 t) = _
  rw [after1_4]
  unfold outsAt1
  dsimp only
  rw [out4_piece]
  funext y
  have hy : ((iblk1 V c 0 t : Vec Ideal S8x199 .i32) y).toNat < 2048 := by rw [blk0_read]; exact hj _
  refine (blk4_apply (iblk1 V c 0 t) (iblk1 V c 1 t) (iblk1 V c 2 t) y hy).trans ?_
  show _ = Cert.Spec.bceK (F := Ideal) (V c main_v15 (((cfg1.win 4).blk t).view.emb y))
    (Cert.Spec.pick2048 (V c main_arg1) (V c main_v5) (((cfg1.win 4).blk t).view.emb y))
  rw [emb4]
  refine congrArg₂ (Cert.Spec.bceK (F := Ideal)) (blk2_read V c t y) ((blk1_read V c t y _).trans ?_)
  unfold Cert.Spec.pick2048
  refine congrArg (V c main_arg1) (congrArg (ix3 (n0 := 512) (n1 := 199) (n2 := 2048) (under t y 0) (under t y 1)) (Fin.ext ?_))
  show ((iblk1 V c 0 t : Vec Ideal S8x199 .i32) y).toNat = ((V c main_v5 : IVec S512x199 32) (under t y)).toNat % 2048
  rw [blk0_read, Nat.mod_eq_of_lt (hj _)]

/-- An index of the first output is in point `t`'s block iff each coordinate is in the block's range on its axis. -/
theorem mem_blk3 (t : Fin cfg1.N) (i : S512x199.Idx) :
    i ∈ ((cfg1.win 3).blk t).view.set ↔ ∀ a : Fin 2, win1_3.index t a * S8x199.size a ≤ (i a).val ∧ (i a).val < win1_3.index t a * S8x199.size a + S8x199.size a := by
  show i ∈ ((View.whole main_v17_0).slice (win1_3.rect t)).set ↔ _
  rw [View.set_slice_whole, Rect.mem_set_unit]
  exact Iff.rfl
/-- The same for the second output. -/
theorem mem_blk4 (t : Fin cfg1.N) (i : S512x199.Idx) :
    i ∈ ((cfg1.win 4).blk t).view.set ↔ ∀ a : Fin 2, win1_4.index t a * S8x199.size a ≤ (i a).val ∧ (i a).val < win1_4.index t a * S8x199.size a + S8x199.size a := by
  show i ∈ ((View.whole main_v17_1).slice (win1_4.rect t)).set ↔ _
  rw [View.set_slice_whole, Rect.mem_set_unit]
  exact Iff.rfl

/-- Row `r` of the first output lies in the block of point `r / 8`, which writes back. -/
theorem cover3 (i : S512x199.Idx) : ∃ t : Fin cfg1.N, (cfg1.win 3).flush t = true ∧ i ∈ ((cfg1.win 3).blk t).view.set := by
  have hN : cfg1.N = 64 := N_1
  have hi0 : (i 0).val < 512 := (i 0).isLt
  have hi1 : (i 1).val < 199 := (i 1).isLt
  obtain ⟨t, ht⟩ : ∃ t : Fin cfg1.N, t.val = (i 0).val / 8 := ⟨⟨(i 0).val / 8, by omega⟩, rfl⟩
  obtain ⟨e0, e1, e2, e3, e4, e5, e6, e7, e8, e9, e10⟩ := idx_facts t
  refine ⟨t, flush1_3 t, ?_⟩
  rw [mem_blk3]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 199 ≤ (i 1).val ∧ (i 1).val < win1_3.index t (1 : Fin 2) * 199 + 199; omega
/-- The same for the second output. -/
theorem cover4 (i : S512x199.Idx) : ∃ t : Fin cfg1.N, (cfg1.win 4).flush t = true ∧ i ∈ ((cfg1.win 4).blk t).view.set := by
  have hN : cfg1.N = 64 := N_1
  have hi0 : (i 0).val < 512 := (i 0).isLt
  have hi1 : (i 1).val < 199 := (i 1).isLt
  obtain ⟨t, ht⟩ : ∃ t : Fin cfg1.N, t.val = (i 0).val / 8 := ⟨⟨(i 0).val / 8, by omega⟩, rfl⟩
  obtain ⟨e0, e1, e2, e3, e4, e5, e6, e7, e8, e9, e10⟩ := idx_facts t
  refine ⟨t, flush1_4 t, ?_⟩
  rw [mem_blk4]
  intro a
  match a with
  | ⟨0, _⟩ => show win1_4.index t (0 : Fin 2) * 8 ≤ (i 0).val ∧ (i 0).val < win1_4.index t (0 : Fin 2) * 8 + 8; omega
  | ⟨1, _⟩ => show win1_4.index t (1 : Fin 2) * 199 ≤ (i 1).val ∧ (i 1).val < win1_4.index t (1 : Fin 2) * 199 + 199; omega

/-- The three input arrays are never written back: after the region they hold what the region found. -/
theorem in0 (c : Dev nD) : (dat1 (F := Ideal) V c).arrAt 0 cfg1.N = V c main_v5 :=
  ((dat1 (F := Ideal) V c).arrAt_in 0 rfl _).trans (A_eq1 V c 0)
theorem in1 (c : Dev nD) : (dat1 (F := Ideal) V c).arrAt 1 cfg1.N = V c main_arg1 :=
  ((dat1 (F := Ideal) V c).arrAt_in 1 rfl _).trans (A_eq1 V c 1)
theorem in2 (c : Dev nD) : (dat1 (F := Ideal) V c).arrAt 2 cfg1.N = V c main_v15 :=
  ((dat1 (F := Ideal) V c).arrAt_in 2 rfl _).trans (A_eq1 V c 2)

/-- THE FIRST OUTPUT after the region: the logistic of the picked logit, at every (row, step). -/
theorem out3 (c : Dev nD) (hj : ∀ i : Cert.Spec.S512x199.Idx, ((V c main_v5 : IVec Cert.Spec.S512x199 32) i).toNat < 2048) :
    (dat1 (F := Ideal) V c).arrAt 3 cfg1.N = fun i => FloatOps.logistic (F := Ideal) (φ := .f32) (Cert.Spec.pick2048 (α := Ideal .f32) (V c main_arg1) (V c main_v5) i) :=
  (dat1 (F := Ideal) V c).arrAt_eq_of_cover 3 _ (fun t _ => flushed3_eq V c hj t) cover3

/-- THE SECOND OUTPUT after the region: the cross entropy of the picked logit against the answer, at every (row, step). -/
theorem out4 (c : Dev nD) (hj : ∀ i : Cert.Spec.S512x199.Idx, ((V c main_v5 : IVec Cert.Spec.S512x199 32) i).toNat < 2048) :
    (dat1 (F := Ideal) V c).arrAt 4 cfg1.N = fun i => Cert.Spec.bceK (F := Ideal) (V c main_v15 i) (Cert.Spec.pick2048 (V c main_arg1) (V c main_v5) i) :=
  (dat1 (F := Ideal) V c).arrAt_eq_of_cover 4 _ (fun t _ => flushed4_eq V c hj t) cover4

end Cert.KernelIdeal.Reg1

end
-- ==== Proof.RRun.lean ====
/-
  The run of the reference program, which is host operations only. Its entry function calls five outlined
  functions (the two selections of one logit along the last axis, the masked choice, the logarithm of the
  logistic function four times, each through the softplus it calls); a call executes the callee's body on
  the operands, so the whole program is ONE straight line of 198 operations: the entry function's own 86
  and, at each call, the callee's over that call's buffer record. The line is listed here in order, the
  program is shown equal to it, and the run theorem of a straight line then says that every execution
  terminates with each buffer at the fold of the operations' results over the launch contents.
-/
import proofs.«403331_j53609781789270_3_alg».proof.Proof.Gen.ReferenceIdeal
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The program's 198 operations in order, the calls unfolded. The entry function's own operations are written
    over its buffers; a callee's are written over the buffer record of the call (`main_call0` … `main_call6`,
    the softplus inside a logarithm-of-logistic call over that call's `call0`), its formal arguments replaced by
    the operand buffers of the call. Each selection along the last axis is 22 operations, the masked choice 4,
    each logarithm of the logistic function 16 (a negation, the softplus's 14, a negation). -/
abbrev ops : List (HloOp τ sig (Elt F)) :=
  [ StableHlo.unary main_arg2 main_v0 ((extractStridedSlice S512x199x3 ![0, 1, 0] · slices_S512x200x3_S512x199x3_0_1_0) : (⟨S512x200x3, .i32⟩ : BufTy).Contents (Elt F) → (⟨S512x199x3, .i32⟩ : BufTy).Contents (Elt F)),
    StableHlo.unary main_v0 main_v1 ((extractStridedSlice S512x199x1 ![0, 0, 0] · slices_S512x199x3_S512x199x1_0_0_0) : (⟨S512x199x3, .i32⟩ : BufTy).Contents (Elt F) → (⟨S512x199x1, .i32⟩ : BufTy).Contents (Elt F)),
    StableHlo.reshape main_v1 main_v2 rfl shapeCasts_S512x199x1_S512x199,
    StableHlo.nullary main_c (constantI S_ 32 1#32),
    StableHlo.unary main_c main_v3 (broadcastInDim S512x199 ![] bcast_S_S512x199 : (⟨S_, .i32⟩ : BufTy).Contents (Elt F) → (⟨S512x199, .i32⟩ : BufTy).Contents (Elt F)),
    StableHlo.binary main_v2 main_v3 main_v4 (subi : (⟨S512x199, .i32⟩ : BufTy).Contents (Elt F) → (⟨S512x199, .i32⟩ : BufTy).Contents (Elt F) → (⟨S512x199, .i32⟩ : BufTy).Contents (Elt F)),
    StableHlo.unary main_v0 main_v5 ((extractStridedSlice S512x199x1 ![0, 0, 1] · slices_S512x199x3_S512x199x1_0_0_1) : (⟨S512x199x3, .i32⟩ : BufTy).Contents (Elt F) → (⟨S512x199x1, .i32⟩ : BufTy).Contents (Elt F)),
    StableHlo.reshape main_v5 main_v6 rfl shapeCasts_S512x199x1_S512x199,
    StableHlo.nullary main_c_0 (constantI S_ 32 1#32),
    StableHlo.unary main_c_0 main_v7 (broadcastInDim S512x199 ![] bcast_S_S512x199 : (⟨S_, .i32⟩ : BufTy).Contents (Elt F) → (⟨S512x199, .i32⟩ : BufTy).Contents (Elt F)),
    StableHlo.binary main_v6 main_v7 main_v8 (subi : (⟨S512x199, .i32⟩ : BufTy).Contents (Elt F) → (⟨S512x199, .i32⟩ : BufTy).Contents (Elt F) → (⟨S512x199, .i32⟩ : BufTy).Contents (Elt F)),
    StableHlo.unary main_v0 main_v9 ((extractStridedSlice S512x199x1 ![0, 0, 1] · slices_S512x199x3_S512x199x1_0_0_1) : (⟨S512x199x3, .i32⟩ : BufTy).Contents (Elt F) → (⟨S512x199x1, .i32⟩ : BufTy).Contents (Elt F)),
    StableHlo.reshape main_v9 main_v10 rfl shapeCasts_S512x199x1_S512x199,
    StableHlo.unary main_v0 main_v11 ((extractStridedSlice S512x199x1 ![0, 0, 2] · slices_S512x199x3_S512x199x1_0_0_2) : (⟨S512x199x3, .i32⟩ : BufTy).Contents (Elt F) → (⟨S512x199x1, .i32⟩ : BufTy).Contents (Elt F)),
    StableHlo.reshape main_v11 main_v12 rfl shapeCasts_S512x199x1_S512x199,
    StableHlo.unary main_v12 main_v13 (sitofp .f32 : (⟨S512x199, .i32⟩ : BufTy).Contents (Elt F) → (⟨S512x199, .f32⟩ : BufTy).Contents (Elt F)),
    StableHlo.unary main_v8 main_v14 (broadcastInDim S512x199x1 ![0, 1] bcast_S512x199_S512x199x1_0_1 : (⟨S512x199, .i32⟩ : BufTy).Contents (Elt F) → (⟨S512x199x1, .i32⟩ : BufTy).Contents (Elt F)),
    StableHlo.TRef.nullary main_call0.c (constantI S_ 32 0#32),
    StableHlo.TRef.unary main_call0.c main_call0.v0 (broadcastInDim S512x199x1 ![] bcast_S_S512x199x1),
    StableHlo.TRef.binary (.of main_v14 : StableHlo.TRef sig ⟨S512x199x1, .i32⟩) main_call0.v0 main_call0.v1 (cmpi .slt),
    StableHlo.TRef.nullary main_call0.c_0 (constantI S_ 32 512#32),
    StableHlo.TRef.unary main_call0.c_0 main_call0.v2 (broadcastInDim S512x199x1 ![] bcast_S_S512x199x1),
    StableHlo.TRef.binary (.of main_v14 : StableHlo.TRef sig ⟨S512x199x1, .i32⟩) main_call0.v2 main_call0.v3 addi,
    StableHlo.TRef.ternary main_call0.v1 main_call0.v3 (.of main_v14 : StableHlo.TRef sig ⟨S512x199x1, .i32⟩) main_call0.v4 select,
    StableHlo.TRef.reshape main_call0.v4 main_call0.v5 rfl shapeCasts_S512x199x1_S512x199x1x1,
    StableHlo.TRef.nullary main_call0.c_1 (constantI S1 32 511#32),
    StableHlo.TRef.nullary main_call0.c_2 (constantI S_ 32 0#32),
    StableHlo.TRef.unary main_call0.c_2 main_call0.v6 (broadcastInDim S512x199x1x1 ![] bcast_S_S512x199x1x1),
    StableHlo.TRef.binary main_call0.v5 main_call0.v6 main_call0.v7 (cmpi .sge),
    StableHlo.TRef.unary main_call0.c_1 main_call0.v8 (broadcastInDim S1x1x1x1 ![3] bcast_S1_S1x1x1x1_3),
    StableHlo.TRef.unary main_call0.v8 main_call0.v9 (broadcastInDim S512x199x1x1 ![0, 1, 2, 3] bcast_S1x1x1x1_S512x199x1x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S512x199x1x1_S512x199x1_d3 h_S_),
    StableHlo.TRef.binary (.of main_arg0 : StableHlo.TRef sig ⟨S512x199x512, .f32⟩) main_call0.v5 main_call0.v13 (fun x i => Host.gather gather_S512x199x512_S512x199x1x1_S512x199x1_n_2_01_01_2_3_111 x i),
    StableHlo.TRef.nullary main_call0.cst (constant S_ .f32 0x7FC00000#32),
    StableHlo.TRef.unary main_call0.cst main_call0.v14 (broadcastInDim S512x199x1 ![] bcast_S_S512x199x1),
    StableHlo.TRef.ternary main_call0.v12 main_call0.v13 main_call0.v14 main_call0.v15 select,
    StableHlo.reshape main_v15 main_v16 rfl shapeCasts_S512x199x1_S512x199,
    StableHlo.unary main_v4 main_v17 (broadcastInDim S512x199x1 ![0, 1] bcast_S512x199_S512x199x1_0_1 : (⟨S512x199, .i32⟩ : BufTy).Contents (Elt F) → (⟨S512x199x1, .i32⟩ : BufTy).Contents (Elt F)),
    StableHlo.TRef.nullary main_call1.c (constantI S_ 32 0#32),
    StableHlo.TRef.unary main_call1.c main_call1.v0 (broadcastInDim S512x199x1 ![] bcast_S_S512x199x1),
    StableHlo.TRef.binary (.of main_v17 : StableHlo.TRef sig ⟨S512x199x1, .i32⟩) main_call1.v0 main_call1.v1 (cmpi .slt),
    StableHlo.TRef.nullary main_call1.c_0 (constantI S_ 32 2048#32),
    StableHlo.TRef.unary main_call1.c_0 main_call1.v2 (broadcastInDim S512x199x1 ![] bcast_S_S512x199x1),
    StableHlo.TRef.binary (.of main_v17 : StableHlo.TRef sig ⟨S512x199x1, .i32⟩) main_call1.v2 main_call1.v3 addi,
    StableHlo.TRef.ternary main_call1.v1 main_call1.v3 (.of main_v17 : StableHlo.TRef sig ⟨S512x199x1, .i32⟩) main_call1.v4 select,
    StableHlo.TRef.reshape main_call1.v4 main_call1.v5 rfl shapeCasts_S512x199x1_S512x199x1x1,
    StableHlo.TRef.nullary main_call1.c_1 (constantI S1 32 2047#32),
    StableHlo.TRef.nullary main_call1.c_2 (constantI S_ 32 0#32),
    StableHlo.TRef.unary main_call1.c_2 main_call1.v6 (broadcastInDim S512x199x1x1 ![] bcast_S_S512x199x1x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S512x199x1x1 ![0, 1, 2, 3] bcast_S1x1x1x1_S512x199x1x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S512x199x1x1_S512x199x1_d3 h_S_),
    StableHlo.TRef.binary (.of main_arg1 : StableHlo.TRef sig ⟨S512x199x2048, .f32⟩) main_call1.v5 main_call1.v13 (fun x i => Host.gather gather_S512x199x2048_S512x199x1x1_S512x199x1_n_2_01_01_2_3_111 x i),
    StableHlo.TRef.nullary main_call1.cst (constant S_ .f32 0x7FC00000#32),
    StableHlo.TRef.unary main_call1.cst main_call1.v14 (broadcastInDim S512x199x1 ![] bcast_S_S512x199x1),
    StableHlo.TRef.ternary main_call1.v12 main_call1.v13 main_call1.v14 main_call1.v15 select,
    StableHlo.reshape main_v18 main_v19 rfl shapeCasts_S512x199x1_S512x199,
    StableHlo.unary main_v16 main_v20 (Host.negf : (⟨S512x199, .f32⟩ : BufTy).Contents (Elt F) → (⟨S512x199, .f32⟩ : BufTy).Contents (Elt F)),
    StableHlo.unary main_v20 main_v21 (Host.exp : (⟨S512x199, .f32⟩ : BufTy).Contents (Elt F) → (⟨S512x199, .f32⟩ : BufTy).Contents (Elt F)),
    StableHlo.nullary main_cst (constant S_ .f32 0x3F800000#32),
    StableHlo.unary main_cst main_v22 (broadcastInDim S512x199 ![] bcast_S_S512x199 : (⟨S_, .f32⟩ : BufTy).Contents (Elt F) → (⟨S512x199, .f32⟩ : BufTy).Contents (Elt F)),
    StableHlo.binary main_v22 main_v21 main_v23 (addf : (⟨S512x199, .f32⟩ : BufTy).Contents (Elt F) → (⟨S512x199, .f32⟩ : BufTy).Contents (Elt F) → (⟨S512x199, .f32⟩ : BufTy).Contents (Elt F)),
    StableHlo.nullary main_cst_1 (constant S_ .f32 0x3F800000#32),
    StableHlo.unary main_cst_1 main_v24 (broadcastInDim S512x199 ![] bcast_S_S512x199 : (⟨S_, .f32⟩ : BufTy).Contents (Elt F) → (⟨S512x199, .f32⟩ : BufTy).Contents (Elt F)),
    StableHlo.binary main_v24 main_v23 main_v25 (Host.divf : (⟨S512x199, .f32⟩ : BufTy).Contents (Elt F) → (⟨S512x199, .f32⟩ : BufTy).Contents (Elt F) → (⟨S512x199, .f32⟩ : BufTy).Contents (Elt F)),
    StableHlo.unary main_v19 main_v26 (Host.negf : (⟨S512x199, .f32⟩ : BufTy).Contents (Elt F) → (⟨S512x199, .f32⟩ : BufTy).Contents (Elt F)),
    StableHlo.unary main_v26 main_v27 (Host.exp : (⟨S512x199, .f32⟩ : BufTy).Contents (Elt F) → (⟨S512x199, .f32⟩ : BufTy).Contents (Elt F)),
    StableHlo.nullary main_cst_2 (constant S_ .f32 0x3F800000#32),
    StableHlo.unary main_cst_2 main_v28 (broadcastInDim S512x199 ![] bcast_S_S512x199 : (⟨S_, .f32⟩ : BufTy).Contents (Elt F) → (⟨S512x199, .f32⟩ : BufTy).Contents (Elt F)),
    StableHlo.binary main_v28 main_v27 main_v29 (addf : (⟨S512x199, .f32⟩ : BufTy).Contents (Elt F) → (⟨S512x199, .f32⟩ : BufTy).Contents (Elt F) → (⟨S512x199, .f32⟩ : BufTy).Contents (Elt F)),
    StableHlo.nullary main_cst_3 (constant S_ .f32 0x3F800000#32),
    StableHlo.unary main_cst_3 main_v30 (broadcastInDim S512x199 ![] bcast_S_S512x199 : (⟨S_, .f32⟩ : BufTy).Contents (Elt F) → (⟨S512x199, .f32⟩ : BufTy).Contents (Elt F)),
    StableHlo.binary main_v30 main_v29 main_v31 (Host.divf : (⟨S512x199, .f32⟩ : BufTy).Contents (Elt F) → (⟨S512x199, .f32⟩ : BufTy).Contents (Elt F) → (⟨S512x199, .f32⟩ : BufTy).Contents (Elt F)),
    StableHlo.binary main_v25 main_v31 main_v32 (addf : (⟨S512x199, .f32⟩ : BufTy).Contents (Elt F) → (⟨S512x199, .f32⟩ : BufTy).Contents (Elt F) → (⟨S512x199, .f32⟩ : BufTy).Contents (Elt F)),
    StableHlo.nullary main_cst_4 (constant S_ .f32 0x3F000000#32),
    StableHlo.unary main_cst_4 main_v33 (broadcastInDim S512x199 ![] bcast_S_S512x199 : (⟨S_, .f32⟩ : BufTy).Contents (Elt F) → (⟨S512x199, .f32⟩ : BufTy).Contents (Elt F)),
    StableHlo.binary main_v32 main_v33 main_v34 (mulf : (⟨S512x199, .f32⟩ : BufTy).Contents (Elt F) → (⟨S512x199, .f32⟩ : BufTy).Contents (Elt F) → (⟨S512x199, .f32⟩ : BufTy).Contents (Elt F)),
    StableHlo.nullary main_v35 (iotaInDim S199 32 0),
    StableHlo.nullary main_c_5 (constantI S_ 32 0#32),
    StableHlo.unary main_c_5 main_v36 (broadcastInDim S512x199 ![] bcast_S_S512x199 : (⟨S_, .i32⟩ : BufTy).Contents (Elt F) → (⟨S512x199, .i32⟩ : BufTy).Contents (Elt F)),
    StableHlo.binary main_v10 main_v36 main_v37 (cmpi .sgt : (⟨S512x199, .i32⟩ : BufTy).Contents (Elt F) → (⟨S512x199, .i32⟩ : BufTy).Contents (Elt F) → (⟨S512x199, .i1⟩ : BufTy).Contents (Elt F)),
    StableHlo.unary main_v35 main_v38 (broadcastInDim S1x199 ![1] bcast_S199_S1x199_1 : (⟨S199, .i32⟩ : BufTy).Contents (Elt F) → (⟨S1x199, .i32⟩ : BufTy).Contents (Elt F)),
    StableHlo.nullary main_c_6 (constantI S_ 32 4294967295#32),
    StableHlo.TRef.unary (.of main_c_6 : StableHlo.TRef sig ⟨S_, .i32⟩) main_call2.v0 id,
    StableHlo.TRef.unary (.of main_v38 : StableHlo.TRef sig ⟨S1x199, .i32⟩) main_call2.v1 (broadcastInDim S512x199 ![0, 1] bcast_S1x199_S512x199_0_1),
    StableHlo.TRef.unary main_call2.v0 main_call2.v2 (broadcastInDim S512x199 ![] bcast_S_S512x199),
    StableHlo.TRef.ternary (.of main_v37 : StableHlo.TRef sig ⟨S512x199, .i1⟩) main_call2.v1 main_call2.v2 main_call2.v3 select,
    StableHlo.nullary main_c_7 (constantI S_ 32 2147483648#32),
    StableHlo.binary main_v39 main_c_7 main_v40 ((fun x v => Host.reduce IntOp.maxsi x v reducesTo_S512x199_S512_d1 h_S_) : (⟨S512x199, .i32⟩ : BufTy).Contents (Elt F) → (⟨S_, .i32⟩ : BufTy).Contents (Elt F) → (⟨S512, .i32⟩ : BufTy).Contents (Elt F)),
    StableHlo.unary main_v35 main_v41 (broadcastInDim S1x199 ![1] bcast_S199_S1x199_1 : (⟨S199, .i32⟩ : BufTy).Contents (Elt F) → (⟨S1x199, .i32⟩ : BufTy).Contents (Elt F)),
    StableHlo.unary main_v40 main_v42 (broadcastInDim S512x1 ![0] bcast_S512_S512x1_0 : (⟨S512, .i32⟩ : BufTy).Contents (Elt F) → (⟨S512x1, .i32⟩ : BufTy).Contents (Elt F)),
    StableHlo.unary main_v41 main_v43 (broadcastInDim S512x199 ![0, 1] bcast_S1x199_S512x199_0_1 : (⟨S1x199, .i32⟩ : BufTy).Contents (Elt F) → (⟨S512x199, .i32⟩ : BufTy).Contents (Elt F)),
    StableHlo.unary main_v42 main_v44 (broadcastInDim S512x199 ![0, 1] bcast_S512x1_S512x199_0_1 : (⟨S512x1, .i32⟩ : BufTy).Contents (Elt F) → (⟨S512x199, .i32⟩ : BufTy).Contents (Elt F)),
    StableHlo.binary main_v43 main_v44 main_v45 (cmpi .sle : (⟨S512x199, .i32⟩ : BufTy).Contents (Elt F) → (⟨S512x199, .i32⟩ : BufTy).Contents (Elt F) → (⟨S512x199, .i1⟩ : BufTy).Contents (Elt F)),
    StableHlo.unary main_v45 main_v46 (uitofp .f32 : (⟨S512x199, .i1⟩ : BufTy).Contents (Elt F) → (⟨S512x199, .f32⟩ : BufTy).Contents (Elt F)),
    StableHlo.nullary main_cst_8 (constant S_ .f32 0x00000000#32),
    StableHlo.binary main_v46 main_cst_8 main_v47 ((fun x v => Host.reduceAdd x v reducesTo_S512x199_S512_d1 h_S_) : (⟨S512x199, .f32⟩ : BufTy).Contents (Elt F) → (⟨S_, .f32⟩ : BufTy).Contents (Elt F) → (⟨S512, .f32⟩ : BufTy).Contents (Elt F)),
    StableHlo.TRef.unary (.of main_v16 : StableHlo.TRef sig ⟨S512x199, .f32⟩) main_call3.v0 Host.negf,
    StableHlo.TRef.nullary main_call3.call0.cst (constant S_ .f32 0x00000000#32),
    StableHlo.TRef.unary main_call3.call0.cst main_call3.call0.v0 (broadcastInDim S512x199 ![] bcast_S_S512x199),
    StableHlo.TRef.binary main_call3.v0 main_call3.call0.v0 main_call3.call0.v1 maximumf,
    StableHlo.TRef.unary main_call3.call0.cst main_call3.call0.v2 (broadcastInDim S512x199 ![] bcast_S_S512x199),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S512x199 ![] bcast_S_S512x199),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.binary main_v13 main_v48 main_v49 (mulf : (⟨S512x199, .f32⟩ : BufTy).Contents (Elt F) → (⟨S512x199, .f32⟩ : BufTy).Contents (Elt F) → (⟨S512x199, .f32⟩ : BufTy).Contents (Elt F)),
    StableHlo.nullary main_cst_9 (constant S_ .f32 0x3F800000#32),
    StableHlo.unary main_cst_9 main_v50 (broadcastInDim S512x199 ![] bcast_S_S512x199 : (⟨S_, .f32⟩ : BufTy).Contents (Elt F) → (⟨S512x199, .f32⟩ : BufTy).Contents (Elt F)),
    StableHlo.binary main_v50 main_v13 main_v51 (subf : (⟨S512x199, .f32⟩ : BufTy).Contents (Elt F) → (⟨S512x199, .f32⟩ : BufTy).Contents (Elt F) → (⟨S512x199, .f32⟩ : BufTy).Contents (Elt F)),
    StableHlo.unary main_v16 main_v52 (Host.negf : (⟨S512x199, .f32⟩ : BufTy).Contents (Elt F) → (⟨S512x199, .f32⟩ : BufTy).Contents (Elt F)),
    StableHlo.TRef.unary (.of main_v52 : StableHlo.TRef sig ⟨S512x199, .f32⟩) main_call4.v0 Host.negf,
    StableHlo.TRef.nullary main_call4.call0.cst (constant S_ .f32 0x00000000#32),
    StableHlo.TRef.unary main_call4.call0.cst main_call4.call0.v0 (broadcastInDim S512x199 ![] bcast_S_S512x199),
    StableHlo.TRef.binary main_call4.v0 main_call4.call0.v0 main_call4.call0.v1 maximumf,
    StableHlo.TRef.unary main_call4.call0.cst main_call4.call0.v2 (broadcastInDim S512x199 ![] bcast_S_S512x199),
    StableHlo.TRef.binary main_call4.v0 main_call4.call0.v2 main_call4.call0.v3 subf,
    StableHlo.TRef.binary main_call4.call0.v3 main_call4.call0.v3 main_call4.call0.v4 (cmpf .une),
    StableHlo.TRef.unary main_call4.call0.cst main_call4.call0.v5 (broadcastInDim S512x199 ![] bcast_S_S512x199),
    StableHlo.TRef.binary main_call4.v0 main_call4.call0.v5 main_call4.call0.v6 addf,
    StableHlo.TRef.unary main_call4.call0.v3 main_call4.call0.v7 Host.absf,
    StableHlo.TRef.unary main_call4.call0.v7 main_call4.call0.v8 Host.negf,
    StableHlo.TRef.unary main_call4.call0.v8 main_call4.call0.v9 Host.exp,
    StableHlo.TRef.unary main_call4.call0.v9 main_call4.call0.v10 Host.log1p,
    StableHlo.TRef.binary main_call4.call0.v1 main_call4.call0.v10 main_call4.call0.v11 addf,
    StableHlo.TRef.ternary main_call4.call0.v4 main_call4.call0.v6 main_call4.call0.v11 main_call4.call0.v12 select,
    StableHlo.TRef.unary main_call4.call0.v12 main_call4.v2 Host.negf,
    StableHlo.binary main_v51 main_v53 main_v54 (mulf : (⟨S512x199, .f32⟩ : BufTy).Contents (Elt F) → (⟨S512x199, .f32⟩ : BufTy).Contents (Elt F) → (⟨S512x199, .f32⟩ : BufTy).Contents (Elt F)),
    StableHlo.binary main_v49 main_v54 main_v55 (addf : (⟨S512x199, .f32⟩ : BufTy).Contents (Elt F) → (⟨S512x199, .f32⟩ : BufTy).Contents (Elt F) → (⟨S512x199, .f32⟩ : BufTy).Contents (Elt F)),
    StableHlo.unary main_v55 main_v56 (Host.negf : (⟨S512x199, .f32⟩ : BufTy).Contents (Elt F) → (⟨S512x199, .f32⟩ : BufTy).Contents (Elt F)),
    StableHlo.TRef.unary (.of main_v19 : StableHlo.TRef sig ⟨S512x199, .f32⟩) main_call5.v0 Host.negf,
    StableHlo.TRef.nullary main_call5.call0.cst (constant S_ .f32 0x00000000#32),
    StableHlo.TRef.unary main_call5.call0.cst main_call5.call0.v0 (broadcastInDim S512x199 ![] bcast_S_S512x199),
    StableHlo.TRef.binary main_call5.v0 main_call5.call0.v0 main_call5.call0.v1 maximumf,
    StableHlo.TRef.unary main_call5.call0.cst main_call5.call0.v2 (broadcastInDim S512x199 ![] bcast_S_S512x199),
    StableHlo.TRef.binary main_call5.v0 main_call5.call0.v2 main_call5.call0.v3 subf,
    StableHlo.TRef.binary main_call5.call0.v3 main_call5.call0.v3 main_call5.call0.v4 (cmpf .une),
    StableHlo.TRef.unary main_call5.call0.cst main_call5.call0.v5 (broadcastInDim S512x199 ![] bcast_S_S512x199),
    StableHlo.TRef.binary main_call5.v0 main_call5.call0.v5 main_call5.call0.v6 addf,
    StableHlo.TRef.unary main_call5.call0.v3 main_call5.call0.v7 Host.absf,
    StableHlo.TRef.unary main_call5.call0.v7 main_call5.call0.v8 Host.negf,
    StableHlo.TRef.unary main_call5.call0.v8 main_call5.call0.v9 Host.exp,
    StableHlo.TRef.unary main_call5.call0.v9 main_call5.call0.v10 Host.log1p,
    StableHlo.TRef.binary main_call5.call0.v1 main_call5.call0.v10 main_call5.call0.v11 addf,
    StableHlo.TRef.ternary main_call5.call0.v4 main_call5.call0.v6 main_call5.call0.v11 main_call5.call0.v12 select,
    StableHlo.TRef.unary main_call5.call0.v12 main_call5.v2 Host.negf,
    StableHlo.binary main_v13 main_v57 main_v58 (mulf : (⟨S512x199, .f32⟩ : BufTy).Contents (Elt F) → (⟨S512x199, .f32⟩ : BufTy).Contents (Elt F) → (⟨S512x199, .f32⟩ : BufTy).Contents (Elt F)),
    StableHlo.nullary main_cst_10 (constant S_ .f32 0x3F800000#32),
    StableHlo.unary main_cst_10 main_v59 (broadcastInDim S512x199 ![] bcast_S_S512x199 : (⟨S_, .f32⟩ : BufTy).Contents (Elt F) → (⟨S512x199, .f32⟩ : BufTy).Contents (Elt F)),
    StableHlo.binary main_v59 main_v13 main_v60 (subf : (⟨S512x199, .f32⟩ : BufTy).Contents (Elt F) → (⟨S512x199, .f32⟩ : BufTy).Contents (Elt F) → (⟨S512x199, .f32⟩ : BufTy).Contents (Elt F)),
    StableHlo.unary main_v19 main_v61 (Host.negf : (⟨S512x199, .f32⟩ : BufTy).Contents (Elt F) → (⟨S512x199, .f32⟩ : BufTy).Contents (Elt F)),
    StableHlo.TRef.unary (.of main_v61 : StableHlo.TRef sig ⟨S512x199, .f32⟩) main_call6.v0 Host.negf,
    StableHlo.TRef.nullary main_call6.call0.cst (constant S_ .f32 0x00000000#32),
    StableHlo.TRef.unary main_call6.call0.cst main_call6.call0.v0 (broadcastInDim S512x199 ![] bcast_S_S512x199),
    StableHlo.TRef.binary main_call6.v0 main_call6.call0.v0 main_call6.call0.v1 maximumf,
    StableHlo.TRef.unary main_call6.call0.cst main_call6.call0.v2 (broadcastInDim S512x199 ![] bcast_S_S512x199),
    StableHlo.TRef.binary main_call6.v0 main_call6.call0.v2 main_call6.call0.v3 subf,
    StableHlo.TRef.binary main_call6.call0.v3 main_call6.call0.v3 main_call6.call0.v4 (cmpf .une),
    StableHlo.TRef.unary main_call6.call0.cst main_call6.call0.v5 (broadcastInDim S512x199 ![] bcast_S_S512x199),
    StableHlo.TRef.binary main_call6.v0 main_call6.call0.v5 main_call6.call0.v6 addf,
    StableHlo.TRef.unary main_call6.call0.v3 main_call6.call0.v7 Host.absf,
    StableHlo.TRef.unary main_call6.call0.v7 main_call6.call0.v8 Host.negf,
    StableHlo.TRef.unary main_call6.call0.v8 main_call6.call0.v9 Host.exp,
    StableHlo.TRef.unary main_call6.call0.v9 main_call6.call0.v10 Host.log1p,
    StableHlo.TRef.binary main_call6.call0.v1 main_call6.call0.v10 main_call6.call0.v11 addf,
    StableHlo.TRef.ternary main_call6.call0.v4 main_call6.call0.v6 main_call6.call0.v11 main_call6.call0.v12 select,
    StableHlo.TRef.unary main_call6.call0.v12 main_call6.v2 Host.negf,
    StableHlo.binary main_v60 main_v62 main_v63 (mulf : (⟨S512x199, .f32⟩ : BufTy).Contents (Elt F) → (⟨S512x199, .f32⟩ : BufTy).Contents (Elt F) → (⟨S512x199, .f32⟩ : BufTy).Contents (Elt F)),
    StableHlo.binary main_v58 main_v63 main_v64 (addf : (⟨S512x199, .f32⟩ : BufTy).Contents (Elt F) → (⟨S512x199, .f32⟩ : BufTy).Contents (Elt F) → (⟨S512x199, .f32⟩ : BufTy).Contents (Elt F)),
    StableHlo.unary main_v64 main_v65 (Host.negf : (⟨S512x199, .f32⟩ : BufTy).Contents (Elt F) → (⟨S512x199, .f32⟩ : BufTy).Contents (Elt F)),
    StableHlo.binary main_v46 main_v56 main_v66 (mulf : (⟨S512x199, .f32⟩ : BufTy).Contents (Elt F) → (⟨S512x199, .f32⟩ : BufTy).Contents (Elt F) → (⟨S512x199, .f32⟩ : BufTy).Contents (Elt F)),
    StableHlo.nullary main_cst_11 (constant S_ .f32 0x00000000#32),
    StableHlo.binary main_v66 main_cst_11 main_v67 ((fun x v => Host.reduceAdd x v reducesTo_S512x199_S512_d1 h_S_) : (⟨S512x199, .f32⟩ : BufTy).Contents (Elt F) → (⟨S_, .f32⟩ : BufTy).Contents (Elt F) → (⟨S512, .f32⟩ : BufTy).Contents (Elt F)),
    StableHlo.binary main_v46 main_v65 main_v68 (mulf : (⟨S512x199, .f32⟩ : BufTy).Contents (Elt F) → (⟨S512x199, .f32⟩ : BufTy).Contents (Elt F) → (⟨S512x199, .f32⟩ : BufTy).Contents (Elt F)),
    StableHlo.nullary main_cst_12 (constant S_ .f32 0x00000000#32),
    StableHlo.binary main_v68 main_cst_12 main_v69 ((fun x v => Host.reduceAdd x v reducesTo_S512x199_S512_d1 h_S_) : (⟨S512x199, .f32⟩ : BufTy).Contents (Elt F) → (⟨S_, .f32⟩ : BufTy).Contents (Elt F) → (⟨S512, .f32⟩ : BufTy).Contents (Elt F)),
    StableHlo.binary main_v67 main_v69 main_v70 (addf : (⟨S512, .f32⟩ : BufTy).Contents (Elt F) → (⟨S512, .f32⟩ : BufTy).Contents (Elt F) → (⟨S512, .f32⟩ : BufTy).Contents (Elt F)),
    StableHlo.binary main_v70 main_v47 main_v71 (Host.divf : (⟨S512, .f32⟩ : BufTy).Contents (Elt F) → (⟨S512, .f32⟩ : BufTy).Contents (Elt F) → (⟨S512, .f32⟩ : BufTy).Contents (Elt F)),
    StableHlo.nullary main_cst_13 (constant S_ .f32 0x00000000#32),
    StableHlo.binary main_v71 main_cst_13 main_v72 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.binary main_v34 main_v46 main_v73 (mulf : (⟨S512x199, .f32⟩ : BufTy).Contents (Elt F) → (⟨S512x199, .f32⟩ : BufTy).Contents (Elt F) → (⟨S512x199, .f32⟩ : BufTy).Contents (Elt F)),
    StableHlo.reshape main_v73 main_v74 rfl shapeCasts_S512x199_S101888,
    StableHlo.binary main_v13 main_v46 main_v75 (mulf : (⟨S512x199, .f32⟩ : BufTy).Contents (Elt F) → (⟨S512x199, .f32⟩ : BufTy).Contents (Elt F) → (⟨S512x199, .f32⟩ : BufTy).Contents (Elt F)),
    StableHlo.reshape main_v75 main_v76 rfl shapeCasts_S512x199_S101888 ]

/-- The entry function is that straight line: with its two windows, the five callees and the sequencing operator
    unfolded, both sides are one right-nested chain of operation steps, so the equation holds by computation. -/
theorem main_eq (c : Dev nD) : main (F := F) c = seq ops := by
  chain_rfl

/-- No buffer of the signature is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨unary_bufs_sub .., unary_bufs_sub .., reshape_bufs_sub .., nullary_bufs_sub .., unary_bufs_sub .., binary_bufs_sub ..,
    unary_bufs_sub .., reshape_bufs_sub .., nullary_bufs_sub .., unary_bufs_sub .., binary_bufs_sub .., unary_bufs_sub ..,
    reshape_bufs_sub .., unary_bufs_sub .., reshape_bufs_sub .., unary_bufs_sub .., unary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., reshape_bufs_sub .., unary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., reshape_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., nullary_bufs_sub .., unary_bufs_sub .., binary_bufs_sub .., unary_bufs_sub .., nullary_bufs_sub ..,
    unary_bufs_sub .., unary_bufs_sub .., unary_bufs_sub .., ternary_bufs_sub .., nullary_bufs_sub .., binary_bufs_sub ..,
    unary_bufs_sub .., unary_bufs_sub .., unary_bufs_sub .., unary_bufs_sub .., binary_bufs_sub .., unary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    binary_bufs_sub .., nullary_bufs_sub .., unary_bufs_sub .., binary_bufs_sub .., unary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., binary_bufs_sub .., binary_bufs_sub .., unary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub .., binary_bufs_sub .., nullary_bufs_sub ..,
    unary_bufs_sub .., binary_bufs_sub .., unary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., binary_bufs_sub .., binary_bufs_sub .., unary_bufs_sub .., binary_bufs_sub .., nullary_bufs_sub ..,
    binary_bufs_sub .., binary_bufs_sub .., nullary_bufs_sub .., binary_bufs_sub .., binary_bufs_sub .., binary_bufs_sub ..,
    nullary_bufs_sub .., binary_bufs_sub .., binary_bufs_sub .., reshape_bufs_sub .., binary_bufs_sub .., reshape_bufs_sub ..⟩

/-- Every operation determines its results: none of them allocates a buffer at contents not chosen. -/
theorem ops_fresh : ∀ op ∈ (ops : List (HloOp τ sig (Elt F))), op.fresh = ∅ := by
  intro _ h; (repeat (cases h with | head => rfl | tail _ h => ?_)); exact nomatch h

/-- On every device, for any float values, from any memory with zero counters: every weakly fair execution of the
    program terminates, and every final state has each buffer at the fold of the operations' results over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.RVal.lean ====
/-
  What the reference program's run leaves in its three result buffers, as the specification's functions of the
  three arguments' contents: the loss (a scalar), the prediction and the ground truth (each flattened to 101888
  elements), and that the arguments are left as they were. Each value is read off the fold of the 198 operations:
  at its own result buffer an operation leaves its function of its operands' contents, at any other buffer what
  was there; the composed term is then the specification's by unfolding (the slices of the integer table, the
  positions minus one, the two selections along the last axis with their wrap and range test, the logistic
  function, the logarithm of it through the softplus, the cross entropies, the mask from the last positive skill
  id, the row sums and the final sum), the evidence of the shape relations being proofs of the same propositions.
-/
import proofs.«403331_j53609781789270_3_alg».proof.Proof.RRun
import proofs.«403331_j53609781789270_3_alg».proof.Proof.Spec

noncomputable section

namespace Cert.ReferenceIdeal.Val

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-! ## The line in two stretches

The loss is a deep term in the arguments: each selected logit occurs a dozen times in it. It is read off in two
steps instead of one. The first 102 operations compute, from the arguments, the answers, the two selected logits
and the mask; the remaining 96 compute the three results from those four arrays, whatever they hold. Each stretch's
value is stated over an arbitrary valuation, so that the second is compared with the specification's functions of
four unknown arrays and the first with the functions that make those arrays; the two are then chained. -/

/-- The operations up to the mask (the slices, the positions, the two selections, the two probabilities and their
    mean, the mask). -/
abbrev opsP : List (HloOp τ sig (Elt F)) :=
  [ StableHlo.unary main_arg2 main_v0 ((extractStridedSlice S512x199x3 ![0, 1, 0] · slices_S512x200x3_S512x199x3_0_1_0) : (⟨S512x200x3, .i32⟩ : BufTy).Contents (Elt F) → (⟨S512x199x3, .i32⟩ : BufTy).Contents (Elt F)),
    StableHlo.unary main_v0 main_v1 ((extractStridedSlice S512x199x1 ![0, 0, 0] · slices_S512x199x3_S512x199x1_0_0_0) : (⟨S512x199x3, .i32⟩ : BufTy).Contents (Elt F) → (⟨S512x199x1, .i32⟩ : BufTy).Contents (Elt F)),
    StableHlo.reshape main_v1 main_v2 rfl shapeCasts_S512x199x1_S512x199,
    StableHlo.nullary main_c (constantI S_ 32 1#32),
    StableHlo.unary main_c main_v3 (broadcastInDim S512x199 ![] bcast_S_S512x199 : (⟨S_, .i32⟩ : BufTy).Contents (Elt F) → (⟨S512x199, .i32⟩ : BufTy).Contents (Elt F)),
    StableHlo.binary main_v2 main_v3 main_v4 (subi : (⟨S512x199, .i32⟩ : BufTy).Contents (Elt F) → (⟨S512x199, .i32⟩ : BufTy).Contents (Elt F) → (⟨S512x199, .i32⟩ : BufTy).Contents (Elt F)),
    StableHlo.unary main_v0 main_v5 ((extractStridedSlice S512x199x1 ![0, 0, 1] · slices_S512x199x3_S512x199x1_0_0_1) : (⟨S512x199x3, .i32⟩ : BufTy).Contents (Elt F) → (⟨S512x199x1, .i32⟩ : BufTy).Contents (Elt F)),
    StableHlo.reshape main_v5 main_v6 rfl shapeCasts_S512x199x1_S512x199,
    StableHlo.nullary main_c_0 (constantI S_ 32 1#32),
    StableHlo.unary main_c_0 main_v7 (broadcastInDim S512x199 ![] bcast_S_S512x199 : (⟨S_, .i32⟩ : BufTy).Contents (Elt F) → (⟨S512x199, .i32⟩ : BufTy).Contents (Elt F)),
    StableHlo.binary main_v6 main_v7 main_v8 (subi : (⟨S512x199, .i32⟩ : BufTy).Contents (Elt F) → (⟨S512x199, .i32⟩ : BufTy).Contents (Elt F) → (⟨S512x199, .i32⟩ : BufTy).Contents (Elt F)),
    StableHlo.unary main_v0 main_v9 ((extractStridedSlice S512x199x1 ![0, 0, 1] · slices_S512x199x3_S512x199x1_0_0_1) : (⟨S512x199x3, .i32⟩ : BufTy).Contents (Elt F) → (⟨S512x199x1, .i32⟩ : BufTy).Contents (Elt F)),
    StableHlo.reshape main_v9 main_v10 rfl shapeCasts_S512x199x1_S512x199,
    StableHlo.unary main_v0 main_v11 ((extractStridedSlice S512x199x1 ![0, 0, 2] · slices_S512x199x3_S512x199x1_0_0_2) : (⟨S512x199x3, .i32⟩ : BufTy).Contents (Elt F) → (⟨S512x199x1, .i32⟩ : BufTy).Contents (Elt F)),
    StableHlo.reshape main_v11 main_v12 rfl shapeCasts_S512x199x1_S512x199,
    StableHlo.unary main_v12 main_v13 (sitofp .f32 : (⟨S512x199, .i32⟩ : BufTy).Contents (Elt F) → (⟨S512x199, .f32⟩ : BufTy).Contents (Elt F)),
    StableHlo.unary main_v8 main_v14 (broadcastInDim S512x199x1 ![0, 1] bcast_S512x199_S512x199x1_0_1 : (⟨S512x199, .i32⟩ : BufTy).Contents (Elt F) → (⟨S512x199x1, .i32⟩ : BufTy).Contents (Elt F)),
    StableHlo.TRef.nullary main_call0.c (constantI S_ 32 0#32),
    StableHlo.TRef.unary main_call0.c main_call0.v0 (broadcastInDim S512x199x1 ![] bcast_S_S512x199x1),
    StableHlo.TRef.binary (.of main_v14 : StableHlo.TRef sig ⟨S512x199x1, .i32⟩) main_call0.v0 main_call0.v1 (cmpi .slt),
    StableHlo.TRef.nullary main_call0.c_0 (constantI S_ 32 512#32),
    StableHlo.TRef.unary main_call0.c_0 main_call0.v2 (broadcastInDim S512x199x1 ![] bcast_S_S512x199x1),
    StableHlo.TRef.binary (.of main_v14 : StableHlo.TRef sig ⟨S512x199x1, .i32⟩) main_call0.v2 main_call0.v3 addi,
    StableHlo.TRef.ternary main_call0.v1 main_call0.v3 (.of main_v14 : StableHlo.TRef sig ⟨S512x199x1, .i32⟩) main_call0.v4 select,
    StableHlo.TRef.reshape main_call0.v4 main_call0.v5 rfl shapeCasts_S512x199x1_S512x199x1x1,
    StableHlo.TRef.nullary main_call0.c_1 (constantI S1 32 511#32),
    StableHlo.TRef.nullary main_call0.c_2 (constantI S_ 32 0#32),
    StableHlo.TRef.unary main_call0.c_2 main_call0.v6 (broadcastInDim S512x199x1x1 ![] bcast_S_S512x199x1x1),
    StableHlo.TRef.binary main_call0.v5 main_call0.v6 main_call0.v7 (cmpi .sge),
    StableHlo.TRef.unary main_call0.c_1 main_call0.v8 (broadcastInDim S1x1x1x1 ![3] bcast_S1_S1x1x1x1_3),
    StableHlo.TRef.unary main_call0.v8 main_call0.v9 (broadcastInDim S512x199x1x1 ![0, 1, 2, 3] bcast_S1x1x1x1_S512x199x1x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S512x199x1x1_S512x199x1_d3 h_S_),
    StableHlo.TRef.binary (.of main_arg0 : StableHlo.TRef sig ⟨S512x199x512, .f32⟩) main_call0.v5 main_call0.v13 (fun x i => Host.gather gather_S512x199x512_S512x199x1x1_S512x199x1_n_2_01_01_2_3_111 x i),
    StableHlo.TRef.nullary main_call0.cst (constant S_ .f32 0x7FC00000#32),
    StableHlo.TRef.unary main_call0.cst main_call0.v14 (broadcastInDim S512x199x1 ![] bcast_S_S512x199x1),
    StableHlo.TRef.ternary main_call0.v12 main_call0.v13 main_call0.v14 main_call0.v15 select,
    StableHlo.reshape main_v15 main_v16 rfl shapeCasts_S512x199x1_S512x199,
    StableHlo.unary main_v4 main_v17 (broadcastInDim S512x199x1 ![0, 1] bcast_S512x199_S512x199x1_0_1 : (⟨S512x199, .i32⟩ : BufTy).Contents (Elt F) → (⟨S512x199x1, .i32⟩ : BufTy).Contents (Elt F)),
    StableHlo.TRef.nullary main_call1.c (constantI S_ 32 0#32),
    StableHlo.TRef.unary main_call1.c main_call1.v0 (broadcastInDim S512x199x1 ![] bcast_S_S512x199x1),
    StableHlo.TRef.binary (.of main_v17 : StableHlo.TRef sig ⟨S512x199x1, .i32⟩) main_call1.v0 main_call1.v1 (cmpi .slt),
    StableHlo.TRef.nullary main_call1.c_0 (constantI S_ 32 2048#32),
    StableHlo.TRef.unary main_call1.c_0 main_call1.v2 (broadcastInDim S512x199x1 ![] bcast_S_S512x199x1),
    StableHlo.TRef.binary (.of main_v17 : StableHlo.TRef sig ⟨S512x199x1, .i32⟩) main_call1.v2 main_call1.v3 addi,
    StableHlo.TRef.ternary main_call1.v1 main_call1.v3 (.of main_v17 : StableHlo.TRef sig ⟨S512x199x1, .i32⟩) main_call1.v4 select,
    StableHlo.TRef.reshape main_call1.v4 main_call1.v5 rfl shapeCasts_S512x199x1_S512x199x1x1,
    StableHlo.TRef.nullary main_call1.c_1 (constantI S1 32 2047#32),
    StableHlo.TRef.nullary main_call1.c_2 (constantI S_ 32 0#32),
    StableHlo.TRef.unary main_call1.c_2 main_call1.v6 (broadcastInDim S512x199x1x1 ![] bcast_S_S512x199x1x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S512x199x1x1 ![0, 1, 2, 3] bcast_S1x1x1x1_S512x199x1x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S512x199x1x1_S512x199x1_d3 h_S_),
    StableHlo.TRef.binary (.of main_arg1 : StableHlo.TRef sig ⟨S512x199x2048, .f32⟩) main_call1.v5 main_call1.v13 (fun x i => Host.gather gather_S512x199x2048_S512x199x1x1_S512x199x1_n_2_01_01_2_3_111 x i),
    StableHlo.TRef.nullary main_call1.cst (constant S_ .f32 0x7FC00000#32),
    StableHlo.TRef.unary main_call1.cst main_call1.v14 (broadcastInDim S512x199x1 ![] bcast_S_S512x199x1),
    StableHlo.TRef.ternary main_call1.v12 main_call1.v13 main_call1.v14 main_call1.v15 select,
    StableHlo.reshape main_v18 main_v19 rfl shapeCasts_S512x199x1_S512x199,
    StableHlo.unary main_v16 main_v20 (Host.negf : (⟨S512x199, .f32⟩ : BufTy).Contents (Elt F) → (⟨S512x199, .f32⟩ : BufTy).Contents (Elt F)),
    StableHlo.unary main_v20 main_v21 (Host.exp : (⟨S512x199, .f32⟩ : BufTy).Contents (Elt F) → (⟨S512x199, .f32⟩ : BufTy).Contents (Elt F)),
    StableHlo.nullary main_cst (constant S_ .f32 0x3F800000#32),
    StableHlo.unary main_cst main_v22 (broadcastInDim S512x199 ![] bcast_S_S512x199 : (⟨S_, .f32⟩ : BufTy).Contents (Elt F) → (⟨S512x199, .f32⟩ : BufTy).Contents (Elt F)),
    StableHlo.binary main_v22 main_v21 main_v23 (addf : (⟨S512x199, .f32⟩ : BufTy).Contents (Elt F) → (⟨S512x199, .f32⟩ : BufTy).Contents (Elt F) → (⟨S512x199, .f32⟩ : BufTy).Contents (Elt F)),
    StableHlo.nullary main_cst_1 (constant S_ .f32 0x3F800000#32),
    StableHlo.unary main_cst_1 main_v24 (broadcastInDim S512x199 ![] bcast_S_S512x199 : (⟨S_, .f32⟩ : BufTy).Contents (Elt F) → (⟨S512x199, .f32⟩ : BufTy).Contents (Elt F)),
    StableHlo.binary main_v24 main_v23 main_v25 (Host.divf : (⟨S512x199, .f32⟩ : BufTy).Contents (Elt F) → (⟨S512x199, .f32⟩ : BufTy).Contents (Elt F) → (⟨S512x199, .f32⟩ : BufTy).Contents (Elt F)),
    StableHlo.unary main_v19 main_v26 (Host.negf : (⟨S512x199, .f32⟩ : BufTy).Contents (Elt F) → (⟨S512x199, .f32⟩ : BufTy).Contents (Elt F)),
    StableHlo.unary main_v26 main_v27 (Host.exp : (⟨S512x199, .f32⟩ : BufTy).Contents (Elt F) → (⟨S512x199, .f32⟩ : BufTy).Contents (Elt F)),
    StableHlo.nullary main_cst_2 (constant S_ .f32 0x3F800000#32),
    StableHlo.unary main_cst_2 main_v28 (broadcastInDim S512x199 ![] bcast_S_S512x199 : (⟨S_, .f32⟩ : BufTy).Contents (Elt F) → (⟨S512x199, .f32⟩ : BufTy).Contents (Elt F)),
    StableHlo.binary main_v28 main_v27 main_v29 (addf : (⟨S512x199, .f32⟩ : BufTy).Contents (Elt F) → (⟨S512x199, .f32⟩ : BufTy).Contents (Elt F) → (⟨S512x199, .f32⟩ : BufTy).Contents (Elt F)),
    StableHlo.nullary main_cst_3 (constant S_ .f32 0x3F800000#32),
    StableHlo.unary main_cst_3 main_v30 (broadcastInDim S512x199 ![] bcast_S_S512x199 : (⟨S_, .f32⟩ : BufTy).Contents (Elt F) → (⟨S512x199, .f32⟩ : BufTy).Contents (Elt F)),
    StableHlo.binary main_v30 main_v29 main_v31 (Host.divf : (⟨S512x199, .f32⟩ : BufTy).Contents (Elt F) → (⟨S512x199, .f32⟩ : BufTy).Contents (Elt F) → (⟨S512x199, .f32⟩ : BufTy).Contents (Elt F)),
    StableHlo.binary main_v25 main_v31 main_v32 (addf : (⟨S512x199, .f32⟩ : BufTy).Contents (Elt F) → (⟨S512x199, .f32⟩ : BufTy).Contents (Elt F) → (⟨S512x199, .f32⟩ : BufTy).Contents (Elt F)),
    StableHlo.nullary main_cst_4 (constant S_ .f32 0x3F000000#32),
    StableHlo.unary main_cst_4 main_v33 (broadcastInDim S512x199 ![] bcast_S_S512x199 : (⟨S_, .f32⟩ : BufTy).Contents (Elt F) → (⟨S512x199, .f32⟩ : BufTy).Contents (Elt F)),
    StableHlo.binary main_v32 main_v33 main_v34 (mulf : (⟨S512x199, .f32⟩ : BufTy).Contents (Elt F) → (⟨S512x199, .f32⟩ : BufTy).Contents (Elt F) → (⟨S512x199, .f32⟩ : BufTy).Contents (Elt F)),
    StableHlo.nullary main_v35 (iotaInDim S199 32 0),
    StableHlo.nullary main_c_5 (constantI S_ 32 0#32),
    StableHlo.unary main_c_5 main_v36 (broadcastInDim S512x199 ![] bcast_S_S512x199 : (⟨S_, .i32⟩ : BufTy).Contents (Elt F) → (⟨S512x199, .i32⟩ : BufTy).Contents (Elt F)),
    StableHlo.binary main_v10 main_v36 main_v37 (cmpi .sgt : (⟨S512x199, .i32⟩ : BufTy).Contents (Elt F) → (⟨S512x199, .i32⟩ : BufTy).Contents (Elt F) → (⟨S512x199, .i1⟩ : BufTy).Contents (Elt F)),
    StableHlo.unary main_v35 main_v38 (broadcastInDim S1x199 ![1] bcast_S199_S1x199_1 : (⟨S199, .i32⟩ : BufTy).Contents (Elt F) → (⟨S1x199, .i32⟩ : BufTy).Contents (Elt F)),
    StableHlo.nullary main_c_6 (constantI S_ 32 4294967295#32),
    StableHlo.TRef.unary (.of main_c_6 : StableHlo.TRef sig ⟨S_, .i32⟩) main_call2.v0 id,
    StableHlo.TRef.unary (.of main_v38 : StableHlo.TRef sig ⟨S1x199, .i32⟩) main_call2.v1 (broadcastInDim S512x199 ![0, 1] bcast_S1x199_S512x199_0_1),
    StableHlo.TRef.unary main_call2.v0 main_call2.v2 (broadcastInDim S512x199 ![] bcast_S_S512x199),
    StableHlo.TRef.ternary (.of main_v37 : StableHlo.TRef sig ⟨S512x199, .i1⟩) main_call2.v1 main_call2.v2 main_call2.v3 select,
    StableHlo.nullary main_c_7 (constantI S_ 32 2147483648#32),
    StableHlo.binary main_v39 main_c_7 main_v40 ((fun x v => Host.reduce IntOp.maxsi x v reducesTo_S512x199_S512_d1 h_S_) : (⟨S512x199, .i32⟩ : BufTy).Contents (Elt F) → (⟨S_, .i32⟩ : BufTy).Contents (Elt F) → (⟨S512, .i32⟩ : BufTy).Contents (Elt F)),
    StableHlo.unary main_v35 main_v41 (broadcastInDim S1x199 ![1] bcast_S199_S1x199_1 : (⟨S199, .i32⟩ : BufTy).Contents (Elt F) → (⟨S1x199, .i32⟩ : BufTy).Contents (Elt F)),
    StableHlo.unary main_v40 main_v42 (broadcastInDim S512x1 ![0] bcast_S512_S512x1_0 : (⟨S512, .i32⟩ : BufTy).Contents (Elt F) → (⟨S512x1, .i32⟩ : BufTy).Contents (Elt F)),
    StableHlo.unary main_v41 main_v43 (broadcastInDim S512x199 ![0, 1] bcast_S1x199_S512x199_0_1 : (⟨S1x199, .i32⟩ : BufTy).Contents (Elt F) → (⟨S512x199, .i32⟩ : BufTy).Contents (Elt F)),
    StableHlo.unary main_v42 main_v44 (broadcastInDim S512x199 ![0, 1] bcast_S512x1_S512x199_0_1 : (⟨S512x1, .i32⟩ : BufTy).Contents (Elt F) → (⟨S512x199, .i32⟩ : BufTy).Contents (Elt F)),
    StableHlo.binary main_v43 main_v44 main_v45 (cmpi .sle : (⟨S512x199, .i32⟩ : BufTy).Contents (Elt F) → (⟨S512x199, .i32⟩ : BufTy).Contents (Elt F) → (⟨S512x199, .i1⟩ : BufTy).Contents (Elt F)),
    StableHlo.unary main_v45 main_v46 (uitofp .f32 : (⟨S512x199, .i1⟩ : BufTy).Contents (Elt F) → (⟨S512x199, .f32⟩ : BufTy).Contents (Elt F)) ]

/-- The operations after the mask (the rows' counts, the four logarithms of the logistic function, the two cross
    entropies, the loss, and the two flattened results). -/
abbrev opsS : List (HloOp τ sig (Elt F)) :=
  [ StableHlo.nullary main_cst_8 (constant S_ .f32 0x00000000#32),
    StableHlo.binary main_v46 main_cst_8 main_v47 ((fun x v => Host.reduceAdd x v reducesTo_S512x199_S512_d1 h_S_) : (⟨S512x199, .f32⟩ : BufTy).Contents (Elt F) → (⟨S_, .f32⟩ : BufTy).Contents (Elt F) → (⟨S512, .f32⟩ : BufTy).Contents (Elt F)),
    StableHlo.TRef.unary (.of main_v16 : StableHlo.TRef sig ⟨S512x199, .f32⟩) main_call3.v0 Host.negf,
    StableHlo.TRef.nullary main_call3.call0.cst (constant S_ .f32 0x00000000#32),
    StableHlo.TRef.unary main_call3.call0.cst main_call3.call0.v0 (broadcastInDim S512x199 ![] bcast_S_S512x199),
    StableHlo.TRef.binary main_call3.v0 main_call3.call0.v0 main_call3.call0.v1 maximumf,
    StableHlo.TRef.unary main_call3.call0.cst main_call3.call0.v2 (broadcastInDim S512x199 ![] bcast_S_S512x199),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S512x199 ![] bcast_S_S512x199),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.binary main_v13 main_v48 main_v49 (mulf : (⟨S512x199, .f32⟩ : BufTy).Contents (Elt F) → (⟨S512x199, .f32⟩ : BufTy).Contents (Elt F) → (⟨S512x199, .f32⟩ : BufTy).Contents (Elt F)),
    StableHlo.nullary main_cst_9 (constant S_ .f32 0x3F800000#32),
    StableHlo.unary main_cst_9 main_v50 (broadcastInDim S512x199 ![] bcast_S_S512x199 : (⟨S_, .f32⟩ : BufTy).Contents (Elt F) → (⟨S512x199, .f32⟩ : BufTy).Contents (Elt F)),
    StableHlo.binary main_v50 main_v13 main_v51 (subf : (⟨S512x199, .f32⟩ : BufTy).Contents (Elt F) → (⟨S512x199, .f32⟩ : BufTy).Contents (Elt F) → (⟨S512x199, .f32⟩ : BufTy).Contents (Elt F)),
    StableHlo.unary main_v16 main_v52 (Host.negf : (⟨S512x199, .f32⟩ : BufTy).Contents (Elt F) → (⟨S512x199, .f32⟩ : BufTy).Contents (Elt F)),
    StableHlo.TRef.unary (.of main_v52 : StableHlo.TRef sig ⟨S512x199, .f32⟩) main_call4.v0 Host.negf,
    StableHlo.TRef.nullary main_call4.call0.cst (constant S_ .f32 0x00000000#32),
    StableHlo.TRef.unary main_call4.call0.cst main_call4.call0.v0 (broadcastInDim S512x199 ![] bcast_S_S512x199),
    StableHlo.TRef.binary main_call4.v0 main_call4.call0.v0 main_call4.call0.v1 maximumf,
    StableHlo.TRef.unary main_call4.call0.cst main_call4.call0.v2 (broadcastInDim S512x199 ![] bcast_S_S512x199),
    StableHlo.TRef.binary main_call4.v0 main_call4.call0.v2 main_call4.call0.v3 subf,
    StableHlo.TRef.binary main_call4.call0.v3 main_call4.call0.v3 main_call4.call0.v4 (cmpf .une),
    StableHlo.TRef.unary main_call4.call0.cst main_call4.call0.v5 (broadcastInDim S512x199 ![] bcast_S_S512x199),
    StableHlo.TRef.binary main_call4.v0 main_call4.call0.v5 main_call4.call0.v6 addf,
    StableHlo.TRef.unary main_call4.call0.v3 main_call4.call0.v7 Host.absf,
    StableHlo.TRef.unary main_call4.call0.v7 main_call4.call0.v8 Host.negf,
    StableHlo.TRef.unary main_call4.call0.v8 main_call4.call0.v9 Host.exp,
    StableHlo.TRef.unary main_call4.call0.v9 main_call4.call0.v10 Host.log1p,
    StableHlo.TRef.binary main_call4.call0.v1 main_call4.call0.v10 main_call4.call0.v11 addf,
    StableHlo.TRef.ternary main_call4.call0.v4 main_call4.call0.v6 main_call4.call0.v11 main_call4.call0.v12 select,
    StableHlo.TRef.unary main_call4.call0.v12 main_call4.v2 Host.negf,
    StableHlo.binary main_v51 main_v53 main_v54 (mulf : (⟨S512x199, .f32⟩ : BufTy).Contents (Elt F) → (⟨S512x199, .f32⟩ : BufTy).Contents (Elt F) → (⟨S512x199, .f32⟩ : BufTy).Contents (Elt F)),
    StableHlo.binary main_v49 main_v54 main_v55 (addf : (⟨S512x199, .f32⟩ : BufTy).Contents (Elt F) → (⟨S512x199, .f32⟩ : BufTy).Contents (Elt F) → (⟨S512x199, .f32⟩ : BufTy).Contents (Elt F)),
    StableHlo.unary main_v55 main_v56 (Host.negf : (⟨S512x199, .f32⟩ : BufTy).Contents (Elt F) → (⟨S512x199, .f32⟩ : BufTy).Contents (Elt F)),
    StableHlo.TRef.unary (.of main_v19 : StableHlo.TRef sig ⟨S512x199, .f32⟩) main_call5.v0 Host.negf,
    StableHlo.TRef.nullary main_call5.call0.cst (constant S_ .f32 0x00000000#32),
    StableHlo.TRef.unary main_call5.call0.cst main_call5.call0.v0 (broadcastInDim S512x199 ![] bcast_S_S512x199),
    StableHlo.TRef.binary main_call5.v0 main_call5.call0.v0 main_call5.call0.v1 maximumf,
    StableHlo.TRef.unary main_call5.call0.cst main_call5.call0.v2 (broadcastInDim S512x199 ![] bcast_S_S512x199),
    StableHlo.TRef.binary main_call5.v0 main_call5.call0.v2 main_call5.call0.v3 subf,
    StableHlo.TRef.binary main_call5.call0.v3 main_call5.call0.v3 main_call5.call0.v4 (cmpf .une),
    StableHlo.TRef.unary main_call5.call0.cst main_call5.call0.v5 (broadcastInDim S512x199 ![] bcast_S_S512x199),
    StableHlo.TRef.binary main_call5.v0 main_call5.call0.v5 main_call5.call0.v6 addf,
    StableHlo.TRef.unary main_call5.call0.v3 main_call5.call0.v7 Host.absf,
    StableHlo.TRef.unary main_call5.call0.v7 main_call5.call0.v8 Host.negf,
    StableHlo.TRef.unary main_call5.call0.v8 main_call5.call0.v9 Host.exp,
    StableHlo.TRef.unary main_call5.call0.v9 main_call5.call0.v10 Host.log1p,
    StableHlo.TRef.binary main_call5.call0.v1 main_call5.call0.v10 main_call5.call0.v11 addf,
    StableHlo.TRef.ternary main_call5.call0.v4 main_call5.call0.v6 main_call5.call0.v11 main_call5.call0.v12 select,
    StableHlo.TRef.unary main_call5.call0.v12 main_call5.v2 Host.negf,
    StableHlo.binary main_v13 main_v57 main_v58 (mulf : (⟨S512x199, .f32⟩ : BufTy).Contents (Elt F) → (⟨S512x199, .f32⟩ : BufTy).Contents (Elt F) → (⟨S512x199, .f32⟩ : BufTy).Contents (Elt F)),
    StableHlo.nullary main_cst_10 (constant S_ .f32 0x3F800000#32),
    StableHlo.unary main_cst_10 main_v59 (broadcastInDim S512x199 ![] bcast_S_S512x199 : (⟨S_, .f32⟩ : BufTy).Contents (Elt F) → (⟨S512x199, .f32⟩ : BufTy).Contents (Elt F)),
    StableHlo.binary main_v59 main_v13 main_v60 (subf : (⟨S512x199, .f32⟩ : BufTy).Contents (Elt F) → (⟨S512x199, .f32⟩ : BufTy).Contents (Elt F) → (⟨S512x199, .f32⟩ : BufTy).Contents (Elt F)),
    StableHlo.unary main_v19 main_v61 (Host.negf : (⟨S512x199, .f32⟩ : BufTy).Contents (Elt F) → (⟨S512x199, .f32⟩ : BufTy).Contents (Elt F)),
    StableHlo.TRef.unary (.of main_v61 : StableHlo.TRef sig ⟨S512x199, .f32⟩) main_call6.v0 Host.negf,
    StableHlo.TRef.nullary main_call6.call0.cst (constant S_ .f32 0x00000000#32),
    StableHlo.TRef.unary main_call6.call0.cst main_call6.call0.v0 (broadcastInDim S512x199 ![] bcast_S_S512x199),
    StableHlo.TRef.binary main_call6.v0 main_call6.call0.v0 main_call6.call0.v1 maximumf,
    StableHlo.TRef.unary main_call6.call0.cst main_call6.call0.v2 (broadcastInDim S512x199 ![] bcast_S_S512x199),
    StableHlo.TRef.binary main_call6.v0 main_call6.call0.v2 main_call6.call0.v3 subf,
    StableHlo.TRef.binary main_call6.call0.v3 main_call6.call0.v3 main_call6.call0.v4 (cmpf .une),
    StableHlo.TRef.unary main_call6.call0.cst main_call6.call0.v5 (broadcastInDim S512x199 ![] bcast_S_S512x199),
    StableHlo.TRef.binary main_call6.v0 main_call6.call0.v5 main_call6.call0.v6 addf,
    StableHlo.TRef.unary main_call6.call0.v3 main_call6.call0.v7 Host.absf,
    StableHlo.TRef.unary main_call6.call0.v7 main_call6.call0.v8 Host.negf,
    StableHlo.TRef.unary main_call6.call0.v8 main_call6.call0.v9 Host.exp,
    StableHlo.TRef.unary main_call6.call0.v9 main_call6.call0.v10 Host.log1p,
    StableHlo.TRef.binary main_call6.call0.v1 main_call6.call0.v10 main_call6.call0.v11 addf,
    StableHlo.TRef.ternary main_call6.call0.v4 main_call6.call0.v6 main_call6.call0.v11 main_call6.call0.v12 select,
    StableHlo.TRef.unary main_call6.call0.v12 main_call6.v2 Host.negf,
    StableHlo.binary main_v60 main_v62 main_v63 (mulf : (⟨S512x199, .f32⟩ : BufTy).Contents (Elt F) → (⟨S512x199, .f32⟩ : BufTy).Contents (Elt F) → (⟨S512x199, .f32⟩ : BufTy).Contents (Elt F)),
    StableHlo.binary main_v58 main_v63 main_v64 (addf : (⟨S512x199, .f32⟩ : BufTy).Contents (Elt F) → (⟨S512x199, .f32⟩ : BufTy).Contents (Elt F) → (⟨S512x199, .f32⟩ : BufTy).Contents (Elt F)),
    StableHlo.unary main_v64 main_v65 (Host.negf : (⟨S512x199, .f32⟩ : BufTy).Contents (Elt F) → (⟨S512x199, .f32⟩ : BufTy).Contents (Elt F)),
    StableHlo.binary main_v46 main_v56 main_v66 (mulf : (⟨S512x199, .f32⟩ : BufTy).Contents (Elt F) → (⟨S512x199, .f32⟩ : BufTy).Contents (Elt F) → (⟨S512x199, .f32⟩ : BufTy).Contents (Elt F)),
    StableHlo.nullary main_cst_11 (constant S_ .f32 0x00000000#32),
    StableHlo.binary main_v66 main_cst_11 main_v67 ((fun x v => Host.reduceAdd x v reducesTo_S512x199_S512_d1 h_S_) : (⟨S512x199, .f32⟩ : BufTy).Contents (Elt F) → (⟨S_, .f32⟩ : BufTy).Contents (Elt F) → (⟨S512, .f32⟩ : BufTy).Contents (Elt F)),
    StableHlo.binary main_v46 main_v65 main_v68 (mulf : (⟨S512x199, .f32⟩ : BufTy).Contents (Elt F) → (⟨S512x199, .f32⟩ : BufTy).Contents (Elt F) → (⟨S512x199, .f32⟩ : BufTy).Contents (Elt F)),
    StableHlo.nullary main_cst_12 (constant S_ .f32 0x00000000#32),
    StableHlo.binary main_v68 main_cst_12 main_v69 ((fun x v => Host.reduceAdd x v reducesTo_S512x199_S512_d1 h_S_) : (⟨S512x199, .f32⟩ : BufTy).Contents (Elt F) → (⟨S_, .f32⟩ : BufTy).Contents (Elt F) → (⟨S512, .f32⟩ : BufTy).Contents (Elt F)),
    StableHlo.binary main_v67 main_v69 main_v70 (addf : (⟨S512, .f32⟩ : BufTy).Contents (Elt F) → (⟨S512, .f32⟩ : BufTy).Contents (Elt F) → (⟨S512, .f32⟩ : BufTy).Contents (Elt F)),
    StableHlo.binary main_v70 main_v47 main_v71 (Host.divf : (⟨S512, .f32⟩ : BufTy).Contents (Elt F) → (⟨S512, .f32⟩ : BufTy).Contents (Elt F) → (⟨S512, .f32⟩ : BufTy).Contents (Elt F)),
    StableHlo.nullary main_cst_13 (constant S_ .f32 0x00000000#32),
    StableHlo.binary main_v71 main_cst_13 main_v72 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.binary main_v34 main_v46 main_v73 (mulf : (⟨S512x199, .f32⟩ : BufTy).Contents (Elt F) → (⟨S512x199, .f32⟩ : BufTy).Contents (Elt F) → (⟨S512x199, .f32⟩ : BufTy).Contents (Elt F)),
    StableHlo.reshape main_v73 main_v74 rfl shapeCasts_S512x199_S101888,
    StableHlo.binary main_v13 main_v46 main_v75 (mulf : (⟨S512x199, .f32⟩ : BufTy).Contents (Elt F) → (⟨S512x199, .f32⟩ : BufTy).Contents (Elt F) → (⟨S512x199, .f32⟩ : BufTy).Contents (Elt F)),
    StableHlo.reshape main_v75 main_v76 rfl shapeCasts_S512x199_S101888 ]

/-- The line is the two stretches, one after the other. -/
theorem ops_split : (ops : List (HloOp τ sig (Elt F))) = opsP ++ opsS := by
  chain_rfl

/-- Two lines run one after the other: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) : after ops V = after opsS (after opsP V) := by
  rw [ops_split, after_app]

/-! ### The first stretch, from the arguments -/

attribute [local irreducible] Host.reduce Host.reduceAdd Host.gather in
set_option maxRecDepth 8192 in
set_option maxHeartbeats 2000000 in
/-- The answers as floats. -/
theorem ansP_eq (V : Valuation τ sig (Elt F)) :
    after opsP V (main_v13 : DevRef τ sig) = (Cert.Spec.ansOf (F := F) (V (main_arg2 : DevRef τ sig))) := by
  after_results_simp
  rfl

attribute [local irreducible] Host.reduce Host.reduceAdd Host.gather in
set_option maxRecDepth 8192 in
set_option maxHeartbeats 2000000 in
/-- The logit selected by the skill id. -/
theorem xsP_eq (V : Valuation τ sig (Elt F)) :
    after opsP V (main_v16 : DevRef τ sig) = (Cert.Spec.take512 (V (main_arg0 : DevRef τ sig)) (Cert.Spec.idxOf (Cert.Spec.col1 (V (main_arg2 : DevRef τ sig))))) := by
  after_results_simp
  rfl

attribute [local irreducible] Host.reduce Host.reduceAdd Host.gather in
set_option maxRecDepth 8192 in
set_option maxHeartbeats 2000000 in
/-- The logit selected by the question id. -/
theorem xqP_eq (V : Valuation τ sig (Elt F)) :
    after opsP V (main_v19 : DevRef τ sig) = (Cert.Spec.take2048 (V (main_arg1 : DevRef τ sig)) (Cert.Spec.idxOf (Cert.Spec.col0 (V (main_arg2 : DevRef τ sig))))) := by
  after_results_simp
  rfl

attribute [local irreducible] Host.reduce Host.reduceAdd Host.gather in
set_option maxRecDepth 8192 in
set_option maxHeartbeats 2000000 in
/-- The mask of the steps that count. -/
theorem mkP_eq (V : Valuation τ sig (Elt F)) :
    after opsP V (main_v46 : DevRef τ sig) = (Cert.Spec.maskOf (F := F) (Cert.Spec.col1 (V (main_arg2 : DevRef τ sig)))) := by
  after_results_simp
  rfl

/-! ### The second stretch, from the four arrays -/

attribute [local irreducible] Host.reduce Host.reduceAdd Host.gather in
set_option maxRecDepth 8192 in
set_option maxHeartbeats 2000000 in
/-- The loss from the mask, the answers and the two selected logits, whatever they are. The reductions are kept
    folded while the two terms are compared: the equation never looks inside them. -/
theorem lossS_eq (W : Valuation τ sig (Elt F)) :
    after opsS W (main_v72 : DevRef τ sig) = Cert.Spec.lossOf (W (main_v46 : DevRef τ sig)) (Cert.Spec.bceOf (W (main_v13 : DevRef τ sig)) (W (main_v16 : DevRef τ sig))) (Cert.Spec.bceOf (W (main_v13 : DevRef τ sig)) (W (main_v19 : DevRef τ sig))) (Cert.Spec.rowSum (W (main_v46 : DevRef τ sig))) := by
  after_results_simp
  rfl

/-! ## The three results and the arguments -/

/-- The loss buffer: the second stretch's loss at the first stretch's four arrays. -/
theorem loss_eq (V : Valuation τ sig (Elt F)) :
    after ops V (main_v72 : DevRef τ sig) = Cert.Spec.lossOf (Cert.Spec.maskOf (F := F) (Cert.Spec.col1 (V (main_arg2 : DevRef τ sig)))) (Cert.Spec.bceOf (Cert.Spec.ansOf (F := F) (V (main_arg2 : DevRef τ sig))) (Cert.Spec.take512 (V (main_arg0 : DevRef τ sig)) (Cert.Spec.idxOf (Cert.Spec.col1 (V (main_arg2 : DevRef τ sig)))))) (Cert.Spec.bceOf (Cert.Spec.ansOf (F := F) (V (main_arg2 : DevRef τ sig))) (Cert.Spec.take2048 (V (main_arg1 : DevRef τ sig)) (Cert.Spec.idxOf (Cert.Spec.col0 (V (main_arg2 : DevRef τ sig)))))) (Cert.Spec.rowSum (Cert.Spec.maskOf (F := F) (Cert.Spec.col1 (V (main_arg2 : DevRef τ sig))))) := by
  rw [after_ops, lossS_eq, mkP_eq, ansP_eq, xsP_eq, xqP_eq]

attribute [local irreducible] Host.reduce Host.reduceAdd Host.gather in
set_option maxRecDepth 8192 in
set_option maxHeartbeats 2000000 in
/-- The prediction buffer: the mean of the two probabilities where the step counts, flattened. -/
theorem pred_eq (V : Valuation τ sig (Elt F)) :
    after ops V (main_v74 : DevRef τ sig) = Cert.Spec.predOf (Cert.Spec.sigOf (Cert.Spec.take512 (V (main_arg0 : DevRef τ sig)) (Cert.Spec.idxOf (Cert.Spec.col1 (V (main_arg2 : DevRef τ sig)))))) (Cert.Spec.sigOf (Cert.Spec.take2048 (V (main_arg1 : DevRef τ sig)) (Cert.Spec.idxOf (Cert.Spec.col0 (V (main_arg2 : DevRef τ sig)))))) (Cert.Spec.maskOf (F := F) (Cert.Spec.col1 (V (main_arg2 : DevRef τ sig)))) := by
  after_results_simp
  rfl

attribute [local irreducible] Host.reduce Host.reduceAdd Host.gather in
set_option maxRecDepth 8192 in
set_option maxHeartbeats 2000000 in
/-- The ground-truth buffer: the answers where the step counts, flattened. -/
theorem truth_eq (V : Valuation τ sig (Elt F)) :
    after ops V (main_v76 : DevRef τ sig) = Cert.Spec.truthOf (Cert.Spec.ansOf (F := F) (V (main_arg2 : DevRef τ sig))) (Cert.Spec.maskOf (F := F) (Cert.Spec.col1 (V (main_arg2 : DevRef τ sig)))) := by
  after_results_simp
  rfl

/-! No operation writes an argument's buffer: each keeps its contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of the
    program terminates with the three results at the specification's functions of the arguments' launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = Cert.Spec.lossOf (Cert.Spec.maskOf (F := F) (Cert.Spec.col1 (m ((c.tc : Thread nD τ).loc main_arg2)))) (Cert.Spec.bceOf (Cert.Spec.ansOf (F := F) (m ((c.tc : Thread nD τ).loc main_arg2))) (Cert.Spec.take512 (m ((c.tc : Thread nD τ).loc main_arg0)) (Cert.Spec.idxOf (Cert.Spec.col1 (m ((c.tc : Thread nD τ).loc main_arg2)))))) (Cert.Spec.bceOf (Cert.Spec.ansOf (F := F) (m ((c.tc : Thread nD τ).loc main_arg2))) (Cert.Spec.take2048 (m ((c.tc : Thread nD τ).loc main_arg1)) (Cert.Spec.idxOf (Cert.Spec.col0 (m ((c.tc : Thread nD τ).loc main_arg2)))))) (Cert.Spec.rowSum (Cert.Spec.maskOf (F := F) (Cert.Spec.col1 (m ((c.tc : Thread nD τ).loc main_arg2)))))
      ∧ r.2.mem ((c.tc : Thread nD τ).loc main_v74) = Cert.Spec.predOf (Cert.Spec.sigOf (Cert.Spec.take512 (m ((c.tc : Thread nD τ).loc main_arg0)) (Cert.Spec.idxOf (Cert.Spec.col1 (m ((c.tc : Thread nD τ).loc main_arg2)))))) (Cert.Spec.sigOf (Cert.Spec.take2048 (m ((c.tc : Thread nD τ).loc main_arg1)) (Cert.Spec.idxOf (Cert.Spec.col0 (m ((c.tc : Thread nD τ).loc main_arg2)))))) (Cert.Spec.maskOf (F := F) (Cert.Spec.col1 (m ((c.tc : Thread nD τ).loc main_arg2))))
      ∧ r.2.mem ((c.tc : Thread nD τ).loc main_v76) = Cert.Spec.truthOf (Cert.Spec.ansOf (F := F) (m ((c.tc : Thread nD τ).loc main_arg2))) (Cert.Spec.maskOf (F := F) (Cert.Spec.col1 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v72).trans (loss_eq (launchContents m c)),
      (h c main_v74).trans (pred_eq (launchContents m c)),
      (h c main_v76).trans (truth_eq (launchContents m c)),
      (h c main_arg0).trans (arg0_eq (launchContents m c)),
      (h c main_arg1).trans (arg1_eq (launchContents m c)),
      (h c main_arg2).trans (arg2_eq (launchContents m c))⟩)
    (run_all m ρ)

end Cert.ReferenceIdeal.Val

end
-- ==== Proof.BridgeIdx.lean ====
/-
  Integer-index facts about selecting one logit per (row, step). The host's take-along-axis adds the axis length to a
  negative position, gathers at the position read signed and clamped into the axis, and keeps the gathered element only
  where the wrapped position lies inside the axis. For a position whose unsigned value is below the axis length the
  sign bit is clear, nothing is wrapped, the clamp is the identity and the range test holds: the result is the plain
  read of the array at that position. The same bound makes the signed clamp into [0, N - 1] the identity on the word.
-/
import proofs.«403331_j53609781789270_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.ReduceAll

namespace Cert.Bridge

open Idealize.ShloMosaic Cert.Spec

variable {F : FTy → Type} [FloatOps F]

/-! ## Words below 2³¹ -/

/-- A word below 2³¹ is not negative. -/
theorem slt_zero_of_small (w : BitVec 32) (hw : w.toNat < 2 ^ 31) : IntOp.cmpi .slt w 0#32 = 0#1 := by
  apply ValueIdx.eq_zero_of_ne_one
  intro h
  have := (StableHlo.Predicate.slt_iff_toNat hw (by decide)).1 h
  simp at this

/-- A word below 2³¹ is at least zero. -/
theorem sge_zero_of_small (w : BitVec 32) (hw : w.toNat < 2 ^ 31) : IntOp.cmpi .sge w 0#32 = 1#1 :=
  (StableHlo.Predicate.sge_iff_toNat hw (by decide)).2 (by simp)

/-- Two words below 2³¹ compare signed as their values. -/
theorem sle_of_le (w hi : BitVec 32) (hhi : hi.toNat < 2 ^ 31) (hw : w.toNat ≤ hi.toNat) : IntOp.cmpi .sle w hi = 1#1 :=
  (StableHlo.Predicate.sle_iff_toNat (by omega) hhi).2 hw

/-- The signed clamp into [0, hi], lower bound first, is the identity on a word already there. -/
theorem clamp_word (w hi : BitVec 32) (hhi : hi.toNat < 2 ^ 31) (hw : w.toNat ≤ hi.toNat) :
    IntOp.minsi hi (IntOp.maxsi 0#32 w) = w := by
  have hti : w.toInt = w.toNat := StableHlo.Predicate.toInt_eq_toNat_of_lt (by omega)
  have hth : hi.toInt = hi.toNat := StableHlo.Predicate.toInt_eq_toNat_of_lt hhi
  have h0 : (0#32 : BitVec 32).toInt = 0 := by decide
  have hmax : IntOp.maxsi 0#32 w = w := by
    unfold IntOp.maxsi
    rw [if_neg]
    simp only [BitVec.slt, hti, h0, decide_eq_true_eq]
    omega
  rw [hmax]
  unfold IntOp.minsi
  split <;> rename_i hc <;> simp only [BitVec.slt, hti, hth, decide_eq_true_eq] at hc
  · apply BitVec.eq_of_toNat_eq; omega
  · rfl

/-! ## The wrapped position, the range test and the gather, read at an index -/

/-- A left fold by the one-bit and over ones, from one, is one. -/
theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    refine foldl_andi_one f l _ ?_ (fun n hn => hl n (List.mem_cons_of_mem _ hn))
    show IntOp.andi init (f a) = 1#1
    rw [h, hl a List.mem_cons_self]; decide

/-- A reduction by and of an array of ones, from one, is one. -/
theorem reduce_andi_of_all {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl]
  exact foldl_andi_one x _ _ hi (fun n _ => hx n)

/-- A position below 2³¹ is not wrapped: the index array holds the position itself. -/
theorem wrapOf_apply (n : BitVec 32) (j : IVec S512x199 32) (b : Fin 512) (t : Fin 199)
    (hj : (j (ValueIdx.ix2 b t)).toNat < 2 ^ 31) (k : S512x199x1x1.Idx) (h0 : (k 0).val = b.val) (h1 : (k 1).val = t.val) :
    wrapOf n j k = j (ValueIdx.ix2 b t) := by
  unfold wrapOf
  refine (shapeCast_apply _ _ k (ValueIdx.ix3 (n0 := 512) (n1 := 199) (n2 := 1) b t 0) ?_).trans ?_
  · rw [Shape.rowMajor_val_three, Shape.rowMajor_val_four]
    have h2 : (k 2).val < 1 := (k 2).isLt
    have h3 : (k 3).val < 1 := (k 3).isLt
    show (b.val * 199 + t.val) * 1 + 0 = (((k 0).val * 199 + (k 1).val) * 1 + (k 2).val) * 1 + (k 3).val
    omega
  · have hb : broadcastInDim S512x199x1 ![0, 1] bcast_S512x199_S512x199x1_0_1 j
        (ValueIdx.ix3 (n0 := 512) (n1 := 199) (n2 := 1) b t 0) = j (ValueIdx.ix2 b t) :=
      broadcastInDim_apply _ _ j _ _ (fun a => match a with | ⟨0, _⟩ => rfl | ⟨1, _⟩ => rfl)
    show Scalar.select (IntOp.cmpi .slt (broadcastInDim S512x199x1 ![0, 1] bcast_S512x199_S512x199x1_0_1 j
        (ValueIdx.ix3 (n0 := 512) (n1 := 199) (n2 := 1) b t 0)) 0#32)
      (IntOp.addi (broadcastInDim S512x199x1 ![0, 1] bcast_S512x199_S512x199x1_0_1 j
        (ValueIdx.ix3 (n0 := 512) (n1 := 199) (n2 := 1) b t 0)) n)
      (broadcastInDim S512x199x1 ![0, 1] bcast_S512x199_S512x199x1_0_1 j
        (ValueIdx.ix3 (n0 := 512) (n1 := 199) (n2 := 1) b t 0)) = _
    rw [hb, slt_zero_of_small _ hj, ValueIdx.select_zero]

/-- The range test holds everywhere when every position is a word in [0, last]. -/
theorem inRangeOf_apply (last : BitVec 32) (hl : last.toNat < 2 ^ 31) (J : IVec S512x199x1x1 32)
    (hJ : ∀ k, (J k).toNat ≤ last.toNat) (m : S512x199x1.Idx) : inRangeOf last J m = 1#1 := by
  unfold inRangeOf
  refine reduce_andi_of_all _ _ _ _ rfl (fun i => ?_) m
  show IntOp.andi (IntOp.cmpi .sge (J i) 0#32) (IntOp.cmpi .sle (J i) last) = 1#1
  rw [sge_zero_of_small _ (by have := hJ i; omega), sle_of_le _ _ hl (hJ i)]; decide

/-- The gather of one element per (row, step) out of the last axis of a [512, 199, 512] array reads the array at the
    row, the step, and the start index read signed and clamped into the axis. -/
theorem gather512_apply {α : Type} (p : S512x199x512.Idx → α) (idx : IVec S512x199x1x1 32) (b : Fin 512) (t : Fin 199) :
    Host.gather gather512 p idx (ValueIdx.ix3 (n0 := 512) (n1 := 199) (n2 := 1) b t 0)
      = p (ValueIdx.ix3 (n0 := 512) (n1 := 199) (n2 := 512) b t
          ⟨min (idx (ValueIdx.ix4 (n0 := 512) (n1 := 199) (n2 := 1) (n3 := 1) b t 0 0)).toInt.toNat 511, by omega⟩) := by
  unfold Host.gather
  congr 1
  funext a
  refine Fin.ext ?_
  match a with
  | ⟨0, _⟩ =>
    show gather512.start _ idx 0 + gather512.batchCoord _ 0 + gather512.offCoord _ 0 = b.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨1, _⟩ =>
    show gather512.start _ idx 1 + gather512.batchCoord _ 1 + gather512.offCoord _ 1 = t.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨2, _⟩ =>
    show gather512.start _ idx 2 + gather512.batchCoord _ 2 + gather512.offCoord _ 2 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin S512x199x512.rank) ∈ gather512.startIndexMap from by decide)]
    have hsi : gather512.siIdx (ValueIdx.ix3 (n0 := 512) (n1 := 199) (n2 := 1) b t 0)
        ⟨List.idxOf (2 : Fin S512x199x512.rank) gather512.startIndexMap, List.idxOf_lt_length_iff.2 (by decide)⟩
        = ValueIdx.ix4 (n0 := 512) (n1 := 199) (n2 := 1) (n3 := 1) b t 0 0 := by
      funext c
      refine Fin.ext ?_
      match c with
      | ⟨0, _⟩ => rfl
      | ⟨1, _⟩ => rfl
      | ⟨2, _⟩ => rfl
      | ⟨3, _⟩ => rfl
    rw [hsi]
    rfl

/-- The gather of one element per (row, step) out of the last axis of a [512, 199, 2048] array reads the array at the
    row, the step, and the start index read signed and clamped into the axis. -/
theorem gather2048_apply {α : Type} (p : S512x199x2048.Idx → α) (idx : IVec S512x199x1x1 32) (b : Fin 512) (t : Fin 199) :
    Host.gather gather2048 p idx (ValueIdx.ix3 (n0 := 512) (n1 := 199) (n2 := 1) b t 0)
      = p (ValueIdx.ix3 (n0 := 512) (n1 := 199) (n2 := 2048) b t
          ⟨min (idx (ValueIdx.ix4 (n0 := 512) (n1 := 199) (n2 := 1) (n3 := 1) b t 0 0)).toInt.toNat 2047, by omega⟩) := by
  unfold Host.gather
  congr 1
  funext a
  refine Fin.ext ?_
  match a with
  | ⟨0, _⟩ =>
    show gather2048.start _ idx 0 + gather2048.batchCoord _ 0 + gather2048.offCoord _ 0 = b.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨1, _⟩ =>
    show gather2048.start _ idx 1 + gather2048.batchCoord _ 1 + gather2048.offCoord _ 1 = t.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨2, _⟩ =>
    show gather2048.start _ idx 2 + gather2048.batchCoord _ 2 + gather2048.offCoord _ 2 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin S512x199x2048.rank) ∈ gather2048.startIndexMap from by decide)]
    have hsi : gather2048.siIdx (ValueIdx.ix3 (n0 := 512) (n1 := 199) (n2 := 1) b t 0)
        ⟨List.idxOf (2 : Fin S512x199x2048.rank) gather2048.startIndexMap, List.idxOf_lt_length_iff.2 (by decide)⟩
        = ValueIdx.ix4 (n0 := 512) (n1 := 199) (n2 := 1) (n3 := 1) b t 0 0 := by
      funext c
      refine Fin.ext ?_
      match c with
      | ⟨0, _⟩ => rfl
      | ⟨1, _⟩ => rfl
      | ⟨2, _⟩ => rfl
      | ⟨3, _⟩ => rfl
    rw [hsi]
    rfl

/-! ## The host's selection is the plain read; the clamp is the identity -/

theorem toNat_511 : (511#32 : BitVec 32).toNat = 511 := rfl
theorem toNat_2047 : (2047#32 : BitVec 32).toNat = 2047 := rfl

/-- Under positions below 512 the host's selection out of the last axis of a [512, 199, 512] array is the plain read. -/
theorem take512_eq (p : FVec F S512x199x512 .f32) (j : IVec S512x199 32) (hj : ∀ i, (j i).toNat < 512) :
    take512 p j = pick512 p j := by
  funext i
  obtain ⟨b, t, rfl⟩ : ∃ (b : Fin 512) (t : Fin 199), i = ValueIdx.ix2 b t := ⟨i 0, i 1, ValueIdx.eq_ix2 i⟩
  have hbt := hj (ValueIdx.ix2 b t)
  unfold take512
  refine (shapeCast_apply _ _ (ValueIdx.ix2 b t) (ValueIdx.ix3 (n0 := 512) (n1 := 199) (n2 := 1) b t 0) ?_).trans ?_
  · rw [Shape.rowMajor_val_three, Shape.rowMajor_val_two]
    show (b.val * 199 + t.val) * 1 + 0 = b.val * 199 + t.val
    omega
  · show Scalar.select (inRangeOf 511#32 (wrapOf 512#32 j) (ValueIdx.ix3 (n0 := 512) (n1 := 199) (n2 := 1) b t 0))
        (Host.gather gather512 p (wrapOf 512#32 j) (ValueIdx.ix3 (n0 := 512) (n1 := 199) (n2 := 1) b t 0)) _ = _
    rw [inRangeOf_apply 511#32 (by decide) _ (fun k => by
        rw [wrapOf_apply 512#32 j (k 0) (k 1) (by have := hj (ValueIdx.ix2 (k 0) (k 1)); omega) k rfl rfl, toNat_511]
        have := hj (ValueIdx.ix2 (k 0) (k 1)); omega),
      ValueIdx.select_one, gather512_apply]
    unfold pick512
    refine congrArg p (funext fun a => Fin.ext ?_)
    match a with
    | ⟨0, _⟩ => rfl
    | ⟨1, _⟩ => rfl
    | ⟨2, _⟩ =>
      show min (wrapOf 512#32 j (ValueIdx.ix4 (n0 := 512) (n1 := 199) (n2 := 1) (n3 := 1) b t 0 0)).toInt.toNat 511
        = (j (ValueIdx.ix2 b t)).toNat % 512
      rw [wrapOf_apply 512#32 j b t (by omega) _ rfl rfl, StableHlo.Predicate.toInt_eq_toNat_of_lt (by omega),
        Int.toNat_natCast]
      omega

/-- Under positions below 2048 the host's selection out of the last axis of a [512, 199, 2048] array is the plain read. -/
theorem take2048_eq (p : FVec F S512x199x2048 .f32) (j : IVec S512x199 32) (hj : ∀ i, (j i).toNat < 2048) :
    take2048 p j = pick2048 p j := by
  funext i
  obtain ⟨b, t, rfl⟩ : ∃ (b : Fin 512) (t : Fin 199), i = ValueIdx.ix2 b t := ⟨i 0, i 1, ValueIdx.eq_ix2 i⟩
  have hbt := hj (ValueIdx.ix2 b t)
  unfold take2048
  refine (shapeCast_apply _ _ (ValueIdx.ix2 b t) (ValueIdx.ix3 (n0 := 512) (n1 := 199) (n2 := 1) b t 0) ?_).trans ?_
  · rw [Shape.rowMajor_val_three, Shape.rowMajor_val_two]
    show (b.val * 199 + t.val) * 1 + 0 = b.val * 199 + t.val
    omega
  · show Scalar.select (inRangeOf 2047#32 (wrapOf 2048#32 j) (ValueIdx.ix3 (n0 := 512) (n1 := 199) (n2 := 1) b t 0))
        (Host.gather gather2048 p (wrapOf 2048#32 j) (ValueIdx.ix3 (n0 := 512) (n1 := 199) (n2 := 1) b t 0)) _ = _
    rw [inRangeOf_apply 2047#32 (by decide) _ (fun k => by
        rw [wrapOf_apply 2048#32 j (k 0) (k 1) (by have := hj (ValueIdx.ix2 (k 0) (k 1)); omega) k rfl rfl, toNat_2047]
        have := hj (ValueIdx.ix2 (k 0) (k 1)); omega),
      ValueIdx.select_one, gather2048_apply]
    unfold pick2048
    refine congrArg p (funext fun a => Fin.ext ?_)
    match a with
    | ⟨0, _⟩ => rfl
    | ⟨1, _⟩ => rfl
    | ⟨2, _⟩ =>
      show min (wrapOf 2048#32 j (ValueIdx.ix4 (n0 := 512) (n1 := 199) (n2 := 1) (n3 := 1) b t 0 0)).toInt.toNat 2047
        = (j (ValueIdx.ix2 b t)).toNat % 2048
      rw [wrapOf_apply 2048#32 j b t (by omega) _ rfl rfl, StableHlo.Predicate.toInt_eq_toNat_of_lt (by omega),
        Int.toNat_natCast]
      omega

/-- The signed clamp into [0, 511] is the identity on positions below 512. -/
theorem clip512_eq (j : IVec S512x199 32) (hj : ∀ i, (j i).toNat < 512) : clipOf 0#32 511#32 j = j := by
  funext i
  show IntOp.minsi 511#32 (IntOp.maxsi 0#32 (j i)) = j i
  exact clamp_word _ _ (by decide) (by rw [toNat_511]; have := hj i; omega)

/-- The signed clamp into [0, 2047] is the identity on positions below 2048. -/
theorem clip2048_eq (j : IVec S512x199 32) (hj : ∀ i, (j i).toNat < 2048) : clipOf 0#32 2047#32 j = j := by
  funext i
  show IntOp.minsi 2047#32 (IntOp.maxsi 0#32 (j i)) = j i
  exact clamp_word _ _ (by decide) (by rw [toNat_2047]; have := hj i; omega)

end Cert.Bridge
-- ==== Proof.BridgeFn.lean ====
/-
  Pointwise identities at the ideal float instance, where a float is an extended real and there is no not-a-number.
  * The host's probability `1 / (1 + e^(-x))`, spelt with a quotient, a sum, an exponential and a negation, is the
    one operation `logistic` at every element.
  * The host's binary cross entropy in logit form and the kernel's spelling of it are one function of the two
    elements: the host negates where the kernel subtracts from zero, and `0 - z = -z` at every extended real; the
    branch either spelling would take at a not-a-number is never taken, since no extended real differs from itself.
  * A row's count of the steps that are not after its last positive skill id is at least one as soon as the row's
    first skill id is positive, so the guard `max n 1` on that count is the identity.
-/
import proofs.«403331_j53609781789270_3_alg».proof.Proof.Spec
import proofs.«403331_j53609781789270_3_alg».proof.Proof.LibSums
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Idealize.ShloMosaic.Lib.StableHlo.Predicate

noncomputable section

open scoped BigOperators

namespace Cert.Bridge

open Idealize.ShloMosaic Cert.Spec

/-! ## The two constant arrays and the two constant words -/

/-- Every element of the array of zeros is the extended real zero. -/
theorem zeros_apply (i : S512x199.Idx) : zeros (F := Ideal) i = 0 := Ideal.ofBits_zero_f32

/-- Every element of the array of ones is the extended real one. -/
theorem ones_apply (i : S512x199.Idx) : ones (F := Ideal) i = 1 := Ideal.ofBits_one_f32

/-- The word of zero is the extended real zero. -/
theorem zeroW_eq : zeroW (F := Ideal) = 0 := Ideal.ofBits_zero_f32

/-- The word of one is the extended real one. -/
theorem oneW_eq : oneW (F := Ideal) = 1 := Ideal.ofBits_one_f32

/-! ## The probability -/

/-- The host's `1 / (1 + e^(-x))` is `logistic` at every element: the latter is by definition the quotient of one by
    one plus the exponential of the negated argument. -/
theorem sigOf_eq (x : FVec Ideal S512x199 .f32) : sigOf (F := Ideal) x = fun i => FloatOps.logistic (x i) := by
  funext i
  show Ideal.div (ones (F := Ideal) i) (ones (F := Ideal) i + Ideal.exp (-(x i))) = Ideal.logistic (x i)
  rw [ones_apply]
  rfl

/-! ## The cross entropy -/

/-- No extended real differs from itself, so a select on that comparison takes its second branch. -/
theorem select_ne_self {α : Type} (p : CmpFPredicate) (hp : p = .une ∨ p = .one) (z : Ideal .f32) (u v : α) :
    Scalar.select (FloatOps.cmpf p z z) u v = v := by
  rcases hp with rfl | rfl <;> simp [Scalar.select, Ideal.cmpf_def, Ideal.cmp]

/-- `log (1 + e^y)`: the host's spelling at an element is the kernel's. -/
theorem softplusOf_apply (y : FVec Ideal S512x199 .f32) (i : S512x199.Idx) :
    softplusOf (F := Ideal) y i = softplusK (F := Ideal) (y i) := by
  show Scalar.select (FloatOps.cmpf .une (y i - zeros (F := Ideal) i) (y i - zeros (F := Ideal) i)) (y i + zeros (F := Ideal) i)
      (max (y i) (zeros (F := Ideal) i)
        + Ideal.log1p (Ideal.exp (-(FloatOps.absf (y i - zeros (F := Ideal) i)))))
    = Scalar.select (FloatOps.cmpf .one (y i - zeroW (F := Ideal)) (y i - zeroW (F := Ideal))) (y i + zeroW (F := Ideal))
      (max (y i) (zeroW (F := Ideal))
        + Ideal.log1p (Ideal.exp (zeroW (F := Ideal) - FloatOps.absf (y i - zeroW (F := Ideal)))))
  rw [select_ne_self _ (Or.inl rfl), select_ne_self _ (Or.inr rfl), zeros_apply, zeroW_eq, zero_sub]

/-- `log (1 / (1 + e^(-x)))`: the host's spelling at an element is the kernel's. -/
theorem logsigOf_apply (x : FVec Ideal S512x199 .f32) (i : S512x199.Idx) :
    logsigOf (F := Ideal) x i = logsigK (F := Ideal) (x i) := by
  show -(softplusOf (F := Ideal) (Host.negf x) i) = zeroW (F := Ideal) - softplusK (F := Ideal) (zeroW (F := Ideal) - x i)
  rw [softplusOf_apply, zeroW_eq, zero_sub, zero_sub]
  rfl

/-- The host's binary cross entropy is the kernel's at every element. -/
theorem bceOf_eq (a x : FVec Ideal S512x199 .f32) : bceOf (F := Ideal) a x = fun i => bceK (F := Ideal) (a i) (x i) := by
  funext i
  show -(a i * logsigOf (F := Ideal) x i + (ones (F := Ideal) i - a i) * logsigOf (F := Ideal) (Host.negf x) i)
    = zeroW (F := Ideal) - (a i * logsigK (F := Ideal) (x i)
        + (oneW (F := Ideal) - a i) * logsigK (F := Ideal) (zeroW (F := Ideal) - x i))
  rw [logsigOf_apply, logsigOf_apply, ones_apply, oneW_eq, zeroW_eq, zero_sub, zero_sub]
  rfl

/-! ## The row count's guard -/

/-- The signed maximum of two words, read as an integer, is the larger of the two signed readings. -/
theorem toInt_maxsi (x y : BitVec 32) : (IntOp.maxsi x y).toInt = max x.toInt y.toInt := by
  unfold IntOp.maxsi
  by_cases h : y.toInt < x.toInt
  · rw [if_pos (BitVec.slt_iff_toInt_lt.mpr h), max_eq_left (le_of_lt h)]
  · rw [if_neg (fun hs => h (BitVec.slt_iff_toInt_lt.mp hs)), max_eq_right (not_lt.mp h)]

/-- A fold of the signed maximum over a finite family is, in the signed order, at least each member. -/
theorem le_fold_maxsi {κ : Type} [DecidableEq κ] (S : Finset κ) (init : BitVec 32) (f : κ → BitVec 32) (k : κ)
    (hk : k ∈ S) : (f k).toInt ≤ (S.fold IntOp.maxsi init f).toInt := by
  induction S using Finset.induction_on with
  | empty => exact absurd hk (Finset.notMem_empty k)
  | insert a S ha ih =>
    rw [Finset.fold_insert ha, toInt_maxsi]
    rcases Finset.mem_insert.1 hk with rfl | h
    · exact le_max_left _ _
    · exact le_trans (ih h) (le_max_right _ _)

/-- The index `(b, t)` of a `[512, 199]` array reduces, along axis 1, to the index `b`. -/
theorem drop_ix2 (b : Fin 512) (t : Fin 199) :
    reducesTo_S512x199_S512_d1.drop (ValueIdx.ix2 b t) = ValueIdx.ix1 b := by
  funext a
  match a with
  | ⟨0, _⟩ => rfl

/-- The index `(b, t)` given by cases on the axis: its two spellings are one function. -/
theorem ix2_eq_ij (b : Fin 512) (t : Fin 199) : ValueIdx.ix2 b t = StableHlo.Predicate.ij b t := by
  funext a
  match a with
  | ⟨0, _⟩ => rfl
  | ⟨1, _⟩ => rfl

/-- The index `b` of a one-axis array: its two spellings are one function. -/
theorem ofFin_eq_ix1 (b : Fin 512) : Shape.Idx.ofFin b = ValueIdx.ix1 b := by
  funext a
  match a with
  | ⟨0, _⟩ => rfl

/-- The step number at `(b, t)` is the word of `t`: the row of step numbers laid down every row. -/
theorem stepNo_apply (b : Fin 512) (t : Fin 199) : stepNo (ValueIdx.ix2 b t) = BitVec.ofNat 32 t.val := by
  rw [ix2_eq_ij]
  exact StableHlo.Predicate.bcast_cols _ _ _ b t

/-- A per-row word laid along every step reads, at `(b, t)`, the word of row `b`. -/
theorem rowWord_apply (v : IVec S512 32) (b : Fin 512) (t : Fin 199) :
    broadcastInDim S512x199 ![0, 1] bcast_S512x1_S512x199_0_1 (broadcastInDim S512x1 ![0] bcast_S512_S512x1_0 v)
      (ValueIdx.ix2 b t) = v (ValueIdx.ix1 b) := by
  rw [ix2_eq_ij, ← ofFin_eq_ix1]
  exact StableHlo.Predicate.bcast_rows _ _ v b t

/-- If a row's first skill id is positive, the row's last step with a positive skill id is not negative: the signed
    maximum is at least its member at step 0, which is the word of 0. -/
theorem lastOf_nonneg (s : IVec S512x199 32) (b : Fin 512)
    (hs : 0 < (s (ValueIdx.ix2 b (0 : Fin 199))).toInt) : 0 ≤ (lastOf s (ValueIdx.ix1 b)).toInt := by
  unfold lastOf
  rw [Host.reduce_eq_fold]
  classical
  refine le_trans ?_ (le_fold_maxsi _ _ _ (ValueIdx.ix2 b (0 : Fin 199))
    (Finset.mem_filter.2 ⟨Finset.mem_univ _, drop_ix2 b 0⟩))
  have h0 : (0#32 : BitVec 32).toInt = 0 := by decide
  have hc : IntOp.cmpi .sgt (s (ValueIdx.ix2 b (0 : Fin 199))) 0#32 = 1#1 := by
    show BitVec.ofBool ((0#32 : BitVec 32).slt (s (ValueIdx.ix2 b (0 : Fin 199)))) = 1#1
    rw [BitVec.slt_iff_toInt_lt.mpr (by rw [h0]; exact hs)]
    rfl
  show 0 ≤ (Scalar.select (IntOp.cmpi .sgt (s (ValueIdx.ix2 b (0 : Fin 199))) 0#32)
    (stepNo (ValueIdx.ix2 b (0 : Fin 199))) 4294967295#32).toInt
  rw [hc, ValueIdx.select_one, stepNo_apply]
  exact le_of_eq h0.symm

/-- Every element of the mask is a natural number as a real, so it is not negative. -/
theorem maskOf_nonneg (s : IVec S512x199 32) (i : S512x199.Idx) : 0 ≤ maskOf (F := Ideal) s i := by
  show (0 : EReal) ≤ (((BitVec.toNat _ : ℕ) : ℝ) : EReal)
  exact EReal.coe_nonneg.mpr (Nat.cast_nonneg _)

/-- If a row's first skill id is positive, the mask's entry at the row's step 0 is one: step 0 is not after a last
    step that is not negative. -/
theorem maskOf_first (s : IVec S512x199 32) (b : Fin 512)
    (hs : 0 < (s (ValueIdx.ix2 b (0 : Fin 199))).toInt) : maskOf (F := Ideal) s (ValueIdx.ix2 b (0 : Fin 199)) = 1 := by
  have h0 : (BitVec.ofNat 32 (0 : Fin 199).val).toInt = 0 := by decide
  have hc : IntOp.cmpi .sle (BitVec.ofNat 32 (0 : Fin 199).val) (lastOf s (ValueIdx.ix1 b)) = 1#1 := by
    show BitVec.ofBool ((BitVec.ofNat 32 (0 : Fin 199).val).sle (lastOf s (ValueIdx.ix1 b))) = 1#1
    rw [BitVec.sle_iff_toInt_le.mpr (by rw [h0]; exact lastOf_nonneg s b hs)]
    rfl
  show (((IntOp.cmpi .sle (stepNo (ValueIdx.ix2 b (0 : Fin 199)))
    (broadcastInDim S512x199 ![0, 1] bcast_S512x1_S512x199_0_1 (broadcastInDim S512x1 ![0] bcast_S512_S512x1_0 (lastOf s))
      (ValueIdx.ix2 b (0 : Fin 199)))).toNat : ℝ) : EReal) = 1
  rw [stepNo_apply, rowWord_apply, hc]
  norm_num

/-- If every row's first skill id is positive, every row's count is at least one: it is a sum of entries that are
    not negative, and the entry at step 0 is one. -/
theorem one_le_rowSum_maskOf (s : IVec S512x199 32)
    (hs : ∀ b : Fin 512, 0 < (s (ValueIdx.ix2 b (0 : Fin 199))).toInt) (j : S512.Idx) :
    1 ≤ rowSum (maskOf (F := Ideal) s) j := by
  have e : rowSum (maskOf (F := Ideal) s) j
      = Ideal.hostReduceAdd reducesTo_S512x199_S512_d1 (maskOf (F := Ideal) s) (Ideal.ofBits .f32 0x00000000#32) j := rfl
  rw [e]
  unfold Ideal.hostReduceAdd
  rw [Ideal.ofBits_zero_f32, zero_add]
  refine le_trans (le_of_eq (maskOf_first s (j 0) (hs (j 0))).symm) ?_
  exact Finset.single_le_sum (f := maskOf (F := Ideal) s) (fun i _ => maskOf_nonneg s i)
    (Finset.mem_filter.2 ⟨Finset.mem_univ _, (drop_ix2 (j 0) 0).trans (ValueIdx.eq_ix1 j).symm⟩)

/-- Under that hypothesis the guard `max n 1` on the row counts is the identity. -/
theorem guard_eq (s : IVec S512x199 32) (hs : ∀ b : Fin 512, 0 < (s (ValueIdx.ix2 b (0 : Fin 199))).toInt) :
    guardOf (F := Ideal) (rowSum (maskOf s)) = rowSum (maskOf (F := Ideal) s) := by
  funext j
  show max (rowSum (maskOf (F := Ideal) s) j) (Ideal.ofBits .f32 0x3F800000#32) = rowSum (maskOf (F := Ideal) s) j
  rw [Ideal.ofBits_one_f32]
  exact max_eq_left (one_le_rowSum_maskOf s hs j)

end Cert.Bridge

end
-- ==== Proof.PreFacts.lean ====
/-
  What the precondition says of the integer table, decoded. Every question id of the steps 1 … 199 lies in [1, 2048] and
  every skill id in [1, 512], as signed words; so an id minus one, read unsigned, is a position of the axis it indexes
  (below 2048, below 512), and every skill id is positive. The precondition compares blocks cut directly out of the
  table, the specification cuts the same blocks in two steps (the steps first, then the column): both read the same
  entry of the table at every index, because the offsets of a slice of a slice add.
-/
import proofs.«403331_j53609781789270_3_alg».proof.Pre_finite_inputs
import proofs.«403331_j53609781789270_3_alg».proof.Proof.Gen.Pre_finite_inputs
import proofs.«403331_j53609781789270_3_alg».proof.Proof.Spec
import Idealize.ShloMosaic.Lib.ReduceAll
import Idealize.ShloMosaic.Lib.StableHlo.Predicate

noncomputable section

namespace Cert.PreFacts

open Idealize.ShloMosaic Cert.Spec

/-- The scalar shape has one index. -/
instance : Subsingleton Cert.Spec.S_.Idx := ⟨fun a b => funext fun d => d.elim0⟩

/-- A slice of a slice is the slice at the summed offsets: column `c` of the steps 1 … 199, cut in two steps, is the
    block of the table at `(0, 1, c)`. -/
theorem slice_slice (B : IVec S512x200x3 32) (c : Nat) (h1 : S512x200x3.Slices ![0, 1, c] S512x199x1)
    (h2 : S512x200x3.Slices ![0, 1, 0] S512x199x3) (h3 : S512x199x3.Slices ![0, 0, c] S512x199x1) :
    extractStridedSlice S512x199x1 ![0, 1, c] B h1
      = extractStridedSlice S512x199x1 ![0, 0, c] (extractStridedSlice S512x199x3 ![0, 1, 0] B h2) h3 := by
  funext j
  unfold extractStridedSlice
  refine congrArg B (funext fun a => Fin.ext ?_)
  match a with
  | ⟨0, _⟩ => simp
  | ⟨1, _⟩ => simp
  | ⟨2, _⟩ => simp

/-- The precondition's array of question ids is the specification's. -/
theorem col0_eq (B : IVec S512x200x3 32) (h1 : S512x200x3.Slices ![0, 1, 0] S512x199x1) (h2 : S512x199x1.ShapeCasts S512x199) :
    shapeCast S512x199 (extractStridedSlice S512x199x1 ![0, 1, 0] B h1) h2 = col0 B :=
  congrArg (fun v => shapeCast S512x199 v h2)
    (slice_slice B 0 h1 slices_S512x200x3_S512x199x3_0_1_0 slices_S512x199x3_S512x199x1_0_0_0)

/-- The precondition's array of skill ids is the specification's. -/
theorem col1_eq (B : IVec S512x200x3 32) (h1 : S512x200x3.Slices ![0, 1, 1] S512x199x1) (h2 : S512x199x1.ShapeCasts S512x199) :
    shapeCast S512x199 (extractStridedSlice S512x199x1 ![0, 1, 1] B h1) h2 = col1 B :=
  congrArg (fun v => shapeCast S512x199 v h2)
    (slice_slice B 1 h1 slices_S512x200x3_S512x199x3_0_1_0 slices_S512x199x3_S512x199x1_0_0_1)

/-- A signed word in `[1, N]`, less one, is below `N` as a natural number. -/
theorem toNat_sub_one_lt (x : BitVec 32) (N : Nat) (h1 : 1 ≤ x.toInt) (h2 : x.toInt ≤ N) : (x - 1#32).toNat < N := by
  have e := BitVec.toInt_eq_toNat_cond x
  have hx := x.isLt
  have hle : (1#32 : BitVec 32) ≤ x := by
    rw [BitVec.le_def]
    show 1 ≤ x.toNat
    omega
  rw [BitVec.toNat_sub_of_le hle]
  show x.toNat - 1 < N
  omega

/-- The four range conjuncts of the precondition, at every (row, step): the question id in `[1, 2048]` and the skill id
    in `[1, 512]`, signed. -/
theorem bounds {F : FTy → Type} [FloatOps F] (P : FVec F Cert.Spec.S512x199x512 .f32) (Q : FVec F Cert.Spec.S512x199x2048 .f32)
    (B : IVec Cert.Spec.S512x200x3 32) (h : Cert.Pre_finite_inputs.fn (F := F) P Q B = fun _ => 1#1) (i : S512x199.Idx) :
    (1 ≤ (col0 B i).toInt ∧ (col0 B i).toInt ≤ 2048) ∧ (1 ≤ (col1 B i).toInt ∧ (col1 B i).toInt ≤ 512) := by
  have e := congrFun h ValueIdx.ix0
  dsimp only [Cert.Pre_finite_inputs.fn, Cert.Pre_finite_inputs.fn_part1] at e
  simp only [andi, IntOp.andi_eq_one] at e
  obtain ⟨⟨⟨⟨-, h13⟩, h19⟩, h25⟩, h31⟩ := e
  have g13 := IntOp.cmpi_sge.mp (Host.reduce_andi_all _ _ _ _ _ h13 i)
  have g19 := IntOp.cmpi_sle.mp (Host.reduce_andi_all _ _ _ _ _ h19 i)
  have g25 := IntOp.cmpi_sge.mp (Host.reduce_andi_all _ _ _ _ _ h25 i)
  have g31 := IntOp.cmpi_sle.mp (Host.reduce_andi_all _ _ _ _ _ h31 i)
  rw [col0_eq] at g13 g19
  rw [col1_eq] at g25 g31
  exact ⟨⟨g13, g19⟩, ⟨g25, g31⟩⟩

/-- So an id minus one is a position of the axis it indexes, and every skill id is positive. -/
theorem ranges {F : FTy → Type} [FloatOps F] (P : FVec F Cert.Spec.S512x199x512 .f32) (Q : FVec F Cert.Spec.S512x199x2048 .f32) (B : IVec Cert.Spec.S512x200x3 32)
    (h : Cert.Pre_finite_inputs.fn (F := F) P Q B = fun _ => 1#1) :
    (∀ i, (Cert.Spec.idxOf (Cert.Spec.col0 B) i).toNat < 2048) ∧ (∀ i, (Cert.Spec.idxOf (Cert.Spec.col1 B) i).toNat < 512)
      ∧ (∀ i, 0 < (Cert.Spec.col1 B i).toInt) := by
  refine ⟨fun i => ?_, fun i => ?_, fun i => ?_⟩
  · exact toNat_sub_one_lt (col0 B i) 2048 (bounds P Q B h i).1.1 (bounds P Q B h i).1.2
  · exact toNat_sub_one_lt (col1 B i) 512 (bounds P Q B h i).2.1 (bounds P Q B h i).2.2
  · exact lt_of_lt_of_le Int.zero_lt_one (bounds P Q B h i).2.1

end Cert.PreFacts

end
-- ==== Proof.lean ====
/-
  The certificate of a ragged-sequence loss kernel against its jnp reference, over the extended reals.

  Both programs read an integer table `batch` [512, 200, 3] (per row and step: a question id, a skill id, an answer) and two
  logit arrays `p_s` [512, 199, 512], `p_q` [512, 199, 2048]. For the steps 1 … 199 each selects the logit at position
  `id − 1` of the last axis, takes its probability `1 / (1 + e^(−x))` and its binary cross entropy against the answer in
  logit form, keeps the steps up to the row's last positive skill id, and returns the loss (per row the kept entropies
  summed over the kept count, summed over the rows), the kept mean probability and the kept answer, both flattened.

  The kernel selects by a one-hot sum over the lanes inside two pallas_calls (which also take the probability and the
  entropy) after CLAMPING the position into the axis; the reference's `take_along_axis` wraps a negative position and
  fills a not-a-number outside the axis. So the claim is stated where every id minus one is a position of its axis:
  `1 ≤ question id ≤ 2048` and `1 ≤ skill id ≤ 512` on the steps read. There the clamp is the identity, the one-hot sum and
  the gather are the same plain read, every skill id is positive so each row keeps all its steps and the kernel's guard
  `max (count, 1)` is the identity, and the two spellings of the probability and of the entropy (the kernel negates by
  subtracting from zero and has one operation for the logistic function) are one function of an extended real.

  The modules: `Spec` (the functions of whole arrays both runs are read against), `KRun` / `KHost` / `KReg0` / `KReg1` (the
  kernel program's run: every buffer's final contents, the host operations before and after the launches, what each
  launch leaves in its output arrays), `RRun` / `RVal` (the reference's run and its results), `BridgeIdx` / `BridgeFn` /
  `PreFacts` (the position facts, the pointwise identities, the ranges read out of the precondition). Here: the three
  results as functions of the arguments, both runs ending at them, and the five claims.
-/
import proofs.«403331_j53609781789270_3_alg».proof.Defs
import proofs.«403331_j53609781789270_3_alg».proof.Proof.Gen.Kernel
import proofs.«403331_j53609781789270_3_alg».proof.Proof.Gen.Kernel.Skeleton
import proofs.«403331_j53609781789270_3_alg».proof.Proof.Gen.Kernel.Launch
import proofs.«403331_j53609781789270_3_alg».proof.Proof.Gen.Kernel.Points
import proofs.«403331_j53609781789270_3_alg».proof.Proof.Gen.Kernel.Frame
import proofs.«403331_j53609781789270_3_alg».proof.Proof.Gen.KernelIdeal
import proofs.«403331_j53609781789270_3_alg».proof.Proof.Gen.KernelIdeal.Skeleton
import proofs.«403331_j53609781789270_3_alg».proof.Proof.Gen.KernelIdeal.Launch
import proofs.«403331_j53609781789270_3_alg».proof.Proof.Gen.KernelIdeal.Points
import proofs.«403331_j53609781789270_3_alg».proof.Proof.Gen.KernelIdeal.Frame
import proofs.«403331_j53609781789270_3_alg».proof.Proof.Gen.ReferenceIdeal
import proofs.«403331_j53609781789270_3_alg».proof.Proof.Gen.Pre_finite_inputs
import proofs.«403331_j53609781789270_3_alg».proof.Proof.Spec
import proofs.«403331_j53609781789270_3_alg».proof.Proof.KRun
import proofs.«403331_j53609781789270_3_alg».proof.Proof.KHost
import proofs.«403331_j53609781789270_3_alg».proof.Proof.KReg0
import proofs.«403331_j53609781789270_3_alg».proof.Proof.KReg1
import proofs.«403331_j53609781789270_3_alg».proof.Proof.RVal
import proofs.«403331_j53609781789270_3_alg».proof.Proof.BridgeIdx
import proofs.«403331_j53609781789270_3_alg».proof.Proof.BridgeFn
import proofs.«403331_j53609781789270_3_alg».proof.Proof.PreFacts
import Idealize.ShloMosaic.Lib.StableHlo.Run
import Idealize.ShloMosaic.Lib.ValueIdx
import Idealize.ShloMosaic.Adequacy
import Idealize.ShloMosaic.Init

noncomputable section

/-! ## The three results as functions of the argument arrays -/

namespace Cert.Proof.Values

open Idealize.ShloMosaic Cert.Spec

/-- The skill logit each (row, step) selects: position `skill id − 1` of the last axis. -/
def xs (P : FVec Ideal S512x199x512 .f32) (B : IVec S512x200x3 32) : FVec Ideal S512x199 .f32 := pick512 P (idxOf (col1 B))
/-- The question logit each (row, step) selects: position `question id − 1`. -/
def xq (Q : FVec Ideal S512x199x2048 .f32) (B : IVec S512x200x3 32) : FVec Ideal S512x199 .f32 := pick2048 Q (idxOf (col0 B))
/-- The loss. -/
def loss (P : FVec Ideal S512x199x512 .f32) (Q : FVec Ideal S512x199x2048 .f32) (B : IVec S512x200x3 32) : FVec Ideal S_ .f32 :=
  lossOf (maskOf (col1 B)) (fun i => bceK (F := Ideal) (ansOf (F := Ideal) B i) (xs P B i))
    (fun i => bceK (F := Ideal) (ansOf (F := Ideal) B i) (xq Q B i)) (rowSum (maskOf (col1 B)))
/-- The prediction. -/
def pred (P : FVec Ideal S512x199x512 .f32) (Q : FVec Ideal S512x199x2048 .f32) (B : IVec S512x200x3 32) : FVec Ideal S101888 .f32 :=
  predOf (fun i => FloatOps.logistic (xs P B i)) (fun i => FloatOps.logistic (xq Q B i)) (maskOf (col1 B))
/-- The ground truth. -/
def truth (B : IVec S512x200x3 32) : FVec Ideal S101888 .f32 := truthOf (ansOf (F := Ideal) B) (maskOf (col1 B))

end Cert.Proof.Values

/-! ## The kernel program's run ends at them -/

namespace Cert.Proof.KernelSide

open Idealize.ShloMosaic Idealize.ShloMosaic.TcCoe Idealize.SL.Sem
open Cert.KernelIdeal Cert.KernelIdeal.Gen Cert.KernelIdeal.Host Cert.Proof.Values

variable (m : (ℓ : Loc nD τ sig) → Buf (Elt Ideal) ℓ) (ρ : Dev nD → PrngReg)

/-- Under the precondition every weakly fair execution of the kernel program ends with its three results at the
    specification's functions of the argument arrays, the arguments unchanged: the launches are handed positions the
    clamp leaves alone, so each leaves the selected logit's probability and entropy, and the row count is at least
    one, so its guard is the identity. -/
theorem run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v41)
        = loss (m ((c.tc : Thread nD τ).loc main_arg0)) (m ((c.tc : Thread nD τ).loc main_arg1)) (m ((c.tc : Thread nD τ).loc main_arg2))
      ∧ r.2.mem ((c.tc : Thread nD τ).loc main_v43)
        = pred (m ((c.tc : Thread nD τ).loc main_arg0)) (m ((c.tc : Thread nD τ).loc main_arg1)) (m ((c.tc : Thread nD τ).loc main_arg2))
      ∧ r.2.mem ((c.tc : Thread nD τ).loc main_v45) = truth (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (Cert.KernelIdeal.GenRun.run_main m ρ)
  obtain ⟨hq, hs, hpos⟩ := Cert.PreFacts.ranges _ _ _ (hpre c)
  -- what the two launches are handed: the positions themselves, the logits and the answers
  have i5 : V5 m ρ c main_v10 = Cert.Spec.idxOf (Cert.Spec.col1 (m ((c.tc : Thread nD τ).loc main_arg2))) :=
    (W5_v10 m ρ c).trans (Cert.Bridge.clip512_eq _ hs)
  have a5 : V5 m ρ c main_v15 = Cert.Spec.ansOf (F := Ideal) (m ((c.tc : Thread nD τ).loc main_arg2)) := W5_v15 m ρ c
  have p5 : V5 m ρ c main_arg0 = m ((c.tc : Thread nD τ).loc main_arg0) := W5_arg0 m ρ c
  have i6 : V6 m ρ c main_v5 = Cert.Spec.idxOf (Cert.Spec.col0 (m ((c.tc : Thread nD τ).loc main_arg2))) :=
    (W6_v5 m ρ c).trans ((W5_v5 m ρ c).trans (Cert.Bridge.clip2048_eq _ hq))
  have a6 : V6 m ρ c main_v15 = Cert.Spec.ansOf (F := Ideal) (m ((c.tc : Thread nD τ).loc main_arg2)) :=
    (W6_v15 m ρ c).trans (W5_v15 m ρ c)
  have q6 : V6 m ρ c main_arg1 = m ((c.tc : Thread nD τ).loc main_arg1) := (W6_arg1 m ρ c).trans (W5_arg1 m ρ c)
  have hj0 : ∀ i : Cert.Spec.S512x199.Idx, ((V5 m ρ c main_v10 : IVec Cert.Spec.S512x199 32) i).toNat < 512 := by
    rw [i5]; exact hs
  have hj1 : ∀ i : Cert.Spec.S512x199.Idx, ((V6 m ρ c main_v5 : IVec Cert.Spec.S512x199 32) i).toNat < 2048 := by
    rw [i6]; exact hq
  have hpos' : ∀ b : Fin 512, 0 < (Cert.Spec.col1 (m ((c.tc : Thread nD τ).loc main_arg2)) (ValueIdx.ix2 b (0 : Fin 199))).toInt :=
    fun b => hpos _
  refine ⟨(h c main_v41 (by decide)).trans ?_, (h c main_v43 (by decide)).trans ?_, (h c main_v45 (by decide)).trans ?_,
    (h c main_arg0 (by decide)).trans (W10_main_arg0 m ρ c), (h c main_arg1 (by decide)).trans (W10_main_arg1 m ρ c),
    (h c main_arg2 (by decide)).trans (W10_main_arg2 m ρ c)⟩
  · rw [W10_v41, W7_v12, W5_v12, W7_v16_1, W7_v17_1, Cert.KernelIdeal.Reg0.out4 (V5 m ρ) c hj0,
      Cert.KernelIdeal.Reg1.out4 (V6 m ρ) c hj1, a5, p5, i5, a6, q6, i6, Cert.Bridge.guard_eq _ hpos']
    rfl
  · rw [W10_v43, W7_v12, W5_v12, W7_v16_0, W7_v17_0, Cert.KernelIdeal.Reg0.out3 (V5 m ρ) c hj0,
      Cert.KernelIdeal.Reg1.out3 (V6 m ρ) c hj1, p5, i5, q6, i6]
    rfl
  · rw [W10_v45, W7_v12, W5_v12, W7_v15, W5_v15]
    rfl

end Cert.Proof.KernelSide

/-! ## The reference's run ends at them -/

namespace Cert.Proof.ReferenceSide

open Idealize.ShloMosaic Idealize.ShloMosaic.TcCoe Idealize.SL.Sem
open Cert.ReferenceIdeal Cert.ReferenceIdeal.Gen Cert.Proof.Values

variable (m : (ℓ : Loc nD τ sig) → Buf (Elt Ideal) ℓ) (ρ : Dev nD → PrngReg)

/-- Where every id minus one is a position of its axis, every weakly fair execution of the reference ends with its three
    results at the same functions: its `take_along_axis` is then the plain read, and its probability and entropy are the
    kernel's, one element at a time. -/
theorem run
    (hq : ∀ c : Dev nD, ∀ i, (Cert.Spec.idxOf (Cert.Spec.col0 (m ((c.tc : Thread nD τ).loc main_arg2))) i).toNat < 2048)
    (hs : ∀ c : Dev nD, ∀ i, (Cert.Spec.idxOf (Cert.Spec.col1 (m ((c.tc : Thread nD τ).loc main_arg2))) i).toNat < 512) :
    θ_run (defs (F := Ideal)) (onTc (τ := τ) (main (F := Ideal))) ⟨m, fun _ => 0, ρ⟩ (fun r => ∀ c : Dev nD,
      r.2.mem ((c.tc : Thread nD τ).loc main_v72)
        = loss (m ((c.tc : Thread nD τ).loc main_arg0)) (m ((c.tc : Thread nD τ).loc main_arg1)) (m ((c.tc : Thread nD τ).loc main_arg2))
      ∧ r.2.mem ((c.tc : Thread nD τ).loc main_v74)
        = pred (m ((c.tc : Thread nD τ).loc main_arg0)) (m ((c.tc : Thread nD τ).loc main_arg1)) (m ((c.tc : Thread nD τ).loc main_arg2))
      ∧ r.2.mem ((c.tc : Thread nD τ).loc main_v76) = truth (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (Cert.ReferenceIdeal.Val.run (F := Ideal) m ρ)
  obtain ⟨h1, h2, h3, h4, h5, h6⟩ := h c
  refine ⟨h1.trans ?_, h2.trans ?_, h3, h4, h5, h6⟩
  · rw [Cert.Bridge.take512_eq _ _ (hs c), Cert.Bridge.take2048_eq _ _ (hq c), Cert.Bridge.bceOf_eq, Cert.Bridge.bceOf_eq]
    rfl
  · rw [Cert.Bridge.take512_eq _ _ (hs c), Cert.Bridge.take2048_eq _ _ (hq c), Cert.Bridge.sigOf_eq, Cert.Bridge.sigOf_eq]
    rfl

end Cert.Proof.ReferenceSide

/-! ## The claims -/

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped; the positions are in range by the precondition. -/
theorem frame_referenceIdeal : Cert.frame_ReferenceIdeal := fun m ρ hpre =>
  (θ_run Cert.ReferenceIdeal.defs _ _).mono (fun _ h c => ⟨(h c).2.2.2.1, (h c).2.2.2.2.1, (h c).2.2.2.2.2⟩)
    (Cert.Proof.ReferenceSide.run m ρ (fun c => (Cert.PreFacts.ranges _ _ _ (hpre c)).1)
      (fun c => (Cert.PreFacts.ranges _ _ _ (hpre c)).2.1))

theorem preserves : Cert.preserves_Kernel_KernelIdeal := trivial

/-- Both programs, from memories agreeing on the arguments, end at the same three functions of the arguments. -/
theorem algebraic : Cert.algebraic_KernelIdeal_ReferenceIdeal := by
  intro m ρ m' ρ' hpre hagree
  refine ⟨fun c => Cert.Proof.Values.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Proof.Values.pred (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Proof.Values.truth (m ((c.tc : Thread Cert.KernelIdeal.nD Cert.KernelIdeal.τ).loc Cert.KernelIdeal.main_arg2)),
    Cert.Proof.KernelSide.run m ρ hpre, ?_⟩
  have hr := fun c => Cert.PreFacts.ranges _ _ _ (hpre c)
  refine (θ_run Cert.ReferenceIdeal.defs _ _).mono (fun _ h c => ?_)
    (Cert.Proof.ReferenceSide.run m' ρ'
      (fun c => by rw [(hagree c).2.2]; exact (hr c).1) (fun c => by rw [(hagree c).2.2]; exact (hr c).2.1))
  obtain ⟨h1, h2, h3, h4, h5, h6⟩ := h c
  refine ⟨?_, ?_, ?_, h4, h5, h6⟩
  · rw [h1, (hagree c).1, (hagree c).2.1, (hagree c).2.2]
  · rw [h2, (hagree c).1, (hagree c).2.1, (hagree c).2.2]
  · rw [h3, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
